-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S139x128 : Shape := ⟨2, ![139, 128]⟩
abbrev S_ : Shape := ⟨0, ![]⟩

class Facts : Prop where
  bcast_S_S139x128 : S_.BroadcastsInDim S139x128 (![] : Fin 0 → Fin S139x128.rank)
  reducesTo_S139x128_S_d0_1 : S139x128.ReducesTo [0, 1] S_
  h_S_ : 0 < S_.numel

variable [Facts]

def fn {F : FTy → Type} [FloatOps F] (main_arg0 : IVec S1x1024 32) (main_arg1 : IVec S1x1024 32) (main_arg2 : IVec S1x1024 32) (main_arg3 : IVec S1x1024 32) (main_arg4 : IVec S1x1024 32) (main_arg5 : FVec F S139x128 .f32) : IVec S_ 1 :=
  let main_v0 : FVec F S139x128 .f32 := Host.absf main_arg5
  let main_cst : FVec F S_ .f32 := constant S_ .f32 0x7F800000#32
  let main_v1 : FVec F S139x128 .f32 := broadcastInDim S139x128 ![] bcast_S_S139x128 main_cst
  let main_v2 : IVec S139x128 1 := cmpf .olt main_v0 main_v1
  let main_c : IVec S_ 1 := constantI S_ 1 1#1
  let main_v3 : IVec S_ 1 := (fun x v => Host.reduce IntOp.andi x v reducesTo_S139x128_S_d0_1 h_S_) main_v2 main_c
  main_v3
-- ==== Kernel.lean ====
abbrev S1x1024 : Shape := ⟨2, ![1, 1024]⟩
abbrev S139x128 : Shape := ⟨2, ![139, 128]⟩
abbrev S1x1024x1024x128 : Shape := ⟨4, ![1, 1024, 1024, 128]⟩
abbrev S1x128 : Shape := ⟨2, ![1, 128]⟩
abbrev S1x128x128x128 : Shape := ⟨4, ![1, 128, 128, 128]⟩
abbrev S128 : Shape := ⟨1, ![128]⟩
abbrev S128x1 : Shape := ⟨2, ![128, 1]⟩
abbrev S128x128 : Shape := ⟨2, ![128, 128]⟩
abbrev S66x128 : Shape := ⟨2, ![66, 128]⟩
abbrev S6x128 : Shape := ⟨2, ![6, 128]⟩
abbrev S128x128x66 : Shape := ⟨3, ![128, 128, 66]⟩
abbrev S128x128x1 : Shape := ⟨3, ![128, 128, 1]⟩
abbrev S16384x66 : Shape := ⟨2, ![16384, 66]⟩
abbrev S16384x128 : Shape := ⟨2, ![16384, 128]⟩
abbrev S128x128x6 : Shape := ⟨3, ![128, 128, 6]⟩
abbrev S16384x6 : Shape := ⟨2, ![16384, 6]⟩
abbrev S128x128x128 : Shape := ⟨3, ![128, 128, 128]⟩
abbrev S1x1x128 : Shape := ⟨3, ![1, 1, 128]⟩

abbrev nBuf : Space → Nat
  | .hbm => 7
  | .vmem => 23
  | .smem => 0
  | _ => 0

abbrev bufTy : (tb : Table) → Fin (tcTables nBuf tb) → BufTy
  | .hbm, ⟨0, _⟩ => ⟨S1x1024, .i32⟩
  | .hbm, ⟨1, _⟩ => ⟨S1x1024, .i32⟩
  | .hbm, ⟨2, _⟩ => ⟨S1x1024, .i32⟩
  | .hbm, ⟨3, _⟩ => ⟨S1x1024, .i32⟩
  | .hbm, ⟨4, _⟩ => ⟨S1x1024, .i32⟩
  | .hbm, ⟨5, _⟩ => ⟨S139x128, .f32⟩
  | .hbm, ⟨6, _⟩ => ⟨S1x1024x1024x128, .f32⟩
  | .local _ .vmem, ⟨0, _⟩ => ⟨S1x128, .i32⟩
  | .local _ .vmem, ⟨1, _⟩ => ⟨S1x128, .i32⟩
  | .local _ .vmem, ⟨2, _⟩ => ⟨S1x128, .i32⟩
  | .local _ .vmem, ⟨3, _⟩ => ⟨S1x128, .i32⟩
  | .local _ .vmem, ⟨4, _⟩ => ⟨S1x128, .i32⟩
  | .local _ .vmem, ⟨5, _⟩ => ⟨S1x128, .i32⟩
  | .local _ .vmem, ⟨6, _⟩ => ⟨S1x128, .i32⟩
  | .local _ .vmem, ⟨7, _⟩ => ⟨S1x128, .i32⟩
  | .local _ .vmem, ⟨8, _⟩ => ⟨S1x128, .i32⟩
  | .local _ .vmem, ⟨9, _⟩ => ⟨S1x128, .i32⟩
  | .local _ .vmem, ⟨10, _⟩ => ⟨S1x128, .i32⟩
  | .local _ .vmem, ⟨11, _⟩ => ⟨S1x128, .i32⟩
  | .local _ .vmem, ⟨12, _⟩ => ⟨S1x128, .i32⟩
  | .local _ .vmem, ⟨13, _⟩ => ⟨S1x128, .i32⟩
  | .local _ .vmem, ⟨14, _⟩ => ⟨S1x128, .i32⟩
  | .local _ .vmem, ⟨15, _⟩ => ⟨S1x128, .i32⟩
  | .local _ .vmem, ⟨16, _⟩ => ⟨S1x128, .i32⟩
  | .local _ .vmem, ⟨17, _⟩ => ⟨S1x128, .i32⟩
  | .local _ .vmem, ⟨18, _⟩ => ⟨S1x128, .i32⟩
  | .local _ .vmem, ⟨19, _⟩ => ⟨S1x128, .i32⟩
  | .local _ .vmem, ⟨20, _⟩ => ⟨S139x128, .f32⟩
  | .local _ .vmem, ⟨21, _⟩ => ⟨S1x128x128x128, .f32⟩
  | .local _ .vmem, ⟨22, _⟩ => ⟨S1x128x128x128, .f32⟩
  | _, _ => ⟨S1x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x128 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S139x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  inb_S1x128_S1x128_0_0 : ∀ a, (![0, 0] : Fin 2 → Nat) a + S1x128.size a ≤ S1x128.size a
  h_S1x128 : 0 < S1x128.numel
  shapeCasts_S1x128_S128 : S1x128.ShapeCasts S128
  shapeCasts_S128_S128x1 : S128.ShapeCasts S128x1
  shapeCasts_S128_S1x128 : S128.ShapeCasts S1x128
  broadcasts_S1x128_S128x128 : S1x128.Broadcasts S128x128
  broadcasts_S128x1_S128x128 : S128x1.Broadcasts S128x128
  inb_S139x128_S139x128_0_0 : ∀ a, (![0, 0] : Fin 2 → Nat) a + S139x128.size a ≤ S139x128.size a
  h_S139x128 : 0 < S139x128.numel
  slices_S139x128_o0_0_S66x128 : S139x128.Slices ![0, 0] S66x128
  slices_S139x128_o66_0_S66x128 : S139x128.Slices ![66, 0] S66x128
  slices_S139x128_o132_0_S1x128 : S139x128.Slices ![132, 0] S1x128
  slices_S139x128_o133_0_S6x128 : S139x128.Slices ![133, 0] S6x128
  iota_S128x128x66_d2_w32 : S128x128x66.Iotas .tc 32 [2]
  shapeCasts_S128x128_S128x128x1 : S128x128.ShapeCasts S128x128x1
  broadcasts_S128x128x1_S128x128x66 : S128x128x1.Broadcasts S128x128x66
  natLt_1_32 : 1 < 32
  shapeCasts_S128x128x66_S16384x66 : S128x128x66.ShapeCasts S16384x66
  iota_S128x128x6_d2_w32 : S128x128x6.Iotas .tc 32 [2]
  broadcasts_S128x128x1_S128x128x6 : S128x128x1.Broadcasts S128x128x6
  shapeCasts_S128x128x6_S16384x6 : S128x128x6.ShapeCasts S16384x6
  shapeCasts_S16384x128_S128x128x128 : S16384x128.ShapeCasts S128x128x128
  shapeCasts_S128_S1x1x128 : S128.ShapeCasts S1x1x128
  broadcasts_S128x128x1_S128x128x128 : S128x128x1.Broadcasts S128x128x128
  broadcasts_S1x1x128_S128x128x128 : S1x1x128.Broadcasts S128x128x128
  inb_S1x128x128x128_S1x128x128x128_0_0_0_0 : ∀ a, (![0, 0, 0, 0] : Fin 4 → Nat) a + S1x128x128x128.size a ≤ S1x128x128x128.size a
  h_S1x128x128x128 : 0 < S1x128x128x128.numel
  shapeCasts_S1x128x128x128_S128x128x128 : S1x128x128x128.ShapeCasts S128x128x128
  shapeCasts_S128x128x128_S1x128x128x128 : S128x128x128.ShapeCasts S1x128x128x128
  dot_S16384x66_S66x128_S16384x128_1_0_0_1_n_n_wf : DotDims.WF S16384x66 S66x128 S16384x128 [1] [0] [0] [1] [] []
  dot_S16384x6_S6x128_S16384x128_1_0_0_1_n_n_wf : DotDims.WF S16384x6 S6x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x1024.size a
  hwx0_0 : ∀ i : grid0.Coords, EltTy.bits .i32 = 32 ∨ (Rect.block (s := S1x1024) S1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x1024.size a
  hwx0_1 : ∀ i : grid0.Coords, EltTy.bits .i32 = 32 ∨ (Rect.block (s := S1x1024) S1x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x1024.size a
  hwx0_2 : ∀ i : grid0.Coords, EltTy.bits .i32 = 32 ∨ (Rect.block (s := S1x1024) S1x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x1024.size a
  hwx0_3 : ∀ i : grid0.Coords, EltTy.bits .i32 = 32 ∨ (Rect.block (s := S1x1024) S1x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x1024.size a
  hwx0_4 : ∀ i : grid0.Coords, EltTy.bits .i32 = 32 ∨ (Rect.block (s := S1x1024) S1x128.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x1024.size a
  hwx0_5 : ∀ i : grid0.Coords, EltTy.bits .i32 = 32 ∨ (Rect.block (s := S1x1024) S1x128.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x1024.size a
  hwx0_6 : ∀ i : grid0.Coords, EltTy.bits .i32 = 32 ∨ (Rect.block (s := S1x1024) S1x128.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x1024.size a
  hwx0_7 : ∀ i : grid0.Coords, EltTy.bits .i32 = 32 ∨ (Rect.block (s := S1x1024) S1x128.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x1024.size a
  hwx0_8 : ∀ i : grid0.Coords, EltTy.bits .i32 = 32 ∨ (Rect.block (s := S1x1024) S1x128.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x1024.size a
  hwx0_9 : ∀ i : grid0.Coords, EltTy.bits .i32 = 32 ∨ (Rect.block (s := S1x1024) S1x128.size (cc0_transform_9 i) (hinb0_9 i)).WholeWords (EltTy.packing .i32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S139x128.size a ≤ S139x128.size a
  hwx0_10 : ∀ i : grid0.Coords, EltTy.bits .f32 = 32 ∨ (Rect.block (s := S139x128) S139x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x128x128x128.size a ≤ S1x1024x1024x128.size a
  hwx0_11 : ∀ i : grid0.Coords, EltTy.bits .f32 = 32 ∨ (Rect.block (s := S1x1024x1024x128) S1x128x128x128.size (cc0_transform_11 i) (hinb0_11 i)).WholeWords (EltTy.packing .f32)

variable [Facts₀]

def dot_S16384x66_S66x128_S16384x128_1_0_0_1_n_n : DotDims S16384x66 S66x128 S16384x128 where
  lhsContracting := [1]
  rhsContracting := [0]
  lhsNonContracting := [0]
  rhsNonContracting := [1]
  lhsBatch := []
  rhsBatch := []
  wf := dot_S16384x66_S66x128_S16384x128_1_0_0_1_n_n_wf
def dot_S16384x6_S6x128_S16384x128_1_0_0_1_n_n : DotDims S16384x6 S6x128 S16384x128 where
  lhsContracting := [1]
  rhsContracting := [0]
  lhsNonContracting := [0]
  rhsNonContracting := [1]
  lhsBatch := []
  rhsBatch := []
  wf := dot_S16384x6_S6x128_S16384x128_1_0_0_1_n_n_wf

abbrev win0_0 : Pipeline.Window sig grid0 :=
  Pipeline.Window.ofSpec (Memref.whole main_arg0) S1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S1x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S1x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S1x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg4) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg5) S139x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S1x128x128x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1x1024 : Shape := ⟨2, ![1, 1024]⟩
abbrev S139x128 : Shape := ⟨2, ![139, 128]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S_ : Shape := ⟨0, ![]⟩
abbrev S1x1024x1024x1 : Shape := ⟨4, ![1, 1024, 1024, 1]⟩
abbrev S1 : Shape := ⟨1, ![1]⟩
abbrev S1x1x1x1 : Shape := ⟨4, ![1, 1, 1, 1]⟩
abbrev S1x1024x1024x128 : Shape := ⟨4, ![1, 1024, 1024, 128]⟩
abbrev S1x128 : Shape := ⟨2, ![1, 128]⟩
abbrev S128 : Shape := ⟨1, ![128]⟩
abbrev S1x1x1x128 : Shape := ⟨4, ![1, 1, 1, 128]⟩

abbrev nBuf : Space → Nat
  | .hbm => 167
  | .vmem => 0
  | .smem => 0
  | _ => 0

abbrev hbmTy0_0 (i : Nat) : BufTy := match i % 128 with
  | 0 => ⟨S1x1024, .i32⟩
  | 1 => ⟨S1x1024, .i32⟩
  | 2 => ⟨S1x1024, .i32⟩
  | 3 => ⟨S1x1024, .i32⟩
  | 4 => ⟨S1x1024, .i32⟩
  | 5 => ⟨S139x128, .f32⟩
  | 6 => ⟨S1x1024x1, .i32⟩
  | 7 => ⟨S1x1x1024, .i32⟩
  | 8 => ⟨S1x1024x1, .i32⟩
  | 9 => ⟨S1x1x1024, .i32⟩
  | 10 => ⟨S1x1024x1, .i32⟩
  | 11 => ⟨S1x1x1024, .i32⟩
  | 12 => ⟨S1x1024x1, .i32⟩
  | 13 => ⟨S1x1x1024, .i32⟩
  | 14 => ⟨S1x1024x1, .i32⟩
  | 15 => ⟨S1x1x1024, .i32⟩
  | 16 => ⟨S1x1024x1024, .i32⟩
  | 17 => ⟨S1x1024x1024, .i32⟩
  | 18 => ⟨S1x1024x1024, .i1⟩
  | 19 => ⟨S1x1024x1024, .i32⟩
  | 20 => ⟨S1x1024x1024, .i32⟩
  | 21 => ⟨S1x1024x1024, .i1⟩
  | 22 => ⟨S1x1024x1024, .i32⟩
  | 23 => ⟨S1x1024x1024, .i32⟩
  | 24 => ⟨S1x1024x1024, .i1⟩
  | 25 => ⟨S1x1024x1024, .i32⟩
  | 26 => ⟨S1x1024x1024, .i32⟩
  | 27 => ⟨S1x1024x1024, .i32⟩
  | 28 => ⟨S_, .i32⟩
  | 29 => ⟨S1x1024x1024, .i32⟩
  | 30 => ⟨S1x1024x1024, .i32⟩
  | 31 => ⟨S_, .i32⟩
  | 32 => ⟨S_, .i32⟩
  | 33 => ⟨S_, .i32⟩
  | 34 => ⟨S1x1024x1024, .i32⟩
  | 35 => ⟨S1x1024x1024, .i32⟩
  | 36 => ⟨S_, .i32⟩
  | 37 => ⟨S1x1024x1024, .i32⟩
  | 38 => ⟨S1x1024x1024, .i32⟩
  | 39 => ⟨S_, .i32⟩
  | 40 => ⟨S_, .i32⟩
  | 41 => ⟨S1x1024x1024, .i32⟩
  | 42 => ⟨S1x1024x1024, .i32⟩
  | 43 => ⟨S1x1024x1024, .i1⟩
  | 44 => ⟨S1x1024x1024, .i32⟩
  | 45 => ⟨S1x1024x1024, .i32⟩
  | 46 => ⟨S1x1024x1024, .i32⟩
  | 47 => ⟨S_, .i32⟩
  | 48 => ⟨S1x1024x1024, .i32⟩
  | 49 => ⟨S1x1024x1024, .i32⟩
  | 50 => ⟨S_, .i32⟩
  | 51 => ⟨S_, .i32⟩
  | 52 => ⟨S_, .i32⟩
  | 53 => ⟨S1x1024x1024, .i32⟩
  | 54 => ⟨S1x1024x1024, .i32⟩
  | 55 => ⟨S_, .i32⟩
  | 56 => ⟨S1x1024x1024, .i32⟩
  | 57 => ⟨S1x1024x1024, .i32⟩
  | 58 => ⟨S_, .i32⟩
  | 59 => ⟨S_, .i32⟩
  | 60 => ⟨S1x1024x1024, .i32⟩
  | 61 => ⟨S1x1024x1024, .i32⟩
  | 62 => ⟨S1x1024x1024, .i1⟩
  | 63 => ⟨S1x1024x1024, .i32⟩
  | 64 => ⟨S1x1024x1024, .i32⟩
  | 65 => ⟨S1x1024x1024, .i32⟩
  | 66 => ⟨S_, .i32⟩
  | 67 => ⟨S1x1024x1024, .i32⟩
  | 68 => ⟨S1x1024x1024, .i32⟩
  | 69 => ⟨S_, .i32⟩
  | 70 => ⟨S_, .i32⟩
  | 71 => ⟨S_, .i32⟩
  | 72 => ⟨S1x1024x1024, .i32⟩
  | 73 => ⟨S1x1024x1024, .i32⟩
  | 74 => ⟨S_, .i32⟩
  | 75 => ⟨S1x1024x1024, .i32⟩
  | 76 => ⟨S1x1024x1024, .i32⟩
  | 77 => ⟨S_, .i32⟩
  | 78 => ⟨S_, .i32⟩
  | 79 => ⟨S1x1024x1024, .i32⟩
  | 80 => ⟨S1x1024x1024, .i32⟩
  | 81 => ⟨S_, .i32⟩
  | 82 => ⟨S1x1024x1024, .i32⟩
  | 83 => ⟨S1x1024x1024, .i1⟩
  | 84 => ⟨S_, .i32⟩
  | 85 => ⟨S1x1024x1024, .i32⟩
  | 86 => ⟨S1x1024x1024, .i32⟩
  | 87 => ⟨S1x1024x1024, .i32⟩
  | 88 => ⟨S1x1024x1024x1, .i32⟩
  | 89 => ⟨S1, .i32⟩
  | 90 => ⟨S_, .i32⟩
  | 91 => ⟨S1x1024x1024x1, .i32⟩
  | 92 => ⟨S1x1024x1024x1, .i1⟩
  | 93 => ⟨S1x1x1x1, .i32⟩
  | 94 => ⟨S1x1024x1024x1, .i32⟩
  | 95 => ⟨S1x1024x1024x1, .i1⟩
  | 96 => ⟨S1x1024x1024x1, .i1⟩
  | 97 => ⟨S_, .i1⟩
  | 98 => ⟨S1x1024x1024, .i1⟩
  | 99 => ⟨S1x1024x1024x128, .f32⟩
  | 100 => ⟨S1x1024x1024x128, .i1⟩
  | 101 => ⟨S_, .f32⟩
  | 102 => ⟨S1x1024x1024x128, .f32⟩
  | 103 => ⟨S1x1024x1024x128, .f32⟩
  | 104 => ⟨S_, .i32⟩
  | 105 => ⟨S1x1024x1024, .i32⟩
  | 106 => ⟨S1x1024x1024, .i32⟩
  | 107 => ⟨S_, .i32⟩
  | 108 => ⟨S1x1024x1024, .i32⟩
  | 109 => ⟨S1x1024x1024, .i1⟩
  | 110 => ⟨S_, .i32⟩
  | 111 => ⟨S1x1024x1024, .i32⟩
  | 112 => ⟨S1x1024x1024, .i32⟩
  | 113 => ⟨S1x1024x1024, .i32⟩
  | 114 => ⟨S1x1024x1024x1, .i32⟩
  | 115 => ⟨S1, .i32⟩
  | 116 => ⟨S_, .i32⟩
  | 117 => ⟨S1x1024x1024x1, .i32⟩
  | 118 => ⟨S1x1024x1024x1, .i1⟩
  | 119 => ⟨S1x1x1x1, .i32⟩
  | 120 => ⟨S1x1024x1024x1, .i32⟩
  | 121 => ⟨S1x1024x1024x1, .i1⟩
  | 122 => ⟨S1x1024x1024x1, .i1⟩
  | 123 => ⟨S_, .i1⟩
  | 124 => ⟨S1x1024x1024, .i1⟩
  | 125 => ⟨S1x1024x1024x128, .f32⟩
  | 126 => ⟨S1x1024x1024x128, .i1⟩
  | 127 => ⟨S_, .f32⟩
  | _ => ⟨S1x1024, .i32⟩

abbrev hbmTy0_1 (i : Nat) : BufTy := match i % 128 with
  | 0 => ⟨S1x1024x1024x128, .f32⟩
  | 1 => ⟨S1x1024x1024x128, .f32⟩
  | 2 => ⟨S1x1024x1024x128, .f32⟩
  | 3 => ⟨S1x1024x1024, .f32⟩
  | 4 => ⟨S1x1024x1024x1, .f32⟩
  | 5 => ⟨S1x128, .f32⟩
  | 6 => ⟨S128, .f32⟩
  | 7 => ⟨S1x1x1x128, .f32⟩
  | 8 => ⟨S1x1024x1024x128, .f32⟩
  | 9 => ⟨S1x1024x1024x128, .f32⟩
  | 10 => ⟨S1x1024x1024x128, .f32⟩
  | 11 => ⟨S1x1024x1024x128, .f32⟩
  | 12 => ⟨S_, .i32⟩
  | 13 => ⟨S1x1024x1024, .i32⟩
  | 14 => ⟨S1x1024x1024, .i32⟩
  | 15 => ⟨S_, .i32⟩
  | 16 => ⟨S1x1024x1024, .i32⟩
  | 17 => ⟨S1x1024x1024, .i1⟩
  | 18 => ⟨S_, .i32⟩
  | 19 => ⟨S1x1024x1024, .i32⟩
  | 20 => ⟨S1x1024x1024, .i32⟩
  | 21 => ⟨S1x1024x1024, .i32⟩
  | 22 => ⟨S1x1024x1024x1, .i32⟩
  | 23 => ⟨S1, .i32⟩
  | 24 => ⟨S_, .i32⟩
  | 25 => ⟨S1x1024x1024x1, .i32⟩
  | 26 => ⟨S1x1024x1024x1, .i1⟩
  | 27 => ⟨S1x1x1x1, .i32⟩
  | 28 => ⟨S1x1024x1024x1, .i32⟩
  | 29 => ⟨S1x1024x1024x1, .i1⟩
  | 30 => ⟨S1x1024x1024x1, .i1⟩
  | 31 => ⟨S_, .i1⟩
  | 32 => ⟨S1x1024x1024, .i1⟩
  | 33 => ⟨S1x1024x1024x128, .f32⟩
  | 34 => ⟨S1x1024x1024x128, .i1⟩
  | 35 => ⟨S_, .f32⟩
  | 36 => ⟨S1x1024x1024x128, .f32⟩
  | 37 => ⟨S1x1024x1024x128, .f32⟩
  | 38 => ⟨S1x1024x1024x128, .f32⟩
  | _ => ⟨S1x1024, .i32⟩

abbrev hbmTy (i : Nat) : BufTy := match i / 128 with
  | 0 => hbmTy0_0 i
  | 1 => hbmTy0_1 i
  | _ => ⟨S1x1024, .i32⟩

abbrev bufTy : (tb : Table) → Fin (tcTables nBuf tb) → BufTy
  | .hbm, ⟨i, _⟩ => hbmTy i
  | _, _ => ⟨S1x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_c_0 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_c_2 : Ref sig .tc := ⟨.hbm, 39, rfl⟩
abbrev main_call1_v0 : Ref sig .tc := ⟨.hbm, 40, rfl⟩
abbrev main_call1_v1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_3 : Ref sig .tc := ⟨.hbm, 47, rfl⟩
abbrev main_v30 : Ref sig .tc := ⟨.hbm, 48, rfl⟩
abbrev main_v31 : Ref sig .tc := ⟨.hbm, 49, rfl⟩
abbrev main_c_4 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v32 : Ref sig .tc := ⟨.hbm, 57, rfl⟩
abbrev main_c_6 : Ref sig .tc := ⟨.hbm, 58, rfl⟩
abbrev main_call3_v0 : Ref sig .tc := ⟨.hbm, 59, rfl⟩
abbrev main_call3_v1 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_7 : Ref sig .tc := ⟨.hbm, 66, rfl⟩
abbrev main_v38 : Ref sig .tc := ⟨.hbm, 67, rfl⟩
abbrev main_v39 : Ref sig .tc := ⟨.hbm, 68, rfl⟩
abbrev main_c_8 : Ref sig .tc := ⟨.hbm, 69, rfl⟩
abbrev main_c_9 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v40 : Ref sig .tc := ⟨.hbm, 76, rfl⟩
abbrev main_c_10 : Ref sig .tc := ⟨.hbm, 77, rfl⟩
abbrev main_call5_v0 : Ref sig .tc := ⟨.hbm, 78, rfl⟩
abbrev main_call5_v1 : Ref sig .tc := ⟨.hbm, 79, rfl⟩
abbrev main_v41 : Ref sig .tc := ⟨.hbm, 80, rfl⟩
abbrev main_call6_c : Ref sig .tc := ⟨.hbm, 81, rfl⟩
abbrev main_call6_v0 : Ref sig .tc := ⟨.hbm, 82, rfl⟩
abbrev main_call6_v1 : Ref sig .tc := ⟨.hbm, 83, rfl⟩
abbrev main_call6_c_0 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_v5 : Ref sig .tc := ⟨.hbm, 88, rfl⟩
abbrev main_call6_c_1 : Ref sig .tc := ⟨.hbm, 89, rfl⟩
abbrev main_call6_c_2 : Ref sig .tc := ⟨.hbm, 90, rfl⟩
abbrev main_call6_v6 : Ref sig .tc := ⟨.hbm, 91, rfl⟩
abbrev main_call6_v7 : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_v11 : Ref sig .tc := ⟨.hbm, 96, rfl⟩
abbrev main_call6_c_3 : Ref sig .tc := ⟨.hbm, 97, rfl⟩
abbrev main_call6_v12 : Ref sig .tc := ⟨.hbm, 98, rfl⟩
abbrev main_call6_v13 : Ref sig .tc := ⟨.hbm, 99, rfl⟩
abbrev main_call6_v14 : Ref sig .tc := ⟨.hbm, 100, rfl⟩
abbrev main_call6_cst : Ref sig .tc := ⟨.hbm, 101, rfl⟩
abbrev main_call6_v15 : Ref sig .tc := ⟨.hbm, 102, rfl⟩
abbrev main_v42 : Ref sig .tc := ⟨.hbm, 103, rfl⟩
abbrev main_c_11 : Ref sig .tc := ⟨.hbm, 104, rfl⟩
abbrev main_v43 : Ref sig .tc := ⟨.hbm, 105, rfl⟩
abbrev main_v44 : Ref sig .tc := ⟨.hbm, 106, rfl⟩
abbrev main_call7_c : Ref sig .tc := ⟨.hbm, 107, rfl⟩
abbrev main_call7_v0 : Ref sig .tc := ⟨.hbm, 108, rfl⟩
abbrev main_call7_v1 : Ref sig .tc := ⟨.hbm, 109, rfl⟩
abbrev main_call7_c_0 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_v5 : Ref sig .tc := ⟨.hbm, 114, rfl⟩
abbrev main_call7_c_1 : Ref sig .tc := ⟨.hbm, 115, rfl⟩
abbrev main_call7_c_2 : Ref sig .tc := ⟨.hbm, 116, rfl⟩
abbrev main_call7_v6 : Ref sig .tc := ⟨.hbm, 117, rfl⟩
abbrev main_call7_v7 : Ref sig .tc := ⟨.hbm, 118, rfl⟩
abbrev main_call7_v8 : Ref sig .tc := ⟨.hbm, 119, rfl⟩
abbrev main_call7_v9 : Ref sig .tc := ⟨.hbm, 120, rfl⟩
abbrev main_call7_v10 : Ref sig .tc := ⟨.hbm, 121, rfl⟩
abbrev main_call7_v11 : Ref sig .tc := ⟨.hbm, 122, rfl⟩
abbrev main_call7_c_3 : Ref sig .tc := ⟨.hbm, 123, rfl⟩
abbrev main_call7_v12 : Ref sig .tc := ⟨.hbm, 124, rfl⟩
abbrev main_call7_v13 : Ref sig .tc := ⟨.hbm, 125, rfl⟩
abbrev main_call7_v14 : Ref sig .tc := ⟨.hbm, 126, rfl⟩
abbrev main_call7_cst : Ref sig .tc := ⟨.hbm, 127, rfl⟩
abbrev main_call7_v15 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_v52 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_c_12 : Ref sig .tc := ⟨.hbm, 140, rfl⟩
abbrev main_v56 : Ref sig .tc := ⟨.hbm, 141, rfl⟩
abbrev main_v57 : Ref sig .tc := ⟨.hbm, 142, rfl⟩
abbrev main_call8_c : Ref sig .tc := ⟨.hbm, 143, rfl⟩
abbrev main_call8_v0 : Ref sig .tc := ⟨.hbm, 144, rfl⟩
abbrev main_call8_v1 : Ref sig .tc := ⟨.hbm, 145, rfl⟩
abbrev main_call8_c_0 : Ref sig .tc := ⟨.hbm, 146, rfl⟩
abbrev main_call8_v2 : Ref sig .tc := ⟨.hbm, 147, rfl⟩
abbrev main_call8_v3 : Ref sig .tc := ⟨.hbm, 148, rfl⟩
abbrev main_call8_v4 : Ref sig .tc := ⟨.hbm, 149, rfl⟩
abbrev main_call8_v5 : Ref sig .tc := ⟨.hbm, 150, rfl⟩
abbrev main_call8_c_1 : Ref sig .tc := ⟨.hbm, 151, rfl⟩
abbrev main_call8_c_2 : Ref sig .tc := ⟨.hbm, 152, rfl⟩
abbrev main_call8_v6 : Ref sig .tc := ⟨.hbm, 153, rfl⟩
abbrev main_call8_v7 : Ref sig .tc := ⟨.hbm, 154, rfl⟩
abbrev main_call8_v8 : Ref sig .tc := ⟨.hbm, 155, rfl⟩
abbrev main_call8_v9 : Ref sig .tc := ⟨.hbm, 156, rfl⟩
abbrev main_call8_v10 : Ref sig .tc := ⟨.hbm, 157, rfl⟩
abbrev main_call8_v11 : Ref sig .tc := ⟨.hbm, 158, rfl⟩
abbrev main_call8_c_3 : Ref sig .tc := ⟨.hbm, 159, rfl⟩
abbrev main_call8_v12 : Ref sig .tc := ⟨.hbm, 160, rfl⟩
abbrev main_call8_v13 : Ref sig .tc := ⟨.hbm, 161, rfl⟩
abbrev main_call8_v14 : Ref sig .tc := ⟨.hbm, 162, rfl⟩
abbrev main_call8_cst : Ref sig .tc := ⟨.hbm, 163, rfl⟩
abbrev main_call8_v15 : Ref sig .tc := ⟨.hbm, 164, rfl⟩
abbrev main_v58 : Ref sig .tc := ⟨.hbm, 165, rfl⟩
abbrev main_v59 : Ref sig .tc := ⟨.hbm, 166, rfl⟩

abbrev nD : Nat := 1
abbrev τ : Topo := Topo.v7x

variable {F : FTy → Type} [FloatOps F]

class Facts₀ : Prop where
  bcast_S1x1024_S1x1024x1_0_1 : S1x1024.BroadcastsInDim S1x1024x1 (![0, 1] : Fin 2 → Fin S1x1024x1.rank)
  bcast_S1x1024_S1x1x1024_0_2 : S1x1024.BroadcastsInDim S1x1x1024 (![0, 2] : Fin 2 → Fin S1x1x1024.rank)
  bcast_S1x1x1024_S1x1024x1024_0_1_2 : S1x1x1024.BroadcastsInDim S1x1024x1024 (![0, 1, 2] : Fin 3 → Fin S1x1024x1024.rank)
  bcast_S1x1024x1_S1x1024x1024_0_1_2 : S1x1024x1.BroadcastsInDim S1x1024x1024 (![0, 1, 2] : Fin 3 → Fin S1x1024x1024.rank)
  bcast_S_S1x1024x1024 : S_.BroadcastsInDim S1x1024x1024 (![] : Fin 0 → Fin S1x1024x1024.rank)
  bcast_S1x1024x1024_S1x1024x1024x1_0_1_2 : S1x1024x1024.BroadcastsInDim S1x1024x1024x1 (![0, 1, 2] : Fin 3 → Fin S1x1024x1024x1.rank)
  bcast_S_S1x1024x1024x1 : S_.BroadcastsInDim S1x1024x1024x1 (![] : Fin 0 → Fin S1x1024x1024x1.rank)
  bcast_S1_S1x1x1x1_3 : S1.BroadcastsInDim S1x1x1x1 (![3] : Fin 1 → Fin S1x1x1x1.rank)
  bcast_S1x1x1x1_S1x1024x1024x1_0_1_2_3 : S1x1x1x1.BroadcastsInDim S1x1024x1024x1 (![0, 1, 2, 3] : Fin 4 → Fin S1x1024x1024x1.rank)
  reducesTo_S1x1024x1024x1_S1x1024x1024_d3 : S1x1024x1024x1.ReducesTo [3] S1x1024x1024
  h_S_ : 0 < S_.numel
  bcast_S1x1024x1024_S1x1024x1024x128_0_1_2 : S1x1024x1024.BroadcastsInDim S1x1024x1024x128 (![0, 1, 2] : Fin 3 → Fin S1x1024x1024x128.rank)
  bcast_S_S1x1024x1024x128 : S_.BroadcastsInDim S1x1024x1024x128 (![] : Fin 0 → Fin S1x1024x1024x128.rank)
  slices_S139x128_S1x128_132_0 : S139x128.Slices ![132, 0] S1x128
  shapeCasts_S1x128_S128 : S1x128.ShapeCasts S128
  bcast_S128_S1x1x1x128_3 : S128.BroadcastsInDim S1x1x1x128 (![3] : Fin 1 → Fin S1x1x1x128.rank)
  bcast_S1x1024x1024x1_S1x1024x1024x128_0_1_2_3 : S1x1024x1024x1.BroadcastsInDim S1x1024x1024x128 (![0, 1, 2, 3] : Fin 4 → Fin S1x1024x1024x128.rank)
  bcast_S1x1x1x128_S1x1024x1024x128_0_1_2_3 : S1x1x1x128.BroadcastsInDim S1x1024x1024x128 (![0, 1, 2, 3] : Fin 4 → Fin S1x1024x1024x128.rank)
  gather_S139x128_S1x1024x1024x1_S1x1024x1024x128_3_0_n_n_0_3_1128_wf : GatherDims.WF S139x128 S1x1024x1024x1 S1x1024x1024x128 [3] [0] [] [0] [] 3 ![1, 128]

variable [Facts₀]

def gather_S139x128_S1x1024x1024x1_S1x1024x1024x128_3_0_n_n_0_3_1128 : GatherDims S139x128 S1x1024x1024x1 S1x1024x1024x128 where
  offsetDims := [3]
  collapsedSliceDims := [0]
  operandBatchingDims := []
  startIndicesBatchingDims := []
  startIndexMap := [0]
  indexVectorDim := 3
  sliceSizes := ![1, 128]
  wf := gather_S139x128_S1x1024x1024x1_S1x1024x1024x128_3_0_n_n_0_3_1128_wf

class Facts : Prop extends Facts₀ where

variable [Facts]
-- ==== Proof.KOutBits.lean ====
/-
  What one grid point of the kernel writes into its output block, as one pure function of the eleven input
  blocks: the body's arithmetic composed from the payload terms of its three parts. The ten id blocks are rows of
  128 ids (windows 0, 2, 4, 6, 8 the row-side slices of the five id vectors, windows 1, 3, 5, 7, 9 the column-side
  slices), block 10 is the whole weight matrix.
-/
import proofs.«412935_j89404039233854_3_alg».proof.Proof.Gen.Kernel.Skeleton
import Idealize.ShloMosaic.Lib.Pipeline.FrameBody

noncomputable section

namespace Cert.Kernel.Hand

open Idealize.ShloMosaic Idealize.SL.Sem Cert.Kernel Cert.Kernel.Gen

variable {F : FTy → Type} [FloatOps F]

/-- The body's stored value from the values its eleven loads return: `xa0 xa1` the row- and column-side asym ids,
    `xr0 xr1` the residue indices, `xe0 xe1` the entity ids, `xt0 xt1` the token indices, `xs0 xs1` the sym ids,
    `xw` the weights. -/
def pay (xa0 xa1 xr0 xr1 xe0 xe1 xt0 xt1 xs0 xs1 : Vec F S1x128 .i32) (xw : Vec F S139x128 .f32) : FVec F S1x128x128x128 .f32 :=
  k0_pay1 (k0_pay12 (k0_pay10 xe1) (k0_pay11 xe0))
    (k0_pay13 (k0_pay4 xt0) (k0_pay5 xt1) (k0_pay8 xa0 xa1) (k0_pay9 xr0 xr1))
    (k0_pay14 (k0_pay6 xs0) (k0_pay7 xs1) (k0_pay8 xa0 xa1))
    (k0_pay15 xw) (k0_pay16 xw) (k0_pay17 xw) (k0_pay18 xw)
    (iota .tc S128x128x66 32 [2] iota_S128x128x66_d2_w32)
    (k0_pay19 (k0_pay2 xr0) (k0_pay3 xr1) (k0_pay8 xa0 xa1))

/-- The whole-block rectangle of an id block, of the weight block and of the output block. -/
abbrev rId : Rect S1x128 := Rect.unit (s := S1x128) ![0, 0] S1x128.size inb_S1x128_S1x128_0_0
abbrev rW : Rect S139x128 := Rect.unit (s := S139x128) ![0, 0] S139x128.size inb_S139x128_S139x128_0_0
abbrev rOut : Rect S1x128x128x128 := Rect.unit (s := S1x128x128x128) ![0, 0, 0, 0] S1x128x128x128.size inb_S1x128x128x128_S1x128x128x128_0_0_0_0

/-- The output window's staging buffer after the body: its one store, the stored value over the loaded blocks. -/
def out11 (x0 x1 x2 x3 x4 x5 x6 x7 x8 x9 : Vec F S1x128 .i32) (x10 : Vec F S139x128 .f32) : Vec F S1x128x128x128 .f32 :=
  View.canon [⟨rOut, pay (View.ld x0 rId) (View.ld x1 rId) (View.ld x2 rId) (View.ld x3 rId) (View.ld x4 rId) (View.ld x5 rId)
    (View.ld x6 rId) (View.ld x7 rId) (View.ld x8 rId) (View.ld x9 rId) (View.ld x10 rW)⟩]

end Cert.Kernel.Hand

end
-- ==== Proof.KBodyBits.lean ====
/-
  The kernel body's separation-logic triple. On whole staging memrefs, the eleven input blocks at the contents
  x0 … x10 and the output block at anything, the body runs to its continuation with the inputs' blocks as they
  were and the output block at out11 x0 … x10: the one piece the body's single whole-block store leaves, its
  payload the body's arithmetic over the eleven loaded values. The load of the output block that precedes the
  store reads a value nothing uses, so it leaves no trace in the post.
-/
import proofs.«412935_j89404039233854_3_alg».proof.Proof.Gen.Kernel.Launch
import proofs.«412935_j89404039233854_3_alg».proof.Proof.Gen.Kernel.Skeleton
import proofs.«412935_j89404039233854_3_alg».proof.Proof.Gen.Kernel.Points
import proofs.«412935_j89404039233854_3_alg».proof.Proof.KOutBits
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (UR sig nD τ) ℕ

/-- The body's one store is of the whole output block, so its one piece covers every index of the block. -/
theorem cover11 (p0 : Vec F S1x128x128x128 .f32) (y : S1x128x128x128.Idx) :
    ∃ pc ∈ ([⟨rOut, p0⟩] : List (View.Piece (Elt F) S1x128x128x128 .f32)), y ∈ pc.1.set :=
  View.cover_of_tiled [⟨rOut, p0⟩] S1x128x128x128.size (by rfl) y

set_option maxHeartbeats 1000000 in
/-- The body's triple: the two part functions load the ten id blocks and the weight block and return pure values
    of them; the root loads the output block, ignores it, and stores the composed payload over the whole block.
    What the output memref then reads is the canon of that one covering piece. -/
theorem sound_kernel (c : Dev nD) (E : Set ℕ) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 x1 x2 x3 x4 x5 x6 x7 x8 x9 : Vec F S1x128 .i32) (x10 : Vec F S139x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out11 x0 x1 x2 x3 x4 x5 x6 x7 x8 x9 x10)) -∗ K ⟨⟩))
      ⊢ wp frame (wpE (defs₀ (F := F)) Variants.none c none) E (cc0__relpos_kernel i arg2 harg2 arg3 harg3 arg4 harg4 arg5 harg5 arg6 harg6 arg7 harg7 arg8 harg8 arg9 harg9 arg10 harg10 arg11 harg11 arg12 harg12 arg13 harg13) K := by
  simp only [cc0__relpos_kernel_eq_skeleton]; unfold cc0__relpos_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover11 _)

end Cert.Kernel.Hand

end
-- ==== Proof.LibSharedFrame.lean ====
/-
  The frame run of a one-region pipeline kernel whose INPUT windows may share arrays.

  The library's frame run (`θ_run_frame`) asks that the windows' arrays be pairwise distinct: it hands every window its
  array whole, at the full share. A kernel that is given one array through several input windows — the same vector
  read once along the rows and once along the columns of a plane, say — has no such layout: the buffer behind the
  array is one, and the windows on it must split its share among themselves. This file states the same run for such
  a kernel: in place of the distinctness of the arrays it takes the splitting itself (`hsplit`), an entailment from
  the buffers behind the arrays, each whole at the full share at its contents at the region's entry, to the proof
  data's points-tos at entry, each window's at the share the data name for it.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

/-- THE FRAME RUN of a kernel of the plainest class (one region on a static grid, no semaphore or transfer of its
    own, no prefetched table, the region invariant the class's `ΦA` at every point) whose windows may SHARE ARRAYS:
    at the compiled mesh, for any values, from any memory with zero counters, every weakly fair execution of @main on
    the TensorCores terminates, and every final state satisfies `FramePost` — every window's array holds what the
    library computes from the proof data (`Dat.arrAt … N`: an input its contents at the region's entry, an output those
    overwritten by what the body left at each write-back; windows on one array end holding the same contents, each its
    own `arrAt … N`), and every other unscoped buffer what it held at the region's entry. In place of the arrays'
    distinctness and of every window lending the full share, `hsplit` says how the buffers behind the arrays, each whole
    at the full share at the entry contents `V c`, make the proof data's points-tos at entry. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfgs p).spec c (V c) ⊢ (dats p c).arrays ((dats p c).arrAt · 0))
    (hΦ : ∀ c t, (dats p c).Φ t = ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main
    hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) ((cfgs p).toPCfg (Val := Val)).pre (cfgs p).spec c (V c))
    (hX := fun c => by
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (QY := fun c s => ∀ b ∈ restRefsP sig ((cfgs p).toPCfg (Val := Val)).pre (cfgs p).spec, s.mem ((c.tc : Thread nD τ).loc b) = V c b)
    (hY := fun c s' => by
      iintro ⟨-, HU, HSI⟩
      unfold unscopedRestP
      imodintro
      iapply (pointsTo_read_all (restRefsP sig ((cfgs p).toPCfg (Val := Val)).pre (cfgs p).spec) (fun b => (c.tc : Thread nD τ).loc b) (V c) s')
      isplitl [HU] <;> iassumption)
    (hQ := fun s h c => ⟨(h c).1, rest_of_restP ((cfgs p).toPCfg (Val := Val)).pre (cfgs p).spec (fun k => k.elim0) c (V c) s (fun k => k.elim0) (h c).2.1 (h c).2.2⟩)

end FrameShared

end Pipeline

end Idealize.ShloMosaic

end
-- ==== Proof.KSplitBits.lean ====
/-
  The split of the kernel's seven array buffers among its twelve windows.

  The five id vectors are each read through two windows: a row-side window (even number) and a column-side window (odd
  number). The buffer behind such a vector, held whole at the full share when the region is entered, is divided along the
  share: the row-side window takes the left half, the column-side window the right half. The weight matrix (window 10)
  and the result (window 11, the only window written) each sit alone on their buffer and keep it whole.
-/
import proofs.«412935_j89404039233854_3_alg».proof.Proof.Gen.Kernel.Launch
import Idealize.ShloMosaic.Lib.Pipeline.Launch

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.Kernel Cert.Kernel.Gen

variable {F : FTy → Type} [FloatOps F]

local notation "𝕄" => MT nD τ sig Unit (Elt F) ℕ (UR sig nD τ) ℕ

/-- The share each window holds its array at: of an id vector the row-side window the left half and the column-side
    window the right half; the weight matrix and the result whole. -/
def qOf : Fin 12 → PosShare TreeShare := fun w => match w with | ⟨0, _⟩ => fullShare.left | ⟨1, _⟩ => fullShare.right | ⟨2, _⟩ => fullShare.left | ⟨3, _⟩ => fullShare.right | ⟨4, _⟩ => fullShare.left | ⟨5, _⟩ => fullShare.right | ⟨6, _⟩ => fullShare.left | ⟨7, _⟩ => fullShare.right | ⟨8, _⟩ => fullShare.left | ⟨9, _⟩ => fullShare.right | ⟨10, _⟩ => fullShare | ⟨11, _⟩ => fullShare

/-- One window's points-to at the region's entry, read on the buffer behind its array: the array is the whole buffer,
    and before any write-back it holds the entry contents. -/
theorem win_entry {c : Dev nD} (dat : Pipeline.Dat τ (Elt F) Unit ℕ (UR sig nD τ) ℕ cfg0 c)
    (V : (b : Ref sig .tc) → Buf (Elt F) ((c.tc : Thread nD τ).loc b)) (w : Fin 12) (q : PosShare TreeShare)
    (hs : dat.share w = q) (hA : dat.A w = V (Pipeline.arrRef spec0 w)) :
    ((cfg0.win w).arr.view.loc (c.tc : Thread nD τ) ↦[(cfg0.win w).arr.view.set]{dat.share w} dat.arrAt w 0 : sProp 𝕄)
      = (((c.tc : Thread nD τ).loc (Pipeline.arrRef spec0 w)) ↦{q} V (Pipeline.arrRef spec0 w) : sProp 𝕄) := by
  rw [(arr_whole0 w).set_eq_univ, hs]
  show (_ ↦{q} dat.A w : sProp 𝕄) = _
  rw [hA]

/-- The distinct buffers behind the twelve windows' arrays are seven: the five id vectors, the weight matrix and the
    result. -/
theorem arrBufs_chain {c : Dev nD} (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_arg1) ↦{fullShare} V main_arg1)
          ∗ (((c.tc : Thread nD τ).loc main_arg2) ↦{fullShare} V main_arg2) ∗ (((c.tc : Thread nD τ).loc main_arg3) ↦{fullShare} V main_arg3)
          ∗ (((c.tc : Thread nD τ).loc main_arg4) ↦{fullShare} V main_arg4) ∗ (((c.tc : Thread nD τ).loc main_arg5) ↦{fullShare} V main_arg5)
          ∗ (((c.tc : Thread nD τ).loc main_v0) ↦{fullShare} V main_v0)) := by
  classical
  unfold Pipeline.arrBufs
  exact bigSep_eq_bigSepL_of_eq [main_arg0, main_arg1, main_arg2, main_arg3, main_arg4, main_arg5, main_v0] (by decide) (by decide) _

/-- The buffers behind the arrays, each whole at the full share at the entry contents, make the twelve windows'
    points-tos at entry: every id vector's buffer split into its two halves, the other two handed over whole. -/
theorem arrays_of_arrBufs {c : Dev nD} (dat : Pipeline.Dat τ (Elt F) Unit ℕ (UR sig nD τ) ℕ cfg0 c)
    (V : (b : Ref sig .tc) → Buf (Elt F) ((c.tc : Thread nD τ).loc b))
    (hq : ∀ w, dat.q w = qOf w) (hA : ∀ w, dat.A w = V (Pipeline.arrRef spec0 w)) :
    (Pipeline.arrBufs spec0 c V : sProp 𝕄) ⊢ dat.arrays (dat.arrAt · 0) := by
  classical
  have hsh : ∀ w : Fin 12, dat.share w = qOf w := fun w => by
    unfold Pipeline.Dat.share
    match w with
    | ⟨0, _⟩ => exact hq _ | ⟨1, _⟩ => exact hq _ | ⟨2, _⟩ => exact hq _ | ⟨3, _⟩ => exact hq _ | ⟨4, _⟩ => exact hq _
    | ⟨5, _⟩ => exact hq _ | ⟨6, _⟩ => exact hq _ | ⟨7, _⟩ => exact hq _ | ⟨8, _⟩ => exact hq _ | ⟨9, _⟩ => exact hq _
    | ⟨10, _⟩ => exact hq _ | ⟨11, _⟩ => rfl
  unfold Pipeline.Dat.arrays
  rw [arrBufs_chain, bigSep_W0]
  rw [win_entry dat V 0 _ (hsh 0) (hA 0), win_entry dat V 1 _ (hsh 1) (hA 1), win_entry dat V 2 _ (hsh 2) (hA 2),
    win_entry dat V 3 _ (hsh 3) (hA 3), win_entry dat V 4 _ (hsh 4) (hA 4), win_entry dat V 5 _ (hsh 5) (hA 5),
    win_entry dat V 6 _ (hsh 6) (hA 6), win_entry dat V 7 _ (hsh 7) (hA 7), win_entry dat V 8 _ (hsh 8) (hA 8),
    win_entry dat V 9 _ (hsh 9) (hA 9), win_entry dat V 10 _ (hsh 10) (hA 10), win_entry dat V 11 _ (hsh 11) (hA 11)]
  iintro ⟨H0, H1, H2, H3, H4, H5, H6⟩
  ihave H0 := (pointsTo_share (PosShare.mem_left_op_right fullShare)).1 $$ H0
  icases H0 with ⟨A0, B0⟩
  ihave H1 := (pointsTo_share (PosShare.mem_left_op_right fullShare)).1 $$ H1
  icases H1 with ⟨A1, B1⟩
  ihave H2 := (pointsTo_share (PosShare.mem_left_op_right fullShare)).1 $$ H2
  icases H2 with ⟨A2, B2⟩
  ihave H3 := (pointsTo_share (PosShare.mem_left_op_right fullShare)).1 $$ H3
  icases H3 with ⟨A3, B3⟩
  ihave H4 := (pointsTo_share (PosShare.mem_left_op_right fullShare)).1 $$ H4
  icases H4 with ⟨A4, B4⟩
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [H5]; · iexact H5
  iexact H6

end Cert.Kernel.Hand

end
-- ==== Proof.KLaunchBits.lean ====
/-
  The launch of the kernel's one pipeline: its proof data, the body obligation at every grid point, the frame run
  and the frame claim.

  The grid is 8 x 8; a point t has coordinates (i, j), i the row tile and j the column tile. Windows 2k and 2k+1
  (k = 0 … 4) are the row-side block [0, 128 i ..] and the column-side block [0, 128 j ..] of the k-th id vector, so
  the two windows of a pair sit on ONE array; window 10 is the whole weight matrix and window 11 the output block
  at (0, i, j, 0). The body reads the eleven input blocks, leaves them as they are, and overwrites the whole output
  block with one value that is a function of the eleven (out11). Hence the proof data: each input window's staging
  buffer holds, at every point, the block of its array there (whether it was fetched at that point or carried over
  from the point before, the block index not having moved), and the output window's buffer after the body holds
  out11 of the eleven blocks. Because the windows of a pair share their array, the array's share is split between
  them (qOf: one half each); the run is the frame run for windows that share arrays, which takes that splitting
  in place of the arrays' distinctness.
-/
import proofs.«412935_j89404039233854_3_alg».proof.Proof.Gen.Kernel.Launch
import proofs.«412935_j89404039233854_3_alg».proof.Proof.Gen.Kernel.Skeleton
import proofs.«412935_j89404039233854_3_alg».proof.Proof.Gen.Kernel.Points
import proofs.«412935_j89404039233854_3_alg».proof.Proof.KOutBits
import proofs.«412935_j89404039233854_3_alg».proof.Proof.KBodyBits
import proofs.«412935_j89404039233854_3_alg».proof.Proof.LibSharedFrame
import proofs.«412935_j89404039233854_3_alg».proof.Proof.KSplitBits
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: as launched, since @main is the region alone. -/
abbrev V (c : Dev nD) (b : Ref sig .tc) : Buf (Elt F) ((c : Thread nD τ).loc b) := m ((c : Thread nD τ).loc b)

/-- @main up to the region, at any variants: nothing runs before the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is
    not fetched the block index has not moved since the previous point, and the body left the block in place. This
    for any proof data whose array is the region-entry contents and whose body leaves the block as it was; the
    windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The six argument arrays are inputs of the pipeline (the five id vectors each through two windows, the weights
    through one), and an input's array ends at its entry contents: so a frame run's post, read at one window of
    each array, is the frame claim's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).1 6).trans (((dats 0 c).arrAt_in 6 rfl _).trans ((hA c 6).trans (V_main_arg3 m c))),
      ((h c).1 8).trans (((dats 0 c).arrAt_in 8 rfl _).trans ((hA c 8).trans (V_main_arg4 m c))),
      ((h c).1 10).trans (((dats 0 c).arrAt_in 10 rfl _).trans ((hA c 10).trans (V_main_arg5 m c)))⟩) h

/-! ## The pipeline's proof data -/

/-- The proof data of the pipeline on core c: the arrays as the region finds them; after the body at point t each
    input's buffer at its block and the output's at out11 of the eleven input blocks; the invariant the plain
    one (the scoped rest and the generator register, untouched); nothing owed; the shares of the arrays split
    between the windows that sit on one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q := qOf
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point t: the invariant, what the core owes, and every window's current
    staging buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every window's array at what the proof data compute for
    it and every other unscoped buffer as the region found it. The arrays' shares split between the windows that
    share an array. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := fun c => arrays_of_arrBufs (dats m 0 c) (V m c) (fun _ => rfl) (A_eq m c)) (hΦ := fun _ _ => rfl)

/-- THE FRAME: from any memory with zero counters every weakly fair execution of @main terminates with the six
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Hand

end
-- ==== Proof.KOut.lean ====
/-
  What one grid point of the kernel writes into its output block, as one pure function of the eleven input
  blocks: the body's arithmetic composed from the payload terms of its three parts. The ten id blocks are rows of
  128 ids (windows 0, 2, 4, 6, 8 the row-side slices of the five id vectors, windows 1, 3, 5, 7, 9 the column-side
  slices), block 10 is the whole weight matrix.
-/
import proofs.«412935_j89404039233854_3_alg».proof.Proof.Gen.KernelIdeal.Skeleton
import Idealize.ShloMosaic.Lib.Pipeline.FrameBody

noncomputable section

namespace Cert.KernelIdeal.Hand

open Idealize.ShloMosaic Idealize.SL.Sem Cert.KernelIdeal Cert.KernelIdeal.Gen

variable {F : FTy → Type} [FloatOps F]

/-- The body's stored value from the values its eleven loads return: `xa0 xa1` the row- and column-side asym ids,
    `xr0 xr1` the residue indices, `xe0 xe1` the entity ids, `xt0 xt1` the token indices, `xs0 xs1` the sym ids,
    `xw` the weights. -/
def pay (xa0 xa1 xr0 xr1 xe0 xe1 xt0 xt1 xs0 xs1 : Vec F S1x128 .i32) (xw : Vec F S139x128 .f32) : FVec F S1x128x128x128 .f32 :=
  k0_pay1 (k0_pay12 (k0_pay10 xe1) (k0_pay11 xe0))
    (k0_pay13 (k0_pay4 xt0) (k0_pay5 xt1) (k0_pay8 xa0 xa1) (k0_pay9 xr0 xr1))
    (k0_pay14 (k0_pay6 xs0) (k0_pay7 xs1) (k0_pay8 xa0 xa1))
    (k0_pay15 xw) (k0_pay16 xw) (k0_pay17 xw) (k0_pay18 xw)
    (iota .tc S128x128x66 32 [2] iota_S128x128x66_d2_w32)
    (k0_pay19 (k0_pay2 xr0) (k0_pay3 xr1) (k0_pay8 xa0 xa1))

/-- The whole-block rectangle of an id block, of the weight block and of the output block. -/
abbrev rId : Rect S1x128 := Rect.unit (s := S1x128) ![0, 0] S1x128.size inb_S1x128_S1x128_0_0
abbrev rW : Rect S139x128 := Rect.unit (s := S139x128) ![0, 0] S139x128.size inb_S139x128_S139x128_0_0
abbrev rOut : Rect S1x128x128x128 := Rect.unit (s := S1x128x128x128) ![0, 0, 0, 0] S1x128x128x128.size inb_S1x128x128x128_S1x128x128x128_0_0_0_0

/-- The output window's staging buffer after the body: its one store, the stored value over the loaded blocks. -/
def out11 (x0 x1 x2 x3 x4 x5 x6 x7 x8 x9 : Vec F S1x128 .i32) (x10 : Vec F S139x128 .f32) : Vec F S1x128x128x128 .f32 :=
  View.canon [⟨rOut, pay (View.ld x0 rId) (View.ld x1 rId) (View.ld x2 rId) (View.ld x3 rId) (View.ld x4 rId) (View.ld x5 rId)
    (View.ld x6 rId) (View.ld x7 rId) (View.ld x8 rId) (View.ld x9 rId) (View.ld x10 rW)⟩]

end Cert.KernelIdeal.Hand

end
-- ==== Proof.KBody.lean ====
/-
  The kernel body's separation-logic triple. On whole staging memrefs, the eleven input blocks at the contents
  x0 … x10 and the output block at anything, the body runs to its continuation with the inputs' blocks as they
  were and the output block at out11 x0 … x10: the one piece the body's single whole-block store leaves, its
  payload the body's arithmetic over the eleven loaded values. The load of the output block that precedes the
  store reads a value nothing uses, so it leaves no trace in the post.
-/
import proofs.«412935_j89404039233854_3_alg».proof.Proof.Gen.KernelIdeal.Launch
import proofs.«412935_j89404039233854_3_alg».proof.Proof.Gen.KernelIdeal.Skeleton
import proofs.«412935_j89404039233854_3_alg».proof.Proof.Gen.KernelIdeal.Points
import proofs.«412935_j89404039233854_3_alg».proof.Proof.KOut
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

/-- The body's one store is of the whole output block, so its one piece covers every index of the block. -/
theorem cover11 (p0 : Vec F S1x128x128x128 .f32) (y : S1x128x128x128.Idx) :
    ∃ pc ∈ ([⟨rOut, p0⟩] : List (View.Piece (Elt F) S1x128x128x128 .f32)), y ∈ pc.1.set :=
  View.cover_of_tiled [⟨rOut, p0⟩] S1x128x128x128.size (by rfl) y

set_option maxHeartbeats 1000000 in
/-- The body's triple: the two part functions load the ten id blocks and the weight block and return pure values
    of them; the root loads the output block, ignores it, and stores the composed payload over the whole block.
    What the output memref then reads is the canon of that one covering piece. -/
theorem sound_kernel (c : Dev nD) (E : Set ℕ) (i : grid0.Coords) (arg2 : Memref sig .tc .vmem S1x128 .i32) (harg2 : arg2.IsWhole) (arg3 : Memref sig .tc .vmem S1x128 .i32) (harg3 : arg3.IsWhole) (arg4 : Memref sig .tc .vmem S1x128 .i32) (harg4 : arg4.IsWhole) (arg5 : Memref sig .tc .vmem S1x128 .i32) (harg5 : arg5.IsWhole) (arg6 : Memref sig .tc .vmem S1x128 .i32) (harg6 : arg6.IsWhole) (arg7 : Memref sig .tc .vmem S1x128 .i32) (harg7 : arg7.IsWhole) (arg8 : Memref sig .tc .vmem S1x128 .i32) (harg8 : arg8.IsWhole) (arg9 : Memref sig .tc .vmem S1x128 .i32) (harg9 : arg9.IsWhole) (arg10 : Memref sig .tc .vmem S1x128 .i32) (harg10 : arg10.IsWhole) (arg11 : Memref sig .tc .vmem S1x128 .i32) (harg11 : arg11.IsWhole) (arg12 : Memref sig .tc .vmem S139x128 .f32) (harg12 : arg12.IsWhole) (arg13 : Memref sig .tc .vmem S1x128x128x128 .f32) (harg13 : arg13.IsWhole)
    (x0 x1 x2 x3 x4 x5 x6 x7 x8 x9 : Vec F S1x128 .i32) (x10 : Vec F S139x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out11 x0 x1 x2 x3 x4 x5 x6 x7 x8 x9 x10)) -∗ K ⟨⟩))
      ⊢ wp frame (wpE (defs₀ (F := F)) Variants.none c none) E (cc0__relpos_kernel i arg2 harg2 arg3 harg3 arg4 harg4 arg5 harg5 arg6 harg6 arg7 harg7 arg8 harg8 arg9 harg9 arg10 harg10 arg11 harg11 arg12 harg12 arg13 harg13) K := by
  simp only [cc0__relpos_kernel_eq_skeleton]; unfold cc0__relpos_kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover11 _)

end Cert.KernelIdeal.Hand

end
-- ==== Proof.KSplit.lean ====
/-
  The split of the kernel's seven array buffers among its twelve windows.

  The five id vectors are each read through two windows: a row-side window (even number) and a column-side window (odd
  number). The buffer behind such a vector, held whole at the full share when the region is entered, is divided along the
  share: the row-side window takes the left half, the column-side window the right half. The weight matrix (window 10)
  and the result (window 11, the only window written) each sit alone on their buffer and keep it whole.
-/
import proofs.«412935_j89404039233854_3_alg».proof.Proof.Gen.KernelIdeal.Launch
import Idealize.ShloMosaic.Lib.Pipeline.Launch

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Cert.KernelIdeal Cert.KernelIdeal.Gen

variable {F : FTy → Type} [FloatOps F]

local notation "𝕄" => MT nD τ sig Unit (Elt F) ℕ (UR sig nD τ) ℕ

/-- The share each window holds its array at: of an id vector the row-side window the left half and the column-side
    window the right half; the weight matrix and the result whole. -/
def qOf : Fin 12 → PosShare TreeShare := fun w => match w with | ⟨0, _⟩ => fullShare.left | ⟨1, _⟩ => fullShare.right | ⟨2, _⟩ => fullShare.left | ⟨3, _⟩ => fullShare.right | ⟨4, _⟩ => fullShare.left | ⟨5, _⟩ => fullShare.right | ⟨6, _⟩ => fullShare.left | ⟨7, _⟩ => fullShare.right | ⟨8, _⟩ => fullShare.left | ⟨9, _⟩ => fullShare.right | ⟨10, _⟩ => fullShare | ⟨11, _⟩ => fullShare

/-- One window's points-to at the region's entry, read on the buffer behind its array: the array is the whole buffer,
    and before any write-back it holds the entry contents. -/
theorem win_entry {c : Dev nD} (dat : Pipeline.Dat τ (Elt F) Unit ℕ (UR sig nD τ) ℕ cfg0 c)
    (V : (b : Ref sig .tc) → Buf (Elt F) ((c.tc : Thread nD τ).loc b)) (w : Fin 12) (q : PosShare TreeShare)
    (hs : dat.share w = q) (hA : dat.A w = V (Pipeline.arrRef spec0 w)) :
    ((cfg0.win w).arr.view.loc (c.tc : Thread nD τ) ↦[(cfg0.win w).arr.view.set]{dat.share w} dat.arrAt w 0 : sProp 𝕄)
      = (((c.tc : Thread nD τ).loc (Pipeline.arrRef spec0 w)) ↦{q} V (Pipeline.arrRef spec0 w) : sProp 𝕄) := by
  rw [(arr_whole0 w).set_eq_univ, hs]
  show (_ ↦{q} dat.A w : sProp 𝕄) = _
  rw [hA]

/-- The distinct buffers behind the twelve windows' arrays are seven: the five id vectors, the weight matrix and the
    result. -/
theorem arrBufs_chain {c : Dev nD} (V : (b : Ref sig .tc) → Buf (Elt F) ((c.tc : Thread nD τ).loc b)) :
    (Pipeline.arrBufs spec0 c V : sProp 𝕄)
      = iprop((((c.tc : Thread nD τ).loc main_arg0) ↦{fullShare} V main_arg0) ∗ (((c.tc : Thread nD τ).loc main_arg1) ↦{fullShare} V main_arg1)
          ∗ (((c.tc : Thread nD τ).loc main_arg2) ↦{fullShare} V main_arg2) ∗ (((c.tc : Thread nD τ).loc main_arg3) ↦{fullShare} V main_arg3)
          ∗ (((c.tc : Thread nD τ).loc main_arg4) ↦{fullShare} V main_arg4) ∗ (((c.tc : Thread nD τ).loc main_arg5) ↦{fullShare} V main_arg5)
          ∗ (((c.tc : Thread nD τ).loc main_v0) ↦{fullShare} V main_v0)) := by
  classical
  unfold Pipeline.arrBufs
  exact bigSep_eq_bigSepL_of_eq [main_arg0, main_arg1, main_arg2, main_arg3, main_arg4, main_arg5, main_v0] (by decide) (by decide) _

/-- The buffers behind the arrays, each whole at the full share at the entry contents, make the twelve windows'
    points-tos at entry: every id vector's buffer split into its two halves, the other two handed over whole. -/
theorem arrays_of_arrBufs {c : Dev nD} (dat : Pipeline.Dat τ (Elt F) Unit ℕ (UR sig nD τ) ℕ cfg0 c)
    (V : (b : Ref sig .tc) → Buf (Elt F) ((c.tc : Thread nD τ).loc b))
    (hq : ∀ w, dat.q w = qOf w) (hA : ∀ w, dat.A w = V (Pipeline.arrRef spec0 w)) :
    (Pipeline.arrBufs spec0 c V : sProp 𝕄) ⊢ dat.arrays (dat.arrAt · 0) := by
  classical
  have hsh : ∀ w : Fin 12, dat.share w = qOf w := fun w => by
    unfold Pipeline.Dat.share
    match w with
    | ⟨0, _⟩ => exact hq _ | ⟨1, _⟩ => exact hq _ | ⟨2, _⟩ => exact hq _ | ⟨3, _⟩ => exact hq _ | ⟨4, _⟩ => exact hq _
    | ⟨5, _⟩ => exact hq _ | ⟨6, _⟩ => exact hq _ | ⟨7, _⟩ => exact hq _ | ⟨8, _⟩ => exact hq _ | ⟨9, _⟩ => exact hq _
    | ⟨10, _⟩ => exact hq _ | ⟨11, _⟩ => rfl
  unfold Pipeline.Dat.arrays
  rw [arrBufs_chain, bigSep_W0]
  rw [win_entry dat V 0 _ (hsh 0) (hA 0), win_entry dat V 1 _ (hsh 1) (hA 1), win_entry dat V 2 _ (hsh 2) (hA 2),
    win_entry dat V 3 _ (hsh 3) (hA 3), win_entry dat V 4 _ (hsh 4) (hA 4), win_entry dat V 5 _ (hsh 5) (hA 5),
    win_entry dat V 6 _ (hsh 6) (hA 6), win_entry dat V 7 _ (hsh 7) (hA 7), win_entry dat V 8 _ (hsh 8) (hA 8),
    win_entry dat V 9 _ (hsh 9) (hA 9), win_entry dat V 10 _ (hsh 10) (hA 10), win_entry dat V 11 _ (hsh 11) (hA 11)]
  iintro ⟨H0, H1, H2, H3, H4, H5, H6⟩
  ihave H0 := (pointsTo_share (PosShare.mem_left_op_right fullShare)).1 $$ H0
  icases H0 with ⟨A0, B0⟩
  ihave H1 := (pointsTo_share (PosShare.mem_left_op_right fullShare)).1 $$ H1
  icases H1 with ⟨A1, B1⟩
  ihave H2 := (pointsTo_share (PosShare.mem_left_op_right fullShare)).1 $$ H2
  icases H2 with ⟨A2, B2⟩
  ihave H3 := (pointsTo_share (PosShare.mem_left_op_right fullShare)).1 $$ H3
  icases H3 with ⟨A3, B3⟩
  ihave H4 := (pointsTo_share (PosShare.mem_left_op_right fullShare)).1 $$ H4
  icases H4 with ⟨A4, B4⟩
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [H5]; · iexact H5
  iexact H6

end Cert.KernelIdeal.Hand

end
-- ==== Proof.KLaunch.lean ====
/-
  The launch of the kernel's one pipeline: its proof data, the body obligation at every grid point, the frame run
  and the frame claim.

  The grid is 8 x 8; a point t has coordinates (i, j), i the row tile and j the column tile. Windows 2k and 2k+1
  (k = 0 … 4) are the row-side block [0, 128 i ..] and the column-side block [0, 128 j ..] of the k-th id vector, so
  the two windows of a pair sit on ONE array; window 10 is the whole weight matrix and window 11 the output block
  at (0, i, j, 0). The body reads the eleven input blocks, leaves them as they are, and overwrites the whole output
  block with one value that is a function of the eleven (out11). Hence the proof data: each input window's staging
  buffer holds, at every point, the block of its array there (whether it was fetched at that point or carried over
  from the point before, the block index not having moved), and the output window's buffer after the body holds
  out11 of the eleven blocks. Because the windows of a pair share their array, the array's share is split between
  them (qOf: one half each); the run is the frame run for windows that share arrays, which takes that splitting
  in place of the arrays' distinctness.
-/
import proofs.«412935_j89404039233854_3_alg».proof.Proof.Gen.KernelIdeal.Launch
import proofs.«412935_j89404039233854_3_alg».proof.Proof.Gen.KernelIdeal.Skeleton
import proofs.«412935_j89404039233854_3_alg».proof.Proof.Gen.KernelIdeal.Points
import proofs.«412935_j89404039233854_3_alg».proof.Proof.KOut
import proofs.«412935_j89404039233854_3_alg».proof.Proof.KBody
import proofs.«412935_j89404039233854_3_alg».proof.Proof.LibSharedFrame
import proofs.«412935_j89404039233854_3_alg».proof.Proof.KSplit
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core c's buffers when the region is entered: as launched, since @main is the region alone. -/
abbrev V (c : Dev nD) (b : Ref sig .tc) : Buf (Elt F) ((c : Thread nD τ).loc b) := m ((c : Thread nD τ).loc b)

/-- @main up to the region, at any variants: nothing runs before the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not: where it is
    not fetched the block index has not moved since the previous point, and the body left the block in place. This
    for any proof data whose array is the region-entry contents and whose body leaves the block as it was; the
    windows are uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The six argument arrays are inputs of the pipeline (the five id vectors each through two windows, the weights
    through one), and an input's array ends at its entry contents: so a frame run's post, read at one window of
    each array, is the frame claim's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_main_arg0 m c))),
      ((h c).1 2).trans (((dats 0 c).arrAt_in 2 rfl _).trans ((hA c 2).trans (V_main_arg1 m c))),
      ((h c).1 4).trans (((dats 0 c).arrAt_in 4 rfl _).trans ((hA c 4).trans (V_main_arg2 m c))),
      ((h c).1 6).trans (((dats 0 c).arrAt_in 6 rfl _).trans ((hA c 6).trans (V_main_arg3 m c))),
      ((h c).1 8).trans (((dats 0 c).arrAt_in 8 rfl _).trans ((hA c 8).trans (V_main_arg4 m c))),
      ((h c).1 10).trans (((dats 0 c).arrAt_in 10 rfl _).trans ((hA c 10).trans (V_main_arg5 m c)))⟩) h

/-! ## The pipeline's proof data -/

/-- The proof data of the pipeline on core c: the arrays as the region finds them; after the body at point t each
    input's buffer at its block and the output's at out11 of the eleven input blocks; the invariant the plain
    one (the scoped rest and the generator register, untouched); nothing owed; the shares of the arrays split
    between the windows that sit on one array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q := qOf
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point t: the invariant, what the core owes, and every window's current
    staging buffer at what it then holds, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main on
    the TensorCores terminates, and every final state has every window's array at what the proof data compute for
    it and every other unscoped buffer as the region found it. The arrays' shares split between the windows that
    share an array. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := fun c => arrays_of_arrBufs (dats m 0 c) (V m c) (fun _ => rfl) (A_eq m c)) (hΦ := fun _ _ => rfl)

/-- THE FRAME: from any memory with zero counters every weakly fair execution of @main terminates with the six
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Hand

end
-- ==== Proof.Spec.lean ====
/-
  The relative-position encoding as one function of the argument arrays, entry by entry.

  For a pair of tokens (p, q) — p the row, q the column of the pair plane — three integer features are computed
  from the five id vectors: the clamped residue offset, the clamped token offset and the clamped chain offset, each
  replaced by a sentinel bin when its gate is off, and one bit, "same entity". The result at (p, q, c) is the sum of
  three rows of the weight matrix W, selected by those features in the three row bands [0, 66), [66, 132), [133, 139),
  plus the same-entity bit times row 132. Both programs are shown to compute exactly this function at the
  ideal instance: the kernel selects the rows by one-hot matrix products, the reference by gathers.
-/
import Idealize.ShloMosaic.PureOps.Ideal
import Idealize.ShloMosaic.Lib.ValueIdx

noncomputable section

namespace Cert.Spec

open Idealize.ShloMosaic Idealize.ShloMosaic.ValueIdx

abbrev SIds : Shape := ⟨2, ![1, 1024]⟩
abbrev SW : Shape := ⟨2, ![139, 128]⟩
abbrev SOut : Shape := ⟨4, ![1, 1024, 1024, 128]⟩

/-- `x - y + off` in 32-bit two's complement, clamped (signed) into `[0, hi]`. -/
def relPos (hi off x y : BitVec 32) : BitVec 32 :=
  IntOp.minsi hi (IntOp.maxsi 0#32 (IntOp.addi (IntOp.subi x y) off))

/-! The features of one pair of tokens, from the ids of the row token (`…p`) and of the column token (`…q`). -/

/-- The two tokens lie on one chain. -/
def sameChainS (ap aq : BitVec 32) : BitVec 1 := IntOp.cmpi .eq aq ap

/-- The residue-offset bin: the clamped offset on one chain, the sentinel 65 across chains. -/
def dResS (ap aq rp rq : BitVec 32) : BitVec 32 :=
  Scalar.select (sameChainS ap aq) (relPos 64#32 32#32 rq rp) 65#32

/-- The token-offset bin: the clamped offset within one residue of one chain, else the sentinel 65. -/
def dTokS (ap aq rp rq tp tq : BitVec 32) : BitVec 32 :=
  Scalar.select (IntOp.andi (sameChainS ap aq) (IntOp.cmpi .eq rq rp)) (relPos 64#32 32#32 tq tp) 65#32

/-- The chain-offset bin: the clamped symmetry-copy offset across chains, the sentinel 5 on one chain. -/
def dChnS (ap aq sp sq : BitVec 32) : BitVec 32 :=
  Scalar.select (IntOp.xori (sameChainS ap aq) 1#1) (relPos 4#32 2#32 sq sp) 5#32

/-- The two tokens belong to one entity. -/
def sameEntS (ep eq : BitVec 32) : BitVec 1 := IntOp.cmpi .eq eq ep

/-- Entry `(n, c)` of the weight matrix; `0` past its last row (never reached: every row number below is under 139). -/
def rowAt (W : FVec Ideal SW .f32) (n : Nat) (c : Fin 128) : EReal :=
  if h : n < 139 then W (ix2 (⟨n, h⟩ : Fin 139) c) else 0

/-- A bit as the real number 0 or 1. -/
def ind (b : BitVec 1) : EReal := if b = 1#1 then 1 else 0

/-- The encoding of one pair in channel `c`, from the two tokens' ids: three rows of `W`, one from each of the bands
    `[0, 66)`, `[66, 132)`, `[133, 139)`, and the same-entity bit times row 132. -/
def GatS (ap aq rp rq ep eq tp tq sp sq : BitVec 32) (W : FVec Ideal SW .f32) (c : Fin 128) : EReal :=
  ((rowAt W (dResS ap aq rp rq).toNat c + rowAt W (66 + (dTokS ap aq rp rq tp tq).toNat) c)
      + rowAt W (133 + (dChnS ap aq sp sq).toNat) c)
    + ind (sameEntS ep eq) * rowAt W 132 c

/-- The id of token `p`. -/
abbrev at_ (a : IVec SIds 32) (p : Fin 1024) : BitVec 32 := a (ix2 (0 : Fin 1) p)

/-- The encoding of the pair `(p, q)` (row token `p`, column token `q`) in channel `c`. -/
def Gat (a r e t s : IVec SIds 32) (W : FVec Ideal SW .f32) (p q : Fin 1024) (c : Fin 128) : EReal :=
  GatS (at_ a p) (at_ a q) (at_ r p) (at_ r q) (at_ e p) (at_ e q) (at_ t p) (at_ t q) (at_ s p) (at_ s q) W c

/-- The whole result array. -/
def G (a r e t s : IVec SIds 32) (W : FVec Ideal SW .f32) : FVec Ideal SOut .f32 :=
  fun j => Gat a r e t s W (j 1) (j 2) (j 3)

theorem G_apply (a r e t s : IVec SIds 32) (W : FVec Ideal SW .f32) (z : Fin 1) (p q : Fin 1024) (c : Fin 128) :
    G a r e t s W (ix4 z p q c) = Gat a r e t s W p q c := rfl

/-- Two arrays of the result's shape agree when they agree at every coordinate quadruple. -/
theorem ext_ix4 {α : Type} (X Y : SOut.Idx → α)
    (h : ∀ (p q : Fin 1024) (c : Fin 128), X (ix4 (0 : Fin 1) p q c) = Y (ix4 (0 : Fin 1) p q c)) : X = Y := by
  funext j
  have e : j = ix4 (0 : Fin 1) (j 1) (j 2) (j 3) := by
    funext d
    match d with
    | ⟨0, _⟩ =>
      have h1 : (j 0).val < 1 := (j 0).isLt
      exact Fin.ext (show (j 0).val = 0 by omega)
    | ⟨1, _⟩ => rfl
    | ⟨2, _⟩ => rfl
    | ⟨3, _⟩ => rfl
  rw [e]
  exact h (j 1) (j 2) (j 3)

end Cert.Spec

end
-- ==== Proof.SpecBounds.lean ====
/-
  Range facts of the specification's integer features.

  A clamp into [0, hi] with hi below 2^31 yields a 32-bit word whose unsigned value is at most hi, so its signed and
  unsigned readings agree. Hence the residue and token bins lie in [0, 66), the chain bin in [0, 6), and adding the
  band offsets 66 and 133 in 32-bit arithmetic does not wrap: every row number the specification forms is below 139.
-/
import proofs.«412935_j89404039233854_3_alg».proof.Proof.Spec

noncomputable section

namespace Cert.Spec

open Idealize.ShloMosaic Idealize.ShloMosaic.ValueIdx

/-! ## Signed and unsigned readings of a 32-bit word -/

/-- Below 2^31 the signed reading of a word is its unsigned reading. -/
theorem toInt_eq_toNat_of_lt (x : BitVec 32) (h : x.toNat < 2 ^ 31) : x.toInt = (x.toNat : Int) := by
  rw [BitVec.toInt_eq_toNat_cond]
  split <;> omega

/-- A word whose signed reading is nonnegative is below 2^31. -/
theorem toNat_lt_of_toInt_nonneg (x : BitVec 32) (h : 0 ≤ x.toInt) : x.toNat < 2 ^ 31 := by
  rw [BitVec.toInt_eq_toNat_cond] at h
  have hx := x.isLt
  split at h <;> omega

/-- The signed comparison is the comparison of the signed readings. -/
theorem slt_iff (x y : BitVec 32) : x.slt y = true ↔ x.toInt < y.toInt := by
  simp [BitVec.slt]

/-! ## The clamp -/

/-- The signed maximum with zero is nonnegative: below 2^31 as an unsigned number. -/
theorem maxsi_zero_lt (z : BitVec 32) : (IntOp.maxsi 0#32 z).toNat < 2 ^ 31 := by
  unfold IntOp.maxsi
  split
  · show (0#32).toNat < 2 ^ 31
    decide
  · rename_i h
    apply toNat_lt_of_toInt_nonneg
    rw [slt_iff] at h
    have h0 : (0#32).toInt = 0 := by decide
    rw [h0] at h
    omega

/-- The signed minimum of a bound below 2^31 and a word below 2^31 is at most the bound. -/
theorem minsi_toNat_le (hi m : BitVec 32) (hhi : hi.toNat < 2 ^ 31) (hm : m.toNat < 2 ^ 31) :
    (IntOp.minsi hi m).toNat ≤ hi.toNat := by
  unfold IntOp.minsi
  split
  · exact Nat.le_refl _
  · rename_i h
    rw [slt_iff, toInt_eq_toNat_of_lt hi hhi, toInt_eq_toNat_of_lt m hm] at h
    omega

/-- The clamped offset is at most the upper bound of the clamp. -/
theorem relPos_toNat_le (hi off x y : BitVec 32) (hhi : hi.toNat < 2 ^ 31) : (relPos hi off x y).toNat ≤ hi.toNat := by
  unfold relPos
  exact minsi_toNat_le hi _ hhi (maxsi_zero_lt _)

/-- So it is below 2^31, -/
theorem relPos_toNat_lt (hi off x y : BitVec 32) (hhi : hi.toNat < 2 ^ 31) : (relPos hi off x y).toNat < 2 ^ 31 :=
  Nat.lt_of_le_of_lt (relPos_toNat_le hi off x y hhi) hhi

/-- and its signed reading is its unsigned reading. -/
theorem relPos_toInt (hi off x y : BitVec 32) (hhi : hi.toNat < 2 ^ 31) :
    (relPos hi off x y).toInt = ((relPos hi off x y).toNat : Int) :=
  toInt_eq_toNat_of_lt _ (relPos_toNat_lt hi off x y hhi)

/-! ## The three bins -/

/-- The residue-offset bin is one of 0, …, 65. -/
theorem dResS_lt (ap aq rp rq : BitVec 32) : (dResS ap aq rp rq).toNat < 66 := by
  unfold dResS Scalar.select
  split
  · have h := relPos_toNat_le 64#32 32#32 rq rp (by decide)
    have h64 : (64#32).toNat = 64 := by decide
    omega
  · show (65#32).toNat < 66
    decide

/-- The token-offset bin is one of 0, …, 65. -/
theorem dTokS_lt (ap aq rp rq tp tq : BitVec 32) : (dTokS ap aq rp rq tp tq).toNat < 66 := by
  unfold dTokS Scalar.select
  split
  · have h := relPos_toNat_le 64#32 32#32 tq tp (by decide)
    have h64 : (64#32).toNat = 64 := by decide
    omega
  · show (65#32).toNat < 66
    decide

/-- The chain-offset bin is one of 0, …, 5. -/
theorem dChnS_lt (ap aq sp sq : BitVec 32) : (dChnS ap aq sp sq).toNat < 6 := by
  unfold dChnS Scalar.select
  split
  · have h := relPos_toNat_le 4#32 2#32 sq sp (by decide)
    have h4 : (4#32).toNat = 4 := by decide
    omega
  · show (5#32).toNat < 6
    decide

/-- The bins' signed readings are their unsigned readings, and nonnegative. -/
theorem dResS_toInt (ap aq rp rq : BitVec 32) : (dResS ap aq rp rq).toInt = ((dResS ap aq rp rq).toNat : Int) :=
  toInt_eq_toNat_of_lt _ (by have := dResS_lt ap aq rp rq; omega)
theorem dTokS_toInt (ap aq rp rq tp tq : BitVec 32) :
    (dTokS ap aq rp rq tp tq).toInt = ((dTokS ap aq rp rq tp tq).toNat : Int) :=
  toInt_eq_toNat_of_lt _ (by have := dTokS_lt ap aq rp rq tp tq; omega)
theorem dChnS_toInt (ap aq sp sq : BitVec 32) : (dChnS ap aq sp sq).toInt = ((dChnS ap aq sp sq).toNat : Int) :=
  toInt_eq_toNat_of_lt _ (by have := dChnS_lt ap aq sp sq; omega)

theorem dResS_toInt_nonneg (ap aq rp rq : BitVec 32) : 0 ≤ (dResS ap aq rp rq).toInt := by
  rw [dResS_toInt]; exact Int.natCast_nonneg _
theorem dTokS_toInt_nonneg (ap aq rp rq tp tq : BitVec 32) : 0 ≤ (dTokS ap aq rp rq tp tq).toInt := by
  rw [dTokS_toInt]; exact Int.natCast_nonneg _
theorem dChnS_toInt_nonneg (ap aq sp sq : BitVec 32) : 0 ≤ (dChnS ap aq sp sq).toInt := by
  rw [dChnS_toInt]; exact Int.natCast_nonneg _

/-! ## The band offsets, added in 32-bit arithmetic -/

/-- Adding the second band's offset to a bin below 66 does not wrap. -/
theorem addi66 (d : BitVec 32) (h : d.toNat < 66) : (IntOp.addi 66#32 d).toNat = 66 + d.toNat := by
  unfold IntOp.addi
  rw [BitVec.toNat_add]
  have h66 : (66#32).toNat = 66 := by decide
  rw [h66]
  exact Nat.mod_eq_of_lt (by omega)

/-- Adding the third band's offset to a bin below 6 does not wrap. -/
theorem addi133 (d : BitVec 32) (h : d.toNat < 6) : (IntOp.addi 133#32 d).toNat = 133 + d.toNat := by
  unfold IntOp.addi
  rw [BitVec.toNat_add]
  have h133 : (133#32).toNat = 133 := by decide
  rw [h133]
  exact Nat.mod_eq_of_lt (by omega)

/-- The sums' signed readings are the natural sums: nonnegative and at most 138. -/
theorem addi66_toInt (d : BitVec 32) (h : d.toNat < 66) : (IntOp.addi 66#32 d).toInt = ((66 + d.toNat : Nat) : Int) := by
  rw [toInt_eq_toNat_of_lt _ (by rw [addi66 d h]; omega), addi66 d h]
theorem addi133_toInt (d : BitVec 32) (h : d.toNat < 6) : (IntOp.addi 133#32 d).toInt = ((133 + d.toNat : Nat) : Int) := by
  rw [toInt_eq_toNat_of_lt _ (by rw [addi133 d h]; omega), addi133 d h]

theorem addi66_toInt_nonneg (d : BitVec 32) (h : d.toNat < 66) : 0 ≤ (IntOp.addi 66#32 d).toInt := by
  rw [addi66_toInt d h]; exact Int.natCast_nonneg _
theorem addi133_toInt_nonneg (d : BitVec 32) (h : d.toNat < 6) : 0 ≤ (IntOp.addi 133#32 d).toInt := by
  rw [addi133_toInt d h]; exact Int.natCast_nonneg _
theorem addi66_toInt_le (d : BitVec 32) (h : d.toNat < 66) : (IntOp.addi 66#32 d).toInt ≤ 138 := by
  rw [addi66_toInt d h]; omega
theorem addi133_toInt_le (d : BitVec 32) (h : d.toNat < 6) : (IntOp.addi 133#32 d).toInt ≤ 138 := by
  rw [addi133_toInt d h]; omega
theorem addi66_lt (d : BitVec 32) (h : d.toNat < 66) : (IntOp.addi 66#32 d).toNat < 139 := by
  rw [addi66 d h]; omega
theorem addi133_lt (d : BitVec 32) (h : d.toNat < 6) : (IntOp.addi 133#32 d).toNat < 139 := by
  rw [addi133 d h]; omega

/-! ## The weight matrix's rows the specification reads -/

/-- Below 139 the row accessor reads the matrix. -/
theorem rowAt_of_lt (W : FVec Ideal SW .f32) (n : Nat) (h : n < 139) (c : Fin 128) :
    rowAt W n c = W (ix2 (⟨n, h⟩ : Fin 139) c) := dif_pos h

/-- Every row number the specification forms is below 139. -/
theorem dResS_row_lt (ap aq rp rq : BitVec 32) : (dResS ap aq rp rq).toNat < 139 := by
  have := dResS_lt ap aq rp rq; omega
theorem dTokS_row_lt (ap aq rp rq tp tq : BitVec 32) : 66 + (dTokS ap aq rp rq tp tq).toNat < 139 := by
  have := dTokS_lt ap aq rp rq tp tq; omega
theorem dChnS_row_lt (ap aq sp sq : BitVec 32) : 133 + (dChnS ap aq sp sq).toNat < 139 := by
  have := dChnS_lt ap aq sp sq; omega

end Cert.Spec

end
-- ==== Proof.KPayload.lean ====
/-
  The value one grid point stores into its output block, read at one entry `(0, p, q, c)`: it is the relative-position
  encoding `Cert.Spec.GatS` of the pair (row token `p`, column token `q`) in channel `c`, over the ids the eleven loaded
  blocks hold at `p` (row side) and `q` (column side).

  The body turns each of the three integer features of a pair (two bins in `[0, 65]`, one in `[0, 5]`) into a one-hot row by
  comparing it with the bin numbers, flattens the pair plane `[128, 128, K]` to `[16384, K]` (pair `(p, q)` is row
  `128 p + q`), multiplies by a band of rows of the weight matrix `W` into a zero accumulator, adds the three products,
  unflattens, and adds the same-entity bit (as 0 or 1) times row 132 of `W`. At the ideal values a product into zeros is a
  plain finite sum over the bins; a one-hot row against a column picks the column's entry at the feature (on the extended
  reals `0 * x = 0` and `1 * x = x` for every `x`, so nothing need be finite); the clamps keep every feature inside its
  band; and the body adds the four terms in the same order as the specification, so no rearrangement is needed.

  Order of the file: the id blocks spread over the pair plane; the integer features at a pair; bits as reals and the one-hot
  sum; the two matrix products at an entry; the weight bands; the reshape between pairs and rows; the one-hot row against
  a band; the stored value.
-/
import proofs.«412935_j89404039233854_3_alg».proof.Proof.KOut
import proofs.«412935_j89404039233854_3_alg».proof.Proof.Spec
import proofs.«412935_j89404039233854_3_alg».proof.Proof.SpecBounds
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx Cert.KernelIdeal Cert.KernelIdeal.Gen
open scoped BigOperators

/-! ## The id blocks: a row of 128 ids spread down the rows or across the columns of the pair plane -/

/-- A block `[1,128]` recast to a column `[128,1]` and spread across the columns reads, at `(p, q)`, the id of row token `p`. -/
theorem spreadCol_apply (x : IVec S1x128 32) (p q : Fin 128) :
    broadcastTo S128x128 (shapeCast S128x1 (shapeCast S128 x shapeCasts_S1x128_S128) shapeCasts_S128_S128x1)
      broadcasts_S128x1_S128x128 (ix2 p q) = x (ix2 (0 : Fin 1) p) := by
  refine (broadcastTo_apply _ broadcasts_S128x1_S128x128 (ix2 p q) (ix2 p (0 : Fin 1)) fun ax => ?_).trans ?_
  · match ax with
    | ⟨0, _⟩ => rfl
    | ⟨1, _⟩ => rfl
  · refine (shapeCast_apply _ shapeCasts_S128_S128x1 (ix2 p (0 : Fin 1)) (ix1 p) ?_).trans ?_
    · rw [Shape.rowMajor_val_one, Shape.rowMajor_val_two]
      show p.val = p.val * 1 + 0
      omega
    · exact shapeCast_1a_a_apply x shapeCasts_S1x128_S128 p

/-- A block `[1,128]` spread down the rows reads, at `(p, q)`, the id of column token `q`. -/
theorem spreadRow_apply (x : IVec S1x128 32) (p q : Fin 128) :
    broadcastTo S128x128 (shapeCast S1x128 (shapeCast S128 x shapeCasts_S1x128_S128) shapeCasts_S128_S1x128)
      broadcasts_S1x128_S128x128 (ix2 p q) = x (ix2 (0 : Fin 1) q) := by
  rw [shapeCast_shapeCast]
  exact broadcastTo_1b_ab_apply x broadcasts_S1x128_S128x128 p q

/-- A pair-plane array `[128,128]` given a unit last axis and spread along a last axis of `K` bins reads, at `(p, q, k)`, its
    entry `(p, q)`. -/
theorem spreadLast_apply {α : Type} {K : Nat} (v : S128x128.Idx → α) (h : S128x128.ShapeCasts S128x128x1)
    (h' : S128x128x1.Broadcasts ⟨3, ![128, 128, K]⟩) (p q : Fin 128) (k : Fin K) :
    broadcastTo ⟨3, ![128, 128, K]⟩ (shapeCast S128x128x1 v h) h' (ix3 p q k) = v (ix2 p q) := by
  refine (broadcastTo_apply _ h' (ix3 p q k) (ix3 p q (0 : Fin 1)) fun ax => ?_).trans ?_
  · match ax with
    | ⟨0, _⟩ => rfl
    | ⟨1, _⟩ => rfl
    | ⟨2, _⟩ => rfl
  · refine shapeCast_apply v h (ix3 p q (0 : Fin 1)) (ix2 p q) ?_
    rw [Shape.rowMajor_val_two, Shape.rowMajor_val_three]
    show p.val * 128 + q.val = (p.val * 128 + q.val) * 1 + 0
    omega

/-! ## The integer features of a pair, read at the pair -/

/-- The same-chain bit at `(p, q)`. -/
theorem pay8_apply (xa0 xa1 : Vec Ideal S1x128 .i32) (p q : Fin 128) :
    k0_pay8 (F := Ideal) xa0 xa1 (ix2 p q) = Cert.Spec.sameChainS (xa0 (ix2 (0 : Fin 1) p)) (xa1 (ix2 (0 : Fin 1) q)) := by
  unfold k0_pay8 Cert.Spec.sameChainS
  show IntOp.cmpi .eq (broadcastTo S128x128 (shapeCast S1x128 (shapeCast S128 xa1 _) _) _ (ix2 p q))
    (broadcastTo S128x128 (shapeCast S128x1 (shapeCast S128 xa0 _) _) _ (ix2 p q)) = _
  rw [spreadRow_apply, spreadCol_apply]

/-- The same-residue-index bit at `(p, q)`. -/
theorem pay9_apply (xr0 xr1 : Vec Ideal S1x128 .i32) (p q : Fin 128) :
    k0_pay9 (F := Ideal) xr0 xr1 (ix2 p q) = IntOp.cmpi .eq (xr1 (ix2 (0 : Fin 1) q)) (xr0 (ix2 (0 : Fin 1) p)) := by
  unfold k0_pay9 k0_pay2 k0_pay3
  show IntOp.cmpi .eq (broadcastTo S128x128 (shapeCast S1x128 (shapeCast S128 xr1 _) _) _ (ix2 p q))
    (broadcastTo S128x128 (shapeCast S128x1 (shapeCast S128 xr0 _) _) _ (ix2 p q)) = _
  rw [spreadRow_apply, spreadCol_apply]

/-- The same-entity bit at `(p, q)`. -/
theorem pay12_apply (xe0 xe1 : Vec Ideal S1x128 .i32) (p q : Fin 128) :
    k0_pay12 (k0_pay10 (F := Ideal) xe1) (k0_pay11 (F := Ideal) xe0) (ix2 p q)
      = Cert.Spec.sameEntS (xe0 (ix2 (0 : Fin 1) p)) (xe1 (ix2 (0 : Fin 1) q)) := by
  unfold k0_pay12 k0_pay10 k0_pay11 Cert.Spec.sameEntS
  show IntOp.cmpi .eq (broadcastTo S128x128 (shapeCast S1x128 (shapeCast S128 xe1 _) _) _ (ix2 p q))
    (broadcastTo S128x128 (shapeCast S128x1 (shapeCast S128 xe0 _) _) _ (ix2 p q)) = _
  rw [spreadRow_apply, spreadCol_apply]

/-- The token-offset bin at `(p, q)`, over any two gate bits. -/
theorem pay13_apply (xt0 xt1 : Vec Ideal S1x128 .i32) (g h : IVec S128x128 1) (p q : Fin 128) :
    k0_pay13 (k0_pay4 (F := Ideal) xt0) (k0_pay5 (F := Ideal) xt1) g h (ix2 p q)
      = Scalar.select (IntOp.andi (g (ix2 p q)) (h (ix2 p q)))
          (Cert.Spec.relPos 64#32 32#32 (xt1 (ix2 (0 : Fin 1) q)) (xt0 (ix2 (0 : Fin 1) p))) 65#32 := by
  unfold k0_pay13 k0_pay4 k0_pay5 Cert.Spec.relPos
  show Scalar.select (IntOp.andi (g (ix2 p q)) (h (ix2 p q)))
    (IntOp.minsi 64#32 (IntOp.maxsi 0#32 (IntOp.addi (IntOp.subi
      (broadcastTo S128x128 (shapeCast S1x128 (shapeCast S128 xt1 _) _) _ (ix2 p q))
      (broadcastTo S128x128 (shapeCast S128x1 (shapeCast S128 xt0 _) _) _ (ix2 p q))) 32#32))) 65#32 = _
  rw [spreadRow_apply, spreadCol_apply]

/-- The chain-offset bin at `(p, q)`, over any same-chain bit. -/
theorem pay14_apply (xs0 xs1 : Vec Ideal S1x128 .i32) (g : IVec S128x128 1) (p q : Fin 128) :
    k0_pay14 (k0_pay6 (F := Ideal) xs0) (k0_pay7 (F := Ideal) xs1) g (ix2 p q)
      = Scalar.select (IntOp.xori (g (ix2 p q)) 1#1)
          (Cert.Spec.relPos 4#32 2#32 (xs1 (ix2 (0 : Fin 1) q)) (xs0 (ix2 (0 : Fin 1) p))) 5#32 := by
  unfold k0_pay14 k0_pay6 k0_pay7 Cert.Spec.relPos
  show Scalar.select (IntOp.xori (g (ix2 p q)) 1#1)
    (IntOp.minsi 4#32 (IntOp.maxsi 0#32 (IntOp.addi (IntOp.subi
      (broadcastTo S128x128 (shapeCast S1x128 (shapeCast S128 xs1 _) _) _ (ix2 p q))
      (broadcastTo S128x128 (shapeCast S128x1 (shapeCast S128 xs0 _) _) _ (ix2 p q))) 2#32))) 5#32 = _
  rw [spreadRow_apply, spreadCol_apply]

/-- The residue-offset bin, spread along the 66 bins, at `(p, q, k)`, over any same-chain bit. -/
theorem pay19_apply (xr0 xr1 : Vec Ideal S1x128 .i32) (g : IVec S128x128 1) (p q : Fin 128) (k : Fin 66) :
    k0_pay19 (k0_pay2 (F := Ideal) xr0) (k0_pay3 (F := Ideal) xr1) g (ix3 p q k)
      = Scalar.select (g (ix2 p q))
          (Cert.Spec.relPos 64#32 32#32 (xr1 (ix2 (0 : Fin 1) q)) (xr0 (ix2 (0 : Fin 1) p))) 65#32 := by
  unfold k0_pay19 k0_pay2 k0_pay3 Cert.Spec.relPos
  refine (spreadLast_apply _ shapeCasts_S128x128_S128x128x1 broadcasts_S128x128x1_S128x128x66 p q k).trans ?_
  show Scalar.select (g (ix2 p q))
    (IntOp.minsi 64#32 (IntOp.maxsi 0#32 (IntOp.addi (IntOp.subi
      (broadcastTo S128x128 (shapeCast S1x128 (shapeCast S128 xr1 _) _) _ (ix2 p q))
      (broadcastTo S128x128 (shapeCast S128x1 (shapeCast S128 xr0 _) _) _ (ix2 p q))) 32#32))) 65#32 = _
  rw [spreadRow_apply, spreadCol_apply]

/-! ## Bits as reals, and a one-hot row -/

/-- A bit, zero-extended to a word and converted to a float, is the real number 0 or 1. -/
theorem bit_val (b : BitVec 1) : FloatOps.sitofp (F := Ideal) .f32 (b.setWidth 32) = Cert.Spec.ind b := by
  show (((b.setWidth 32).toInt : ℝ) : EReal) = Cert.Spec.ind b
  unfold Cert.Spec.ind
  rcases BitVec.eq_zero_or_eq_one b with rfl | rfl
  · rw [if_neg (by decide)]
    rw [show ((0#1).setWidth 32).toInt = 0 by decide]
    simp
  · rw [if_pos rfl]
    rw [show ((1#1).setWidth 32).toInt = 1 by decide]
    simp

/-- The bit "the two words are equal", as a real, is the indicator of their equality. -/
theorem ind_cmpi_eq (x y : BitVec 32) : Cert.Spec.ind (IntOp.cmpi .eq x y) = if x = y then 1 else 0 := by
  unfold Cert.Spec.ind IntOp.cmpi
  by_cases h : x = y
  · subst h
    simp
  · rw [if_neg h]
    have : (x == y) = false := by simpa using h
    simp [this]

/-- A bin number below `2 ^ 32` equals the word `d` exactly when it is `d` read as a natural. -/
theorem eq_ofNat_iff (d : BitVec 32) (n : Nat) (hn : n < 2 ^ 32) : d = BitVec.ofNat 32 n ↔ d.toNat = n := by
  constructor
  · intro h
    rw [h, BitVec.toNat_ofNat, Nat.mod_eq_of_lt hn]
  · intro h
    apply BitVec.eq_of_toNat_eq
    rw [BitVec.toNat_ofNat, Nat.mod_eq_of_lt hn, h]

/-- A one-hot row times a column: the sum over the `K` bins of (indicator of `d = k`) times `w k` is `w d`, for `d` in range.
    On the extended reals `0 * x = 0` and `1 * x = x` for every `x`, infinite ones included. -/
theorem oneHot_sum {K : Nat} (hK : K ≤ 2 ^ 32) (d : BitVec 32) (hd : d.toNat < K) (w : Fin K → EReal) :
    ∑ k : Fin K, (if d = BitVec.ofNat 32 k.val then (1 : EReal) else 0) * w k = w ⟨d.toNat, hd⟩ := by
  rw [Finset.sum_eq_single (⟨d.toNat, hd⟩ : Fin K)]
  · rw [if_pos ((eq_ofNat_iff d d.toNat (by omega)).mpr rfl), one_mul]
  · intro k _ hk
    rw [if_neg, zero_mul]
    intro h
    apply hk
    apply Fin.ext
    exact ((eq_ofNat_iff d k.val (by have := k.isLt; omega)).mp h).symm
  · intro h
    exact absurd (Finset.mem_univ _) h

/-! ## The matrix products -/

/-! ### The matrix product with 66 bins: operand indices coordinate by coordinate, then the product at an entry -/

theorem lhs66_0 (i : S16384x128.Idx) (q : dot_S16384x66_S66x128_S16384x128_1_0_0_1_n_n.contr.Idx) :
    (dot_S16384x66_S66x128_S16384x128_1_0_0_1_n_n.lhsIdx i q 0).val = (i 0).val := by
  unfold DotDims.lhsIdx
  rw [dif_neg (show ¬(0 : Fin S16384x66.rank) ∈ dot_S16384x66_S66x128_S16384x128_1_0_0_1_n_n.lhsBatch by decide), dif_pos (show (0 : Fin S16384x66.rank) ∈ dot_S16384x66_S66x128_S16384x128_1_0_0_1_n_n.lhsNonContracting by decide)]
  rfl

theorem lhs66_1 (i : S16384x128.Idx) (q : dot_S16384x66_S66x128_S16384x128_1_0_0_1_n_n.contr.Idx) :
    (dot_S16384x66_S66x128_S16384x128_1_0_0_1_n_n.lhsIdx i q 1).val = (q ⟨0, by decide⟩).val :=
  dot_S16384x66_S66x128_S16384x128_1_0_0_1_n_n.lhsIdx_val_of_single rfl i q

theorem rhs66_0 (i : S16384x128.Idx) (q : dot_S16384x66_S66x128_S16384x128_1_0_0_1_n_n.contr.Idx) :
    (dot_S16384x66_S66x128_S16384x128_1_0_0_1_n_n.rhsIdx i q 0).val = (q ⟨0, by decide⟩).val :=
  dot_S16384x66_S66x128_S16384x128_1_0_0_1_n_n.rhsIdx_val_of_single rfl i q

theorem rhs66_1 (i : S16384x128.Idx) (q : dot_S16384x66_S66x128_S16384x128_1_0_0_1_n_n.contr.Idx) :
    (dot_S16384x66_S66x128_S16384x128_1_0_0_1_n_n.rhsIdx i q 1).val = (i 1).val := by
  unfold DotDims.rhsIdx
  rw [dif_neg (show ¬(1 : Fin S66x128.rank) ∈ dot_S16384x66_S66x128_S16384x128_1_0_0_1_n_n.rhsBatch by decide), dif_pos (show (1 : Fin S66x128.rank) ∈ dot_S16384x66_S66x128_S16384x128_1_0_0_1_n_n.rhsNonContracting by decide)]
  rfl

/-- The product of a `[16384, 66]` by a `[66, 128]` matrix into a zero accumulator, at entry `(r, c)`: the plain sum over the
    66 bins. -/
theorem matmul66_apply (A : FVec Ideal S16384x66 .f32) (B : FVec Ideal S66x128 .f32) (r : Fin 16384) (c : Fin 128) :
    matmul (F := Ideal) dot_S16384x66_S66x128_S16384x128_1_0_0_1_n_n none A B (constant (F := Ideal) S16384x128 .f32 0x00000000#32) (ix2 r c)
      = ∑ k : Fin 66, A (ix2 r k) * B (ix2 k c) := by
  refine (Ideal.matmul_constant_zero_apply dot_S16384x66_S66x128_S16384x128_1_0_0_1_n_n none A B (ix2 r c)).trans ?_
  rw [← Equiv.sum_comp (contrEquiv1 dot_S16384x66_S66x128_S16384x128_1_0_0_1_n_n 66 rfl rfl).symm]
  refine Finset.sum_congr rfl fun k _ => ?_
  have hk := contrEquiv1_symm_val dot_S16384x66_S66x128_S16384x128_1_0_0_1_n_n 66 rfl rfl k
  have el : dot_S16384x66_S66x128_S16384x128_1_0_0_1_n_n.lhsIdx (ix2 r c) ((contrEquiv1 dot_S16384x66_S66x128_S16384x128_1_0_0_1_n_n 66 rfl rfl).symm k) = ix2 r k := funext fun a => Fin.ext (by
    match a with
    | ⟨0, _⟩ => exact lhs66_0 _ _
    | ⟨1, _⟩ => exact (lhs66_1 _ _).trans hk)
  have er : dot_S16384x66_S66x128_S16384x128_1_0_0_1_n_n.rhsIdx (ix2 r c) ((contrEquiv1 dot_S16384x66_S66x128_S16384x128_1_0_0_1_n_n 66 rfl rfl).symm k) = ix2 k c := funext fun a => Fin.ext (by
    match a with
    | ⟨0, _⟩ => exact (rhs66_0 _ _).trans hk
    | ⟨1, _⟩ => exact rhs66_1 _ _)
  rw [el, er]

/-! ### The matrix product with 6 bins: operand indices coordinate by coordinate, then the product at an entry -/

theorem lhs6_0 (i : S16384x128.Idx) (q : dot_S16384x6_S6x128_S16384x128_1_0_0_1_n_n.contr.Idx) :
    (dot_S16384x6_S6x128_S16384x128_1_0_0_1_n_n.lhsIdx i q 0).val = (i 0).val := by
  unfold DotDims.lhsIdx
  rw [dif_neg (show ¬(0 : Fin S16384x6.rank) ∈ dot_S16384x6_S6x128_S16384x128_1_0_0_1_n_n.lhsBatch by decide), dif_pos (show (0 : Fin S16384x6.rank) ∈ dot_S16384x6_S6x128_S16384x128_1_0_0_1_n_n.lhsNonContracting by decide)]
  rfl

theorem lhs6_1 (i : S16384x128.Idx) (q : dot_S16384x6_S6x128_S16384x128_1_0_0_1_n_n.contr.Idx) :
    (dot_S16384x6_S6x128_S16384x128_1_0_0_1_n_n.lhsIdx i q 1).val = (q ⟨0, by decide⟩).val :=
  dot_S16384x6_S6x128_S16384x128_1_0_0_1_n_n.lhsIdx_val_of_single rfl i q

theorem rhs6_0 (i : S16384x128.Idx) (q : dot_S16384x6_S6x128_S16384x128_1_0_0_1_n_n.contr.Idx) :
    (dot_S16384x6_S6x128_S16384x128_1_0_0_1_n_n.rhsIdx i q 0).val = (q ⟨0, by decide⟩).val :=
  dot_S16384x6_S6x128_S16384x128_1_0_0_1_n_n.rhsIdx_val_of_single rfl i q

theorem rhs6_1 (i : S16384x128.Idx) (q : dot_S16384x6_S6x128_S16384x128_1_0_0_1_n_n.contr.Idx) :
    (dot_S16384x6_S6x128_S16384x128_1_0_0_1_n_n.rhsIdx i q 1).val = (i 1).val := by
  unfold DotDims.rhsIdx
  rw [dif_neg (show ¬(1 : Fin S6x128.rank) ∈ dot_S16384x6_S6x128_S16384x128_1_0_0_1_n_n.rhsBatch by decide), dif_pos (show (1 : Fin S6x128.rank) ∈ dot_S16384x6_S6x128_S16384x128_1_0_0_1_n_n.rhsNonContracting by decide)]
  rfl

/-- The product of a `[16384, 6]` by a `[6, 128]` matrix into a zero accumulator, at entry `(r, c)`: the plain sum over the
    6 bins. -/
theorem matmul6_apply (A : FVec Ideal S16384x6 .f32) (B : FVec Ideal S6x128 .f32) (r : Fin 16384) (c : Fin 128) :
    matmul (F := Ideal) dot_S16384x6_S6x128_S16384x128_1_0_0_1_n_n none A B (constant (F := Ideal) S16384x128 .f32 0x00000000#32) (ix2 r c)
      = ∑ k : Fin 6, A (ix2 r k) * B (ix2 k c) := by
  refine (Ideal.matmul_constant_zero_apply dot_S16384x6_S6x128_S16384x128_1_0_0_1_n_n none A B (ix2 r c)).trans ?_
  rw [← Equiv.sum_comp (contrEquiv1 dot_S16384x6_S6x128_S16384x128_1_0_0_1_n_n 6 rfl rfl).symm]
  refine Finset.sum_congr rfl fun k _ => ?_
  have hk := contrEquiv1_symm_val dot_S16384x6_S6x128_S16384x128_1_0_0_1_n_n 6 rfl rfl k
  have el : dot_S16384x6_S6x128_S16384x128_1_0_0_1_n_n.lhsIdx (ix2 r c) ((contrEquiv1 dot_S16384x6_S6x128_S16384x128_1_0_0_1_n_n 6 rfl rfl).symm k) = ix2 r k := funext fun a => Fin.ext (by
    match a with
    | ⟨0, _⟩ => exact lhs6_0 _ _
    | ⟨1, _⟩ => exact (lhs6_1 _ _).trans hk)
  have er : dot_S16384x6_S6x128_S16384x128_1_0_0_1_n_n.rhsIdx (ix2 r c) ((contrEquiv1 dot_S16384x6_S6x128_S16384x128_1_0_0_1_n_n 6 rfl rfl).symm k) = ix2 k c := funext fun a => Fin.ext (by
    match a with
    | ⟨0, _⟩ => exact (rhs6_0 _ _).trans hk
    | ⟨1, _⟩ => exact rhs6_1 _ _)
  rw [el, er]

/-! ## The weight bands -/

/-- Row `n` of the first band is row `n` of `W`. -/
theorem pay15_row (xw : Vec Ideal S139x128 .f32) (n : Nat) (hn : n < 66) (c : Fin 128) :
    k0_pay15 (F := Ideal) xw (ix2 (⟨n, hn⟩ : Fin 66) c) = Cert.Spec.rowAt xw n c := by
  unfold k0_pay15 Cert.Spec.rowAt
  rw [dif_pos (show n < 139 by omega)]
  exact slice2_axis0_apply 0 xw slices_S139x128_o0_0_S66x128 ⟨n, hn⟩ c ⟨n, by omega⟩ (by show n = 0 + n; omega)

/-- Row `n` of the second band is row `66 + n` of `W`. -/
theorem pay16_row (xw : Vec Ideal S139x128 .f32) (n : Nat) (hn : n < 66) (c : Fin 128) :
    k0_pay16 (F := Ideal) xw (ix2 (⟨n, hn⟩ : Fin 66) c) = Cert.Spec.rowAt xw (66 + n) c := by
  unfold k0_pay16 Cert.Spec.rowAt
  rw [dif_pos (show 66 + n < 139 by omega)]
  exact slice2_axis0_apply 66 xw slices_S139x128_o66_0_S66x128 ⟨n, hn⟩ c ⟨66 + n, by omega⟩ rfl

/-- Row `n` of the third band is row `133 + n` of `W`. -/
theorem pay18_row (xw : Vec Ideal S139x128 .f32) (n : Nat) (hn : n < 6) (c : Fin 128) :
    k0_pay18 (F := Ideal) xw (ix2 (⟨n, hn⟩ : Fin 6) c) = Cert.Spec.rowAt xw (133 + n) c := by
  unfold k0_pay18 Cert.Spec.rowAt
  rw [dif_pos (show 133 + n < 139 by omega)]
  exact slice2_axis0_apply 133 xw slices_S139x128_o133_0_S6x128 ⟨n, hn⟩ c ⟨133 + n, by omega⟩ rfl

/-- The same-entity row is row 132 of `W`. -/
theorem pay17_row (xw : Vec Ideal S139x128 .f32) (c : Fin 128) :
    k0_pay17 (F := Ideal) xw (ix1 c) = Cert.Spec.rowAt xw 132 c := by
  unfold k0_pay17 Cert.Spec.rowAt
  rw [dif_pos (show 132 < 139 by omega)]
  refine (shapeCast_1a_a_apply _ shapeCasts_S1x128_S128 c).trans ?_
  exact slice2_axis0_apply 132 xw slices_S139x128_o132_0_S1x128 (0 : Fin 1) c ⟨132, by omega⟩ rfl

/-! ## Pairs as rows: the reshape between `[128, 128, K]` and `[16384, K]` -/

/-- The row of the flattened pair plane that holds the pair `(p, q)`. -/
def pairRow (p q : Fin 128) : Fin 16384 := ⟨p.val * 128 + q.val, by have := p.isLt; have := q.isLt; omega⟩

/-- Flattening the pair plane: row `128 p + q`, bin `k` of the flat array is entry `(p, q, k)`. -/
theorem flatten_apply {α : Type} {K : Nat} (v : (⟨3, ![128, 128, K]⟩ : Shape).Idx → α)
    (h : (⟨3, ![128, 128, K]⟩ : Shape).ShapeCasts ⟨2, ![16384, K]⟩) (p q : Fin 128) (k : Fin K) :
    shapeCast ⟨2, ![16384, K]⟩ v h (ix2 (pairRow p q) k) = v (ix3 p q k) := by
  refine shapeCast_apply v h _ _ ?_
  rw [Shape.rowMajor_val_three, Shape.rowMajor_val_two]
  rfl

/-- Unflattening: entry `(p, q, c)` is row `128 p + q`, column `c` of the flat array. -/
theorem unflatten_apply {α : Type} {K : Nat} (v : (⟨2, ![16384, K]⟩ : Shape).Idx → α)
    (h : (⟨2, ![16384, K]⟩ : Shape).ShapeCasts ⟨3, ![128, 128, K]⟩) (p q : Fin 128) (k : Fin K) :
    shapeCast ⟨3, ![128, 128, K]⟩ v h (ix3 p q k) = v (ix2 (pairRow p q) k) := by
  refine shapeCast_apply v h _ _ ?_
  rw [Shape.rowMajor_val_three, Shape.rowMajor_val_two]
  rfl

/-! ## A one-hot row of the pair `(p, q)` against a band -/

/-- The dot of the one-hot row of the pair `(p, q)` — the indicator, bin by bin, of "the feature array equals the bin
    number" — with a column `B`: when the feature is the same word `d` in every bin and `d` is in range, it is `B d`. -/
theorem oneHotRow_dot {K : Nat} (hK : K ≤ 2 ^ 32) (D : IVec ⟨3, ![128, 128, K]⟩ 32)
    (hi : (⟨3, ![128, 128, K]⟩ : Shape).Iotas .tc 32 [2])
    (hc : (⟨3, ![128, 128, K]⟩ : Shape).ShapeCasts ⟨2, ![16384, K]⟩) (B : Fin K → EReal) (p q : Fin 128) (d : BitVec 32)
    (hD : ∀ k : Fin K, D (ix3 p q k) = d) (hd : d.toNat < K) :
    ∑ k : Fin K, shapeCast ⟨2, ![16384, K]⟩
        (sitofp (F := Ideal) .f32 (extui 32 (cmpi .eq D (iota .tc ⟨3, ![128, 128, K]⟩ 32 [2] hi)) natLt_1_32)) hc
        (ix2 (pairRow p q) k) * B k = B ⟨d.toNat, hd⟩ := by
  have e : ∀ k : Fin K, shapeCast ⟨2, ![16384, K]⟩
      (sitofp (F := Ideal) .f32 (extui 32 (cmpi .eq D (iota .tc ⟨3, ![128, 128, K]⟩ 32 [2] hi)) natLt_1_32)) hc
      (ix2 (pairRow p q) k) = if d = BitVec.ofNat 32 k.val then (1 : EReal) else 0 := by
    intro k
    refine (flatten_apply _ hc p q k).trans ?_
    show FloatOps.sitofp (F := Ideal) .f32
      ((IntOp.cmpi .eq (D (ix3 p q k)) (iota .tc ⟨3, ![128, 128, K]⟩ 32 [2] hi (ix3 p q k))).setWidth 32) = _
    rw [bit_val, ind_cmpi_eq, hD k, iota_single_apply]
    rfl
  simp only [e]
  exact oneHot_sum hK d hd B

/-! ## The stored value at an entry -/

/-- The body's last part at `(0, p, q, c)`, over any features that are in range at the pair: the three selected band rows, added
    in the body's order, plus the same-entity bit times the entity row. -/
theorem pay1_apply (v38 : IVec S128x128 1) (v61 v73 : IVec S128x128 32) (v75 v76 : FVec Ideal S66x128 .f32)
    (v78 : FVec Ideal S128 .f32) (v79 : FVec Ideal S6x128 .f32) (v82 : IVec S128x128x66 32) (p q c : Fin 128)
    (dr : BitVec 32) (hdr : ∀ k : Fin 66, v82 (ix3 p q k) = dr) (hr : dr.toNat < 66)
    (ht : (v61 (ix2 p q)).toNat < 66) (hc : (v73 (ix2 p q)).toNat < 6) :
    k0_pay1 (F := Ideal) v38 v61 v73 v75 v76 v78 v79 (iota .tc S128x128x66 32 [2] iota_S128x128x66_d2_w32) v82
        (ix4 (0 : Fin 1) p q c)
      = ((v75 (ix2 (⟨dr.toNat, hr⟩ : Fin 66) c) + v76 (ix2 (⟨(v61 (ix2 p q)).toNat, ht⟩ : Fin 66) c))
          + v79 (ix2 (⟨(v73 (ix2 p q)).toNat, hc⟩ : Fin 6) c))
        + Cert.Spec.ind (v38 (ix2 p q)) * v78 (ix1 c) := by
  unfold k0_pay1
  refine (shapeCast_abc_1abc_apply _ shapeCasts_S128x128x128_S1x128x128x128 (0 : Fin 1) p q c).trans ?_
  rw [addf_apply, mulf_apply, unflatten_apply _ shapeCasts_S16384x128_S128x128x128 p q c, addf_apply, addf_apply,
    matmul66_apply, matmul66_apply, matmul6_apply]
  refine congrArg₂ (· + ·) (congrArg₂ (· + ·) (congrArg₂ (· + ·) ?_ ?_) ?_) (congrArg₂ (· * ·) ?_ ?_)
  · exact oneHotRow_dot (by decide) v82 iota_S128x128x66_d2_w32 shapeCasts_S128x128x66_S16384x66
      (fun k => v75 (ix2 k c)) p q dr hdr hr
  · exact oneHotRow_dot (by decide) _ iota_S128x128x66_d2_w32 shapeCasts_S128x128x66_S16384x66
      (fun k => v76 (ix2 k c)) p q (v61 (ix2 p q))
      (fun k => spreadLast_apply v61 shapeCasts_S128x128_S128x128x1 broadcasts_S128x128x1_S128x128x66 p q k) ht
  · exact oneHotRow_dot (by decide) _ iota_S128x128x6_d2_w32 shapeCasts_S128x128x6_S16384x6
      (fun k => v79 (ix2 k c)) p q (v73 (ix2 p q))
      (fun k => spreadLast_apply v73 shapeCasts_S128x128_S128x128x1 broadcasts_S128x128x1_S128x128x6 p q k) hc
  · refine (spreadLast_apply _ shapeCasts_S128x128_S128x128x1 broadcasts_S128x128x1_S128x128x128 p q c).trans ?_
    exact bit_val (v38 (ix2 p q))
  · refine (broadcastTo_apply _ broadcasts_S1x1x128_S128x128x128 (ix3 p q c) (ix3 (0 : Fin 1) (0 : Fin 1) c)
      fun ax => ?_).trans ?_
    · match ax with
      | ⟨0, _⟩ => rfl
      | ⟨1, _⟩ => rfl
      | ⟨2, _⟩ => rfl
    · refine shapeCast_apply v78 shapeCasts_S128_S1x1x128 _ (ix1 c) ?_
      rw [Shape.rowMajor_val_one, Shape.rowMajor_val_three]
      show c.val = (0 * 1 + 0) * 128 + c.val
      omega

/-- THE KERNEL BODY'S STORED VALUE AT `(0, p, q, c)`: the encoding of the pair (row token `p` of the row-side blocks, column
    token `q` of the column-side blocks) in channel `c`. -/
theorem pay_apply (xa0 xa1 xr0 xr1 xe0 xe1 xt0 xt1 xs0 xs1 : Vec Ideal S1x128 .i32) (xw : Vec Ideal S139x128 .f32)
    (p q c : Fin 128) :
    pay (F := Ideal) xa0 xa1 xr0 xr1 xe0 xe1 xt0 xt1 xs0 xs1 xw (ix4 (0 : Fin 1) p q c)
      = Cert.Spec.GatS (xa0 (ix2 (0 : Fin 1) p)) (xa1 (ix2 (0 : Fin 1) q)) (xr0 (ix2 (0 : Fin 1) p)) (xr1 (ix2 (0 : Fin 1) q))
          (xe0 (ix2 (0 : Fin 1) p)) (xe1 (ix2 (0 : Fin 1) q)) (xt0 (ix2 (0 : Fin 1) p)) (xt1 (ix2 (0 : Fin 1) q))
          (xs0 (ix2 (0 : Fin 1) p)) (xs1 (ix2 (0 : Fin 1) q)) xw c := by
  have e19 : ∀ k : Fin 66, k0_pay19 (k0_pay2 (F := Ideal) xr0) (k0_pay3 (F := Ideal) xr1) (k0_pay8 (F := Ideal) xa0 xa1) (ix3 p q k)
      = Cert.Spec.dResS (xa0 (ix2 (0 : Fin 1) p)) (xa1 (ix2 (0 : Fin 1) q)) (xr0 (ix2 (0 : Fin 1) p)) (xr1 (ix2 (0 : Fin 1) q)) :=
    fun k => by rw [pay19_apply, pay8_apply]; rfl
  have e13 : k0_pay13 (k0_pay4 (F := Ideal) xt0) (k0_pay5 (F := Ideal) xt1) (k0_pay8 (F := Ideal) xa0 xa1)
        (k0_pay9 (F := Ideal) xr0 xr1) (ix2 p q)
      = Cert.Spec.dTokS (xa0 (ix2 (0 : Fin 1) p)) (xa1 (ix2 (0 : Fin 1) q)) (xr0 (ix2 (0 : Fin 1) p)) (xr1 (ix2 (0 : Fin 1) q))
          (xt0 (ix2 (0 : Fin 1) p)) (xt1 (ix2 (0 : Fin 1) q)) := by
    rw [pay13_apply, pay8_apply, pay9_apply]; rfl
  have e14 : k0_pay14 (k0_pay6 (F := Ideal) xs0) (k0_pay7 (F := Ideal) xs1) (k0_pay8 (F := Ideal) xa0 xa1) (ix2 p q)
      = Cert.Spec.dChnS (xa0 (ix2 (0 : Fin 1) p)) (xa1 (ix2 (0 : Fin 1) q)) (xs0 (ix2 (0 : Fin 1) p)) (xs1 (ix2 (0 : Fin 1) q)) := by
    rw [pay14_apply, pay8_apply]; rfl
  have hr := Cert.Spec.dResS_lt (xa0 (ix2 (0 : Fin 1) p)) (xa1 (ix2 (0 : Fin 1) q)) (xr0 (ix2 (0 : Fin 1) p)) (xr1 (ix2 (0 : Fin 1) q))
  have ht : (k0_pay13 (k0_pay4 (F := Ideal) xt0) (k0_pay5 (F := Ideal) xt1) (k0_pay8 (F := Ideal) xa0 xa1)
      (k0_pay9 (F := Ideal) xr0 xr1) (ix2 p q)).toNat < 66 := by
    rw [e13]; exact Cert.Spec.dTokS_lt _ _ _ _ _ _
  have hc : (k0_pay14 (k0_pay6 (F := Ideal) xs0) (k0_pay7 (F := Ideal) xs1) (k0_pay8 (F := Ideal) xa0 xa1) (ix2 p q)).toNat < 6 := by
    rw [e14]; exact Cert.Spec.dChnS_lt _ _ _ _
  unfold pay
  refine (pay1_apply _ _ _ _ _ _ _ _ p q c _ e19 hr ht hc).trans ?_
  unfold Cert.Spec.GatS
  rw [pay15_row, pay16_row, pay18_row, pay17_row, pay12_apply, e13, e14]

end Cert.KernelIdeal.Hand

end
-- ==== Proof.KValue.lean ====
/-
  From the blocks the grid points write back to the whole result array, at the ideal instance.

  The kernel's grid has 64 points; point `t` has the coordinates `(i, j) = (t / 8, t % 8)`. The row-side windows hand it
  stretch `i` of the five id vectors (entries `128 i … 128 i + 127`), the column-side windows stretch `j`, the weight
  window the whole weight matrix, and it writes back the block `(0, i, j, 0)` of the result: the entries
  `(0, 128 i + p, 128 j + q, ch)`. The value it stores at `(0, p, q, ch)` of its block is the encoding of the ids at
  positions `p` and `q` of its two stretches, so it is the specification's array `Cert.Spec.G` of the six arguments read at
  `(0, 128 i + p, 128 j + q, ch)`: what the point writes back is its block of ONE whole-array function of the arguments.
  The 64 blocks cover the result array (the index `(0, P, Q, ch)` lies in the block of the point `8 (P / 128) + Q / 128`),
  so after the run the result array is `Cert.Spec.G` of the arguments (`final`), and the run is re-posted with the result
  named and the arguments unchanged (`run`).
-/
import proofs.«412935_j89404039233854_3_alg».proof.Proof.KLaunch
import proofs.«412935_j89404039233854_3_alg».proof.Proof.KPayload
import proofs.«412935_j89404039233854_3_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat)
open Idealize.ShloMosaic.ValueIdx

/-! ## The printed index maps, decided once over the 64 grid points

Point `t` has the coordinates `(t / 8, t % 8)`: the row-side windows read block `t / 8` of their vector, the column-side
windows block `t % 8`, the weight window its one block, and the output window writes block `(0, t / 8, t % 8, 0)`. -/

theorem idx_win0 : ∀ t : Fin cfg0.N, win0_0.index t (0 : Fin 2) = 0 ∧ win0_0.index t (1 : Fin 2) = t.val / 8 :=
  (by decide +kernel : ∀ t : Fin grid0.N, win0_0.index t (0 : Fin 2) = 0 ∧ win0_0.index t (1 : Fin 2) = t.val / 8)
theorem idx_win1 : ∀ t : Fin cfg0.N, win0_1.index t (0 : Fin 2) = 0 ∧ win0_1.index t (1 : Fin 2) = t.val % 8 :=
  (by decide +kernel : ∀ t : Fin grid0.N, win0_1.index t (0 : Fin 2) = 0 ∧ win0_1.index t (1 : Fin 2) = t.val % 8)
theorem idx_win2 : ∀ t : Fin cfg0.N, win0_2.index t (0 : Fin 2) = 0 ∧ win0_2.index t (1 : Fin 2) = t.val / 8 :=
  (by decide +kernel : ∀ t : Fin grid0.N, win0_2.index t (0 : Fin 2) = 0 ∧ win0_2.index t (1 : Fin 2) = t.val / 8)
theorem idx_win3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)
theorem idx_win4 : ∀ t : Fin cfg0.N, win0_4.index t (0 : Fin 2) = 0 ∧ win0_4.index t (1 : Fin 2) = t.val / 8 :=
  (by decide +kernel : ∀ t : Fin grid0.N, win0_4.index t (0 : Fin 2) = 0 ∧ win0_4.index t (1 : Fin 2) = t.val / 8)
theorem idx_win5 : ∀ t : Fin cfg0.N, win0_5.index t (0 : Fin 2) = 0 ∧ win0_5.index t (1 : Fin 2) = t.val % 8 :=
  (by decide +kernel : ∀ t : Fin grid0.N, win0_5.index t (0 : Fin 2) = 0 ∧ win0_5.index t (1 : Fin 2) = t.val % 8)
theorem idx_win6 : ∀ t : Fin cfg0.N, win0_6.index t (0 : Fin 2) = 0 ∧ win0_6.index t (1 : Fin 2) = t.val / 8 :=
  (by decide +kernel : ∀ t : Fin grid0.N, win0_6.index t (0 : Fin 2) = 0 ∧ win0_6.index t (1 : Fin 2) = t.val / 8)
theorem idx_win7 : ∀ t : Fin cfg0.N, win0_7.index t (0 : Fin 2) = 0 ∧ win0_7.index t (1 : Fin 2) = t.val % 8 :=
  (by decide +kernel : ∀ t : Fin grid0.N, win0_7.index t (0 : Fin 2) = 0 ∧ win0_7.index t (1 : Fin 2) = t.val % 8)
theorem idx_win8 : ∀ t : Fin cfg0.N, win0_8.index t (0 : Fin 2) = 0 ∧ win0_8.index t (1 : Fin 2) = t.val / 8 :=
  (by decide +kernel : ∀ t : Fin grid0.N, win0_8.index t (0 : Fin 2) = 0 ∧ win0_8.index t (1 : Fin 2) = t.val / 8)
theorem idx_win9 : ∀ t : Fin cfg0.N, win0_9.index t (0 : Fin 2) = 0 ∧ win0_9.index t (1 : Fin 2) = t.val % 8 :=
  (by decide +kernel : ∀ t : Fin grid0.N, win0_9.index t (0 : Fin 2) = 0 ∧ win0_9.index t (1 : Fin 2) = t.val % 8)
theorem idx_win10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_win11 : ∀ t : Fin cfg0.N, win0_11.index t (0 : Fin 4) = 0 ∧ win0_11.index t (1 : Fin 4) = t.val / 8
    ∧ win0_11.index t (2 : Fin 4) = t.val % 8 ∧ win0_11.index t (3 : Fin 4) = 0 :=
  (by decide +kernel : ∀ t : Fin grid0.N, win0_11.index t (0 : Fin 4) = 0 ∧ win0_11.index t (1 : Fin 4) = t.val / 8
    ∧ win0_11.index t (2 : Fin 4) = t.val % 8 ∧ win0_11.index t (3 : Fin 4) = 0)

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## Each input block as a stretch of its argument -/

section Blocks
variable {F : FTy → Type} [FloatOps F]
variable (m : (ℓ : Loc nD τ sig) → Buf (Elt F) ℓ)

/-- The row-side block of argument 0 at point `t`: entry `x` of the block is entry `128 · (t / 8) + x` of the vector. -/
theorem iblk0_apply (c : Dev nD) (t : Fin cfg0.N) (x : S1x128.Idx) (k : S1x1024.Idx)
    (hk0 : (k 0).val = 0) (hk1 : (k 1).val = 128 * (t.val / 8) + (x 1).val) :
    (iblk m c 0 t : Vec F S1x128 .i32) x = (m ((c.tc : Thread nD τ).loc main_arg0) : S1x1024.Idx → Elt F .i32) k := by
  obtain ⟨e0, e1⟩ := idx_win0 t
  have hx0 : (x 0).val < 1 := (x 0).isLt
  unfold iblk
  rw [View.read_apply]
  show V m c main_arg0 _ = m ((c.tc : Thread nD τ).loc main_arg0) _
  unfold V
  congr 1
  funext a
  apply Fin.ext
  match a with
  | ⟨0, _⟩ => show win0_0.index t (0 : Fin 2) * 1 + 1 * (x 0).val = (k 0).val; rw [e0, hk0]; omega
  | ⟨1, _⟩ => show win0_0.index t (1 : Fin 2) * 128 + 1 * (x 1).val = (k 1).val; rw [e1, hk1]; omega

/-- The column-side block of argument 0 at point `t`: entry `x` of the block is entry `128 · (t % 8) + x` of the vector. -/
theorem iblk1_apply (c : Dev nD) (t : Fin cfg0.N) (x : S1x128.Idx) (k : S1x1024.Idx)
    (hk0 : (k 0).val = 0) (hk1 : (k 1).val = 128 * (t.val % 8) + (x 1).val) :
    (iblk m c 1 t : Vec F S1x128 .i32) x = (m ((c.tc : Thread nD τ).loc main_arg0) : S1x1024.Idx → Elt F .i32) k := by
  obtain ⟨e0, e1⟩ := idx_win1 t
  have hx0 : (x 0).val < 1 := (x 0).isLt
  unfold iblk
  rw [View.read_apply]
  show V m c main_arg0 _ = m ((c.tc : Thread nD τ).loc main_arg0) _
  unfold V
  congr 1
  funext a
  apply Fin.ext
  match a with
  | ⟨0, _⟩ => show win0_1.index t (0 : Fin 2) * 1 + 1 * (x 0).val = (k 0).val; rw [e0, hk0]; omega
  | ⟨1, _⟩ => show win0_1.index t (1 : Fin 2) * 128 + 1 * (x 1).val = (k 1).val; rw [e1, hk1]; omega

/-- The row-side block of argument 1 at point `t`: entry `x` of the block is entry `128 · (t / 8) + x` of the vector. -/
theorem iblk2_apply (c : Dev nD) (t : Fin cfg0.N) (x : S1x128.Idx) (k : S1x1024.Idx)
    (hk0 : (k 0).val = 0) (hk1 : (k 1).val = 128 * (t.val / 8) + (x 1).val) :
    (iblk m c 2 t : Vec F S1x128 .i32) x = (m ((c.tc : Thread nD τ).loc main_arg1) : S1x1024.Idx → Elt F .i32) k := by
  obtain ⟨e0, e1⟩ := idx_win2 t
  have hx0 : (x 0).val < 1 := (x 0).isLt
  unfold iblk
  rw [View.read_apply]
  show V m c main_arg1 _ = m ((c.tc : Thread nD τ).loc main_arg1) _
  unfold V
  congr 1
  funext a
  apply Fin.ext
  match a with
  | ⟨0, _⟩ => show win0_2.index t (0 : Fin 2) * 1 + 1 * (x 0).val = (k 0).val; rw [e0, hk0]; omega
  | ⟨1, _⟩ => show win0_2.index t (1 : Fin 2) * 128 + 1 * (x 1).val = (k 1).val; rw [e1, hk1]; omega

/-- The column-side block of argument 1 at point `t`: entry `x` of the block is entry `128 · (t % 8) + x` of the vector. -/
theorem iblk3_apply (c : Dev nD) (t : Fin cfg0.N) (x : S1x128.Idx) (k : S1x1024.Idx)
    (hk0 : (k 0).val = 0) (hk1 : (k 1).val = 128 * (t.val % 8) + (x 1).val) :
    (iblk m c 3 t : Vec F S1x128 .i32) x = (m ((c.tc : Thread nD τ).loc main_arg1) : S1x1024.Idx → Elt F .i32) k := by
  obtain ⟨e0, e1⟩ := idx_win3 t
  have hx0 : (x 0).val < 1 := (x 0).isLt
  unfold iblk
  rw [View.read_apply]
  show V m c main_arg1 _ = m ((c.tc : Thread nD τ).loc main_arg1) _
  unfold V
  congr 1
  funext a
  apply Fin.ext
  match a with
  | ⟨0, _⟩ => show win0_3.index t (0 : Fin 2) * 1 + 1 * (x 0).val = (k 0).val; rw [e0, hk0]; omega
  | ⟨1, _⟩ => show win0_3.index t (1 : Fin 2) * 128 + 1 * (x 1).val = (k 1).val; rw [e1, hk1]; omega

/-- The row-side block of argument 2 at point `t`: entry `x` of the block is entry `128 · (t / 8) + x` of the vector. -/
theorem iblk4_apply (c : Dev nD) (t : Fin cfg0.N) (x : S1x128.Idx) (k : S1x1024.Idx)
    (hk0 : (k 0).val = 0) (hk1 : (k 1).val = 128 * (t.val / 8) + (x 1).val) :
    (iblk m c 4 t : Vec F S1x128 .i32) x = (m ((c.tc : Thread nD τ).loc main_arg2) : S1x1024.Idx → Elt F .i32) k := by
  obtain ⟨e0, e1⟩ := idx_win4 t
  have hx0 : (x 0).val < 1 := (x 0).isLt
  unfold iblk
  rw [View.read_apply]
  show V m c main_arg2 _ = m ((c.tc : Thread nD τ).loc main_arg2) _
  unfold V
  congr 1
  funext a
  apply Fin.ext
  match a with
  | ⟨0, _⟩ => show win0_4.index t (0 : Fin 2) * 1 + 1 * (x 0).val = (k 0).val; rw [e0, hk0]; omega
  | ⟨1, _⟩ => show win0_4.index t (1 : Fin 2) * 128 + 1 * (x 1).val = (k 1).val; rw [e1, hk1]; omega

/-- The column-side block of argument 2 at point `t`: entry `x` of the block is entry `128 · (t % 8) + x` of the vector. -/
theorem iblk5_apply (c : Dev nD) (t : Fin cfg0.N) (x : S1x128.Idx) (k : S1x1024.Idx)
    (hk0 : (k 0).val = 0) (hk1 : (k 1).val = 128 * (t.val % 8) + (x 1).val) :
    (iblk m c 5 t : Vec F S1x128 .i32) x = (m ((c.tc : Thread nD τ).loc main_arg2) : S1x1024.Idx → Elt F .i32) k := by
  obtain ⟨e0, e1⟩ := idx_win5 t
  have hx0 : (x 0).val < 1 := (x 0).isLt
  unfold iblk
  rw [View.read_apply]
  show V m c main_arg2 _ = m ((c.tc : Thread nD τ).loc main_arg2) _
  unfold V
  congr 1
  funext a
  apply Fin.ext
  match a with
  | ⟨0, _⟩ => show win0_5.index t (0 : Fin 2) * 1 + 1 * (x 0).val = (k 0).val; rw [e0, hk0]; omega
  | ⟨1, _⟩ => show win0_5.index t (1 : Fin 2) * 128 + 1 * (x 1).val = (k 1).val; rw [e1, hk1]; omega

/-- The row-side block of argument 3 at point `t`: entry `x` of the block is entry `128 · (t / 8) + x` of the vector. -/
theorem iblk6_apply (c : Dev nD) (t : Fin cfg0.N) (x : S1x128.Idx) (k : S1x1024.Idx)
    (hk0 : (k 0).val = 0) (hk1 : (k 1).val = 128 * (t.val / 8) + (x 1).val) :
    (iblk m c 6 t : Vec F S1x128 .i32) x = (m ((c.tc : Thread nD τ).loc main_arg3) : S1x1024.Idx → Elt F .i32) k := by
  obtain ⟨e0, e1⟩ := idx_win6 t
  have hx0 : (x 0).val < 1 := (x 0).isLt
  unfold iblk
  rw [View.read_apply]
  show V m c main_arg3 _ = m ((c.tc : Thread nD τ).loc main_arg3) _
  unfold V
  congr 1
  funext a
  apply Fin.ext
  match a with
  | ⟨0, _⟩ => show win0_6.index t (0 : Fin 2) * 1 + 1 * (x 0).val = (k 0).val; rw [e0, hk0]; omega
  | ⟨1, _⟩ => show win0_6.index t (1 : Fin 2) * 128 + 1 * (x 1).val = (k 1).val; rw [e1, hk1]; omega

/-- The column-side block of argument 3 at point `t`: entry `x` of the block is entry `128 · (t % 8) + x` of the vector. -/
theorem iblk7_apply (c : Dev nD) (t : Fin cfg0.N) (x : S1x128.Idx) (k : S1x1024.Idx)
    (hk0 : (k 0).val = 0) (hk1 : (k 1).val = 128 * (t.val % 8) + (x 1).val) :
    (iblk m c 7 t : Vec F S1x128 .i32) x = (m ((c.tc : Thread nD τ).loc main_arg3) : S1x1024.Idx → Elt F .i32) k := by
  obtain ⟨e0, e1⟩ := idx_win7 t
  have hx0 : (x 0).val < 1 := (x 0).isLt
  unfold iblk
  rw [View.read_apply]
  show V m c main_arg3 _ = m ((c.tc : Thread nD τ).loc main_arg3) _
  unfold V
  congr 1
  funext a
  apply Fin.ext
  match a with
  | ⟨0, _⟩ => show win0_7.index t (0 : Fin 2) * 1 + 1 * (x 0).val = (k 0).val; rw [e0, hk0]; omega
  | ⟨1, _⟩ => show win0_7.index t (1 : Fin 2) * 128 + 1 * (x 1).val = (k 1).val; rw [e1, hk1]; omega

/-- The row-side block of argument 4 at point `t`: entry `x` of the block is entry `128 · (t / 8) + x` of the vector. -/
theorem iblk8_apply (c : Dev nD) (t : Fin cfg0.N) (x : S1x128.Idx) (k : S1x1024.Idx)
    (hk0 : (k 0).val = 0) (hk1 : (k 1).val = 128 * (t.val / 8) + (x 1).val) :
    (iblk m c 8 t : Vec F S1x128 .i32) x = (m ((c.tc : Thread nD τ).loc main_arg4) : S1x1024.Idx → Elt F .i32) k := by
  obtain ⟨e0, e1⟩ := idx_win8 t
  have hx0 : (x 0).val < 1 := (x 0).isLt
  unfold iblk
  rw [View.read_apply]
  show V m c main_arg4 _ = m ((c.tc : Thread nD τ).loc main_arg4) _
  unfold V
  congr 1
  funext a
  apply Fin.ext
  match a with
  | ⟨0, _⟩ => show win0_8.index t (0 : Fin 2) * 1 + 1 * (x 0).val = (k 0).val; rw [e0, hk0]; omega
  | ⟨1, _⟩ => show win0_8.index t (1 : Fin 2) * 128 + 1 * (x 1).val = (k 1).val; rw [e1, hk1]; omega

/-- The column-side block of argument 4 at point `t`: entry `x` of the block is entry `128 · (t % 8) + x` of the vector. -/
theorem iblk9_apply (c : Dev nD) (t : Fin cfg0.N) (x : S1x128.Idx) (k : S1x1024.Idx)
    (hk0 : (k 0).val = 0) (hk1 : (k 1).val = 128 * (t.val % 8) + (x 1).val) :
    (iblk m c 9 t : Vec F S1x128 .i32) x = (m ((c.tc : Thread nD τ).loc main_arg4) : S1x1024.Idx → Elt F .i32) k := by
  obtain ⟨e0, e1⟩ := idx_win9 t
  have hx0 : (x 0).val < 1 := (x 0).isLt
  unfold iblk
  rw [View.read_apply]
  show V m c main_arg4 _ = m ((c.tc : Thread nD τ).loc main_arg4) _
  unfold V
  congr 1
  funext a
  apply Fin.ext
  match a with
  | ⟨0, _⟩ => show win0_9.index t (0 : Fin 2) * 1 + 1 * (x 0).val = (k 0).val; rw [e0, hk0]; omega
  | ⟨1, _⟩ => show win0_9.index t (1 : Fin 2) * 128 + 1 * (x 1).val = (k 1).val; rw [e1, hk1]; omega

/-- The weight window's one block is the whole weight matrix. -/
theorem iblk10_eq (c : Dev nD) (t : Fin cfg0.N) :
    (iblk m c 10 t : Vec F S139x128 .f32) = (m ((c.tc : Thread nD τ).loc main_arg5) : S139x128.Idx → Elt F .f32) := by
  obtain ⟨e0, e1⟩ := idx_win10 t
  funext x
  unfold iblk
  rw [View.read_apply]
  show V m c main_arg5 _ = m ((c.tc : Thread nD τ).loc main_arg5) _
  unfold V
  congr 1
  funext a
  apply Fin.ext
  match a with
  | ⟨0, _⟩ => show win0_10.index t (0 : Fin 2) * 139 + 1 * (x 0).val = (x 0).val; rw [e0]; omega
  | ⟨1, _⟩ => show win0_10.index t (1 : Fin 2) * 128 + 1 * (x 1).val = (x 1).val; rw [e1]; omega

end Blocks

/-! ## What a grid point writes back is its block of the specification -/

/-- The body's stored value over blocks that are stretches of the argument vectors — the row-side blocks stretch `I`,
    the column-side blocks stretch `J`, the weight block the weight matrix — is the specification's array at the
    index `(0, 128 I + p, 128 J + q, ch)`. Stated over variables of the literal vector types. -/
theorem pay_block {I J : Nat} (xa0 xa1 xr0 xr1 xe0 xe1 xt0 xt1 xs0 xs1 : Vec Ideal S1x128 .i32) (xw : Vec Ideal S139x128 .f32)
    (a r e t s : IVec Cert.Spec.SIds 32) (W : FVec Ideal Cert.Spec.SW .f32)
    (ha0 : ∀ (x : S1x128.Idx) (k : S1x1024.Idx), (k 0).val = 0 → (k 1).val = 128 * I + (x 1).val → xa0 x = a k)
    (ha1 : ∀ (x : S1x128.Idx) (k : S1x1024.Idx), (k 0).val = 0 → (k 1).val = 128 * J + (x 1).val → xa1 x = a k)
    (hr0 : ∀ (x : S1x128.Idx) (k : S1x1024.Idx), (k 0).val = 0 → (k 1).val = 128 * I + (x 1).val → xr0 x = r k)
    (hr1 : ∀ (x : S1x128.Idx) (k : S1x1024.Idx), (k 0).val = 0 → (k 1).val = 128 * J + (x 1).val → xr1 x = r k)
    (he0 : ∀ (x : S1x128.Idx) (k : S1x1024.Idx), (k 0).val = 0 → (k 1).val = 128 * I + (x 1).val → xe0 x = e k)
    (he1 : ∀ (x : S1x128.Idx) (k : S1x1024.Idx), (k 0).val = 0 → (k 1).val = 128 * J + (x 1).val → xe1 x = e k)
    (ht0 : ∀ (x : S1x128.Idx) (k : S1x1024.Idx), (k 0).val = 0 → (k 1).val = 128 * I + (x 1).val → xt0 x = t k)
    (ht1 : ∀ (x : S1x128.Idx) (k : S1x1024.Idx), (k 0).val = 0 → (k 1).val = 128 * J + (x 1).val → xt1 x = t k)
    (hs0 : ∀ (x : S1x128.Idx) (k : S1x1024.Idx), (k 0).val = 0 → (k 1).val = 128 * I + (x 1).val → xs0 x = s k)
    (hs1 : ∀ (x : S1x128.Idx) (k : S1x1024.Idx), (k 0).val = 0 → (k 1).val = 128 * J + (x 1).val → xs1 x = s k)
    (hw : xw = W)
    (j : S1x128x128x128.Idx) (k : S1x1024x1024x128.Idx)
    (hk1 : (k 1).val = 128 * I + (j 1).val) (hk2 : (k 2).val = 128 * J + (j 2).val) (hk3 : (k 3).val = (j 3).val) :
    pay (F := Ideal) xa0 xa1 xr0 xr1 xe0 xe1 xt0 xt1 xs0 xs1 xw j = Cert.Spec.G a r e t s W k := by
  have h0 : (j 0).val < 1 := (j 0).isLt
  have h1 : (j 1).val < 128 := (j 1).isLt
  have h2 : (j 2).val < 128 := (j 2).isLt
  have h3 : (j 3).val < 128 := (j 3).isLt
  have g1 : (k 1).val < 1024 := (k 1).isLt
  have g2 : (k 2).val < 1024 := (k 2).isLt
  have ej : j = ix4 (0 : Fin 1) (⟨(j 1).val, h1⟩ : Fin 128) (⟨(j 2).val, h2⟩ : Fin 128) (⟨(j 3).val, h3⟩ : Fin 128) := by
    funext d
    match d with
    | ⟨0, _⟩ => exact Fin.ext (show (j 0).val = 0 by omega)
    | ⟨1, _⟩ => rfl
    | ⟨2, _⟩ => rfl
    | ⟨3, _⟩ => rfl
  have hc : (⟨(j 3).val, h3⟩ : Fin 128) = k 3 := Fin.ext hk3.symm
  have ea0 := ha0 (ix2 (0 : Fin 1) (⟨(j 1).val, h1⟩ : Fin 128)) (ix2 (0 : Fin 1) (⟨(k 1).val, g1⟩ : Fin 1024)) rfl hk1
  have ea1 := ha1 (ix2 (0 : Fin 1) (⟨(j 2).val, h2⟩ : Fin 128)) (ix2 (0 : Fin 1) (⟨(k 2).val, g2⟩ : Fin 1024)) rfl hk2
  have er0 := hr0 (ix2 (0 : Fin 1) (⟨(j 1).val, h1⟩ : Fin 128)) (ix2 (0 : Fin 1) (⟨(k 1).val, g1⟩ : Fin 1024)) rfl hk1
  have er1 := hr1 (ix2 (0 : Fin 1) (⟨(j 2).val, h2⟩ : Fin 128)) (ix2 (0 : Fin 1) (⟨(k 2).val, g2⟩ : Fin 1024)) rfl hk2
  have ee0 := he0 (ix2 (0 : Fin 1) (⟨(j 1).val, h1⟩ : Fin 128)) (ix2 (0 : Fin 1) (⟨(k 1).val, g1⟩ : Fin 1024)) rfl hk1
  have ee1 := he1 (ix2 (0 : Fin 1) (⟨(j 2).val, h2⟩ : Fin 128)) (ix2 (0 : Fin 1) (⟨(k 2).val, g2⟩ : Fin 1024)) rfl hk2
  have et0 := ht0 (ix2 (0 : Fin 1) (⟨(j 1).val, h1⟩ : Fin 128)) (ix2 (0 : Fin 1) (⟨(k 1).val, g1⟩ : Fin 1024)) rfl hk1
  have et1 := ht1 (ix2 (0 : Fin 1) (⟨(j 2).val, h2⟩ : Fin 128)) (ix2 (0 : Fin 1) (⟨(k 2).val, g2⟩ : Fin 1024)) rfl hk2
  have es0 := hs0 (ix2 (0 : Fin 1) (⟨(j 1).val, h1⟩ : Fin 128)) (ix2 (0 : Fin 1) (⟨(k 1).val, g1⟩ : Fin 1024)) rfl hk1
  have es1 := hs1 (ix2 (0 : Fin 1) (⟨(j 2).val, h2⟩ : Fin 128)) (ix2 (0 : Fin 1) (⟨(k 2).val, g2⟩ : Fin 1024)) rfl hk2
  rw [ej, pay_apply, ea0, ea1, er0, er1, ee0, ee1, et0, et1, es0, es1, hw, hc]
  rfl

section Final
variable (m : (ℓ : Loc nD τ sig) → Buf (Elt Ideal) ℓ) (ρ : Dev nD → PrngReg)

/-- The specification's array of the six argument arrays as core `c` holds them at launch. -/
abbrev Gm (c : Dev nD) : S1x1024x1024x128.Idx → EReal :=
  Cert.Spec.G (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- WHAT POINT `t` WRITES BACK is block `t` of the specification's array. -/
theorem flushed_eq (c : Dev nD) (t : Fin cfg0.N) :
    (dats (F := Ideal) m 0 c).flushed 11 t = ((cfg0.win 11).blk t).view.read (Elt Ideal) (Gm m c) := by
  show (cfg0.win 11).cut (grid0.coords t) ((dats (F := Ideal) m 0 c).after 11 t) = _
  rw [after0_11]
  unfold out11
  rw [View.canon_unit_zero hz4]
  simp only [View.ld_unit_zero (S := S1x128) hz2, View.ld_unit_zero (S := S139x128) hz2]
  obtain ⟨o0, o1, o2, o3⟩ := idx_win11 t
  funext j
  show pay (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) j = Gm m c (((cfg0.win 11).blk t).view.emb j)
  refine pay_block (I := t.val / 8) (J := t.val % 8) _ _ _ _ _ _ _ _ _ _ _ _ _ _ _ _ _
    (iblk0_apply m c t) (iblk1_apply m c t) (iblk2_apply m c t) (iblk3_apply m c t) (iblk4_apply m c t) (iblk5_apply m c t)
    (iblk6_apply m c t) (iblk7_apply m c t) (iblk8_apply m c t) (iblk9_apply m c t) (iblk10_eq m c t) j _ ?_ ?_ ?_
  · show win0_11.index t (1 : Fin 4) * 128 + 1 * (j 1).val = 128 * (t.val / 8) + (j 1).val
    rw [o1]; omega
  · show win0_11.index t (2 : Fin 4) * 128 + 1 * (j 2).val = 128 * (t.val % 8) + (j 2).val
    rw [o2]; omega
  · show win0_11.index t (3 : Fin 4) * 128 + 1 * (j 3).val = (j 3).val
    rw [o3]; omega

/-- An index of the result array is in point `t`'s block iff each coordinate is in the block's range on its axis. -/
theorem mem_blk (t : Fin cfg0.N) (i : S1x1024x1024x128.Idx) :
    i ∈ ((cfg0.win 11).blk t).view.set ↔ ∀ a : Fin 4, win0_11.index t a * S1x128x128x128.size a ≤ (i a).val
      ∧ (i a).val < win0_11.index t a * S1x128x128x128.size a + S1x128x128x128.size a := by
  show i ∈ ((View.whole main_v0).slice (win0_11.rect t)).set ↔ _
  rw [View.set_slice_whole, Rect.mem_set_unit]
  exact Iff.rfl

/-- EVERY INDEX IS COVERED: `(0, P, Q, ch)` lies in the block of the point `8 (P / 128) + Q / 128`. -/
theorem covered (i : S1x1024x1024x128.Idx) :
    ∃ t : Fin cfg0.N, (cfg0.win 11).flush t = true ∧ i ∈ ((cfg0.win 11).blk t).view.set := by
  have hi0 : (i 0).val < 1 := (i 0).isLt
  have hi1 : (i 1).val < 1024 := (i 1).isLt
  have hi2 : (i 2).val < 1024 := (i 2).isLt
  have hi3 : (i 3).val < 128 := (i 3).isLt
  have hN : cfg0.N = 64 := N_0
  let t : Fin cfg0.N := ⟨8 * ((i 1).val / 128) + (i 2).val / 128, by rw [hN]; omega⟩
  have htv : t.val = 8 * ((i 1).val / 128) + (i 2).val / 128 := rfl
  obtain ⟨o0, o1, o2, o3⟩ := idx_win11 t
  refine ⟨t, flush0_11 t, ?_⟩
  rw [mem_blk]
  intro a
  match a with
  | ⟨0, _⟩ =>
    show win0_11.index t (0 : Fin 4) * 1 ≤ (i 0).val ∧ (i 0).val < win0_11.index t (0 : Fin 4) * 1 + 1
    rw [o0]; omega
  | ⟨1, _⟩ =>
    show win0_11.index t (1 : Fin 4) * 128 ≤ (i 1).val ∧ (i 1).val < win0_11.index t (1 : Fin 4) * 128 + 128
    rw [o1, htv]; omega
  | ⟨2, _⟩ =>
    show win0_11.index t (2 : Fin 4) * 128 ≤ (i 2).val ∧ (i 2).val < win0_11.index t (2 : Fin 4) * 128 + 128
    rw [o2, htv]; omega
  | ⟨3, _⟩ =>
    show win0_11.index t (3 : Fin 4) * 128 ≤ (i 3).val ∧ (i 3).val < win0_11.index t (3 : Fin 4) * 128 + 128
    rw [o3]; omega

/-- THE RESULT ARRAY after the run is the specification's array of the arguments. -/
theorem final (m : (ℓ : Loc nD τ sig) → Buf (Elt Ideal) ℓ) (c : Dev nD) : (dats (F := Ideal) m 0 c).arrAt 11 cfg0.N = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (dats (F := Ideal) m 0 c).arrAt_eq_of_cover 11 (Gm m c) (fun t _ => flushed_eq m c t) covered

/-- The kernel's run, read: the result array at the specification's array of the arguments, the arguments unchanged. -/
theorem run (m : (ℓ : Loc nD τ sig) → Buf (Elt Ideal) ℓ) (ρ : Dev nD → PrngReg) : θ_run (defs (F := Ideal)) (onTc (τ := τ) (main (F := Ideal))) ⟨m, fun _ => 0, ρ⟩ (fun r => ∀ c : Dev nD, r.2.mem ((c.tc : Thread nD τ).loc main_v0) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun r h c => ⟨((h c).1 11).trans (final m c),
      ((h c).1 0).trans (((dats (F := Ideal) m 0 c).arrAt_in 0 rfl _).trans (A_eq m c 0)),
      ((h c).1 2).trans (((dats (F := Ideal) m 0 c).arrAt_in 2 rfl _).trans (A_eq m c 2)),
      ((h c).1 4).trans (((dats (F := Ideal) m 0 c).arrAt_in 4 rfl _).trans (A_eq m c 4)),
      ((h c).1 6).trans (((dats (F := Ideal) m 0 c).arrAt_in 6 rfl _).trans (A_eq m c 6)),
      ((h c).1 8).trans (((dats (F := Ideal) m 0 c).arrAt_in 8 rfl _).trans (A_eq m c 8)),
      ((h c).1 10).trans (((dats (F := Ideal) m 0 c).arrAt_in 10 rfl _).trans (A_eq m c 10))⟩)
    (run_main m ρ)

end Final

end Cert.KernelIdeal.Hand

end
-- ==== Proof.RTerm.lean ====
/-
  The reference program's result as one pure term of its six argument arrays: every operation of the
  program, in program order, applied to the values its operands hold. The three outlined helper functions
  (clamp, select-with-scalar, row lookup) are stated once, as the chains of operations of their bodies,
  and applied at each call.
-/
import proofs.«412935_j89404039233854_3_alg».proof.ReferenceIdeal

set_option maxRecDepth 16384

noncomputable section

namespace Cert.ReferenceIdeal.Hand

open Idealize.ShloMosaic Idealize.SL.Sem Cert.ReferenceIdeal Cert.ReferenceIdeal.Facts₀ Cert.ReferenceIdeal.Facts

variable {F : FTy → Type} [FloatOps F]
variable [Cert.ReferenceIdeal.Facts]

/-- The clamp helper: `min hi (max lo x)` entry by entry, the two scalar bounds broadcast to the array's shape. -/
def clipT (x : IVec S1x1024x1024 32) (lo hi : IVec S_ 32) : IVec S1x1024x1024 32 :=
  have v0 : IVec S_ 32 := id lo
  have v1 : IVec S1x1024x1024 32 := broadcastInDim S1x1024x1024 ![] bcast_S_S1x1024x1024 v0
  have v2 : IVec S1x1024x1024 32 := maxsi v1 x
  have v3 : IVec S_ 32 := id hi
  have v4 : IVec S1x1024x1024 32 := broadcastInDim S1x1024x1024 ![] bcast_S_S1x1024x1024 v3
  have v5 : IVec S1x1024x1024 32 := minsi v4 v2
  v5

/-- The select helper: `x` where the bit is set, the scalar `k` elsewhere. -/
def whereT (c : IVec S1x1024x1024 1) (x : IVec S1x1024x1024 32) (k : IVec S_ 32) : IVec S1x1024x1024 32 :=
  have v0 : IVec S_ 32 := id k
  have v1 : IVec S1x1024x1024 32 := broadcastInDim S1x1024x1024 ![] bcast_S_S1x1024x1024 v0
  have v2 : IVec S1x1024x1024 32 := select c x v1
  v2

/-- The row-lookup helper: negative row numbers wrapped by the row count, the row gathered (the start
    clamped into range), and the result kept only where the wrapped row number is in range, a fill value
    elsewhere. -/
def takeT (W : FVec F S139x128 .f32) (idx : IVec S1x1024x1024 32) : FVec F S1x1024x1024x128 .f32 :=
  have c : IVec S_ 32 := constantI S_ 32 0#32
  have v0 : IVec S1x1024x1024 32 := broadcastInDim S1x1024x1024 ![] bcast_S_S1x1024x1024 c
  have v1 : IVec S1x1024x1024 1 := cmpi .slt idx v0
  have c_0 : IVec S_ 32 := constantI S_ 32 139#32
  have v2 : IVec S1x1024x1024 32 := broadcastInDim S1x1024x1024 ![] bcast_S_S1x1024x1024 c_0
  have v3 : IVec S1x1024x1024 32 := addi idx v2
  have call0_v0 : IVec S1x1024x1024 32 := select v1 v3 idx
  have v5 : IVec S1x1024x1024x1 32 := broadcastInDim S1x1024x1024x1 ![0, 1, 2] bcast_S1x1024x1024_S1x1024x1024x1_0_1_2 call0_v0
  have c_1 : IVec S1 32 := constantI S1 32 138#32
  have c_2 : IVec S_ 32 := constantI S_ 32 0#32
  have v6 : IVec S1x1024x1024x1 32 := broadcastInDim S1x1024x1024x1 ![] bcast_S_S1x1024x1024x1 c_2
  have v7 : IVec S1x1024x1024x1 1 := cmpi .sge v5 v6
  have v8 : IVec S1x1x1x1 32 := broadcastInDim S1x1x1x1 ![3] bcast_S1_S1x1x1x1_3 c_1
  have v9 : IVec S1x1024x1024x1 32 := broadcastInDim S1x1024x1024x1 ![0, 1, 2, 3] bcast_S1x1x1x1_S1x1024x1024x1_0_1_2_3 v8
  have v10 : IVec S1x1024x1024x1 1 := cmpi .sle v5 v9
  have v11 : IVec S1x1024x1024x1 1 := andi v7 v10
  have c_3 : IVec S_ 1 := constantI S_ 1 1#1
  have v12 : IVec S1x1024x1024 1 := Host.reduce IntOp.andi v11 c_3 reducesTo_S1x1024x1024x1_S1x1024x1024_d3 h_S_
  have v13 : FVec F S1x1024x1024x128 .f32 := Host.gather gather_S139x128_S1x1024x1024x1_S1x1024x1024x128_3_0_n_n_0_3_1128 W v5
  have v14 : IVec S1x1024x1024x128 1 := broadcastInDim S1x1024x1024x128 ![0, 1, 2] bcast_S1x1024x1024_S1x1024x1024x128_0_1_2 v12
  have cst : FVec F S_ .f32 := constant S_ .f32 0x7FC00000#32
  have v15 : FVec F S1x1024x1024x128 .f32 := broadcastInDim S1x1024x1024x128 ![] bcast_S_S1x1024x1024x128 cst
  have v16 : FVec F S1x1024x1024x128 .f32 := select v14 v13 v15
  v16

/-- The reference program's result from its arguments: `a` the chain ids, `r` the residue indices, `e` the
    entity ids, `t` the token indices, `s` the symmetry-copy ids, `W` the weight matrix. -/
def refTerm (a r e t s : IVec S1x1024 32) (W : FVec F S139x128 .f32) : FVec F S1x1024x1024x128 .f32 :=
  have v0 : IVec S1x1024x1 32 := broadcastInDim S1x1024x1 ![0, 1] bcast_S1x1024_S1x1024x1_0_1 a
  have v1 : IVec S1x1x1024 32 := broadcastInDim S1x1x1024 ![0, 2] bcast_S1x1024_S1x1x1024_0_2 a
  have v2 : IVec S1x1024x1 32 := broadcastInDim S1x1024x1 ![0, 1] bcast_S1x1024_S1x1024x1_0_1 r
  have v3 : IVec S1x1x1024 32 := broadcastInDim S1x1x1024 ![0, 2] bcast_S1x1024_S1x1x1024_0_2 r
  have v4 : IVec S1x1024x1 32 := broadcastInDim S1x1024x1 ![0, 1] bcast_S1x1024_S1x1024x1_0_1 e
  have v5 : IVec S1x1x1024 32 := broadcastInDim S1x1x1024 ![0, 2] bcast_S1x1024_S1x1x1024_0_2 e
  have v6 : IVec S1x1024x1 32 := broadcastInDim S1x1024x1 ![0, 1] bcast_S1x1024_S1x1024x1_0_1 t
  have v7 : IVec S1x1x1024 32 := broadcastInDim S1x1x1024 ![0, 2] bcast_S1x1024_S1x1x1024_0_2 t
  have v8 : IVec S1x1024x1 32 := broadcastInDim S1x1024x1 ![0, 1] bcast_S1x1024_S1x1024x1_0_1 s
  have v9 : IVec S1x1x1024 32 := broadcastInDim S1x1x1024 ![0, 2] bcast_S1x1024_S1x1x1024_0_2 s
  have v10 : IVec S1x1024x1024 32 := broadcastInDim S1x1024x1024 ![0, 1, 2] bcast_S1x1x1024_S1x1024x1024_0_1_2 v1
  have v11 : IVec S1x1024x1024 32 := broadcastInDim S1x1024x1024 ![0, 1, 2] bcast_S1x1024x1_S1x1024x1024_0_1_2 v0
  have v12 : IVec S1x1024x1024 1 := cmpi .eq v10 v11
  have v13 : IVec S1x1024x1024 32 := broadcastInDim S1x1024x1024 ![0, 1, 2] bcast_S1x1x1024_S1x1024x1024_0_1_2 v3
  have v14 : IVec S1x1024x1024 32 := broadcastInDim S1x1024x1024 ![0, 1, 2] bcast_S1x1024x1_S1x1024x1024_0_1_2 v2
  have v15 : IVec S1x1024x1024 1 := cmpi .eq v13 v14
  have v16 : IVec S1x1024x1024 32 := broadcastInDim S1x1024x1024 ![0, 1, 2] bcast_S1x1x1024_S1x1024x1024_0_1_2 v5
  have v17 : IVec S1x1024x1024 32 := broadcastInDim S1x1024x1024 ![0, 1, 2] bcast_S1x1024x1_S1x1024x1024_0_1_2 v4
  have v18 : IVec S1x1024x1024 1 := cmpi .eq v16 v17
  have v19 : IVec S1x1024x1024 32 := broadcastInDim S1x1024x1024 ![0, 1, 2] bcast_S1x1x1024_S1x1024x1024_0_1_2 v3
  have v20 : IVec S1x1024x1024 32 := broadcastInDim S1x1024x1024 ![0, 1, 2] bcast_S1x1024x1_S1x1024x1024_0_1_2 v2
  have v21 : IVec S1x1024x1024 32 := subi v19 v20
  have c : IVec S_ 32 := constantI S_ 32 32#32
  have v22 : IVec S1x1024x1024 32 := broadcastInDim S1x1024x1024 ![] bcast_S_S1x1024x1024 c
  have v23 : IVec S1x1024x1024 32 := addi v21 v22
  have c_0 : IVec S_ 32 := constantI S_ 32 0#32
  have c_1 : IVec S_ 32 := constantI S_ 32 64#32
  have v24 : IVec S1x1024x1024 32 := clipT v23 c_0 c_1
  have c_2 : IVec S_ 32 := constantI S_ 32 65#32
  have v25 : IVec S1x1024x1024 32 := whereT v12 v24 c_2
  have v26 : IVec S1x1024x1024 1 := andi v12 v15
  have v27 : IVec S1x1024x1024 32 := broadcastInDim S1x1024x1024 ![0, 1, 2] bcast_S1x1x1024_S1x1024x1024_0_1_2 v7
  have v28 : IVec S1x1024x1024 32 := broadcastInDim S1x1024x1024 ![0, 1, 2] bcast_S1x1024x1_S1x1024x1024_0_1_2 v6
  have v29 : IVec S1x1024x1024 32 := subi v27 v28
  have c_3 : IVec S_ 32 := constantI S_ 32 32#32
  have v30 : IVec S1x1024x1024 32 := broadcastInDim S1x1024x1024 ![] bcast_S_S1x1024x1024 c_3
  have v31 : IVec S1x1024x1024 32 := addi v29 v30
  have c_4 : IVec S_ 32 := constantI S_ 32 0#32
  have c_5 : IVec S_ 32 := constantI S_ 32 64#32
  have v32 : IVec S1x1024x1024 32 := clipT v31 c_4 c_5
  have c_6 : IVec S_ 32 := constantI S_ 32 65#32
  have v33 : IVec S1x1024x1024 32 := whereT v26 v32 c_6
  have v34 : IVec S1x1024x1024 1 := noti v12
  have v35 : IVec S1x1024x1024 32 := broadcastInDim S1x1024x1024 ![0, 1, 2] bcast_S1x1x1024_S1x1024x1024_0_1_2 v9
  have v36 : IVec S1x1024x1024 32 := broadcastInDim S1x1024x1024 ![0, 1, 2] bcast_S1x1024x1_S1x1024x1024_0_1_2 v8
  have v37 : IVec S1x1024x1024 32 := subi v35 v36
  have c_7 : IVec S_ 32 := constantI S_ 32 2#32
  have v38 : IVec S1x1024x1024 32 := broadcastInDim S1x1024x1024 ![] bcast_S_S1x1024x1024 c_7
  have v39 : IVec S1x1024x1024 32 := addi v37 v38
  have c_8 : IVec S_ 32 := constantI S_ 32 0#32
  have c_9 : IVec S_ 32 := constantI S_ 32 4#32
  have v40 : IVec S1x1024x1024 32 := clipT v39 c_8 c_9
  have c_10 : IVec S_ 32 := constantI S_ 32 5#32
  have v41 : IVec S1x1024x1024 32 := whereT v34 v40 c_10
  have v42 : FVec F S1x1024x1024x128 .f32 := takeT W v25
  have c_11 : IVec S_ 32 := constantI S_ 32 66#32
  have v43 : IVec S1x1024x1024 32 := broadcastInDim S1x1024x1024 ![] bcast_S_S1x1024x1024 c_11
  have v44 : IVec S1x1024x1024 32 := addi v43 v33
  have v45 : FVec F S1x1024x1024x128 .f32 := takeT W v44
  have v46 : FVec F S1x1024x1024x128 .f32 := addf v42 v45
  have v47 : FVec F S1x1024x1024 .f32 := uitofp .f32 v18
  have v48 : FVec F S1x1024x1024x1 .f32 := broadcastInDim S1x1024x1024x1 ![0, 1, 2] bcast_S1x1024x1024_S1x1024x1024x1_0_1_2 v47
  have v49 : FVec F S1x128 .f32 := extractStridedSlice S1x128 ![132, 0] W slices_S139x128_S1x128_132_0
  have v50 : FVec F S128 .f32 := shapeCast S128 v49 shapeCasts_S1x128_S128
  have v51 : FVec F S1x1x1x128 .f32 := broadcastInDim S1x1x1x128 ![3] bcast_S128_S1x1x1x128_3 v50
  have v52 : FVec F S1x1024x1024x128 .f32 := broadcastInDim S1x1024x1024x128 ![0, 1, 2, 3] bcast_S1x1024x1024x1_S1x1024x1024x128_0_1_2_3 v48
  have v53 : FVec F S1x1024x1024x128 .f32 := broadcastInDim S1x1024x1024x128 ![0, 1, 2, 3] bcast_S1x1x1x128_S1x1024x1024x128_0_1_2_3 v51
  have v54 : FVec F S1x1024x1024x128 .f32 := mulf v52 v53
  have v55 : FVec F S1x1024x1024x128 .f32 := addf v46 v54
  have c_12 : IVec S_ 32 := constantI S_ 32 133#32
  have v56 : IVec S1x1024x1024 32 := broadcastInDim S1x1024x1024 ![] bcast_S_S1x1024x1024 c_12
  have v57 : IVec S1x1024x1024 32 := addi v56 v41
  have v58 : FVec F S1x1024x1024x128 .f32 := takeT W v57
  have v59 : FVec F S1x1024x1024x128 .f32 := addf v55 v58
  v59

end Cert.ReferenceIdeal.Hand

end
-- ==== Proof.RRun.lean ====
/-
  The reference program's run, read back: the program is a straight line of array operations (the three
  outlined helper functions unfolded at their nine call sites, the nested select inside the row lookup
  unfolded with it), so every weakly fair execution terminates, nothing faults, each buffer ends at the
  fold of the operations' results over the launch contents, and the result buffer's fold is the composed
  pure term of the six argument arrays while the argument buffers, which no operation writes, keep theirs.
-/
import proofs.«412935_j89404039233854_3_alg».proof.Proof.Gen.ReferenceIdeal
import proofs.«412935_j89404039233854_3_alg».proof.Proof.RTerm
import Idealize.ShloMosaic.Lib.StableHlo.Run

set_option maxRecDepth 16384

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F]

namespace RRun

attribute [local irreducible] Host.reduce Host.gather

/-- The first sixty statements of the program as its 125 operations, in order: each helper call replaced by the operations of its body over that call's own buffers. -/
abbrev ops0 : List (HloOp τ sig (Elt F)) :=
  [ StableHlo.unary main_arg0 main_v0 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_arg0 main_v1 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg1 main_v2 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_arg1 main_v3 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg2 main_v4 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_arg2 main_v5 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg3 main_v6 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_arg3 main_v7 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_arg4 main_v8 (broadcastInDim S1x1024x1 ![0, 1] bcast_S1x1024_S1x1024x1_0_1 : (⟨S1x1024, .i32⟩ : BufTy).Contents (Elt F) → (⟨S1x1024x1, .i32⟩ : BufTy).Contents (Elt F)),
    StableHlo.unary main_arg4 main_v9 (broadcastInDim S1x1x1024 ![0, 2] bcast_S1x1024_S1x1x1024_0_2 : (⟨S1x1024, .i32⟩ : BufTy).Contents (Elt F) → (⟨S1x1x1024, .i32⟩ : BufTy).Contents (Elt F)),
    StableHlo.unary main_v1 main_v10 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v0 main_v11 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v10 main_v11 main_v12 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_v3 main_v13 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v2 main_v14 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v13 main_v14 main_v15 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_v5 main_v16 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v4 main_v17 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v16 main_v17 main_v18 (cmpi .eq : (⟨S1x1024x1024, .i32⟩ : BufTy).Contents (Elt F) → (⟨S1x1024x1024, .i32⟩ : BufTy).Contents (Elt F) → (⟨S1x1024x1024, .i1⟩ : BufTy).Contents (Elt F)),
    StableHlo.unary main_v3 main_v19 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v2 main_v20 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v19 main_v20 main_v21 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c (constantI S_ 32 32#32),
    StableHlo.unary main_c main_v22 (broadcastInDim S1x1024x1024 ![] bcast_S_S1x1024x1024 : (⟨S_, .i32⟩ : BufTy).Contents (Elt F) → (⟨S1x1024x1024, .i32⟩ : BufTy).Contents (Elt F)),
    StableHlo.binary main_v21 main_v22 main_v23 (addi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_0 (constantI S_ 32 0#32),
    StableHlo.nullary main_c_1 (constantI S_ 32 64#32),
    StableHlo.unary main_c_0 main_call0_v0 (id : (⟨S_, .i32⟩ : BufTy).Contents (Elt F) → (⟨S_, .i32⟩ : BufTy).Contents (Elt F)),
    StableHlo.unary main_call0_v0 main_call0_v1 (broadcastInDim S1x1024x1024 ![] bcast_S_S1x1024x1024 : (⟨S_, .i32⟩ : BufTy).Contents (Elt F) → (⟨S1x1024x1024, .i32⟩ : BufTy).Contents (Elt F)),
    StableHlo.binary main_call0_v1 main_v23 main_call0_v2 (maxsi : (⟨S1x1024x1024, .i32⟩ : BufTy).Contents (Elt F) → (⟨S1x1024x1024, .i32⟩ : BufTy).Contents (Elt F) → (⟨S1x1024x1024, .i32⟩ : BufTy).Contents (Elt F)),
    StableHlo.unary main_c_1 main_call0_v3 (id : (⟨S_, .i32⟩ : BufTy).Contents (Elt F) → (⟨S_, .i32⟩ : BufTy).Contents (Elt F)),
    StableHlo.unary main_call0_v3 main_call0_v4 (broadcastInDim S1x1024x1024 ![] bcast_S_S1x1024x1024 : (⟨S_, .i32⟩ : BufTy).Contents (Elt F) → (⟨S1x1024x1024, .i32⟩ : BufTy).Contents (Elt F)),
    StableHlo.binary main_call0_v4 main_call0_v2 main_v24 (minsi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_2 (constantI S_ 32 65#32),
    StableHlo.unary main_c_2 main_call1_v0 (id : (⟨S_, .i32⟩ : BufTy).Contents (Elt F) → (⟨S_, .i32⟩ : BufTy).Contents (Elt F)),
    StableHlo.unary main_call1_v0 main_call1_v1 (broadcastInDim S1x1024x1024 ![] bcast_S_S1x1024x1024 : (⟨S_, .i32⟩ : BufTy).Contents (Elt F) → (⟨S1x1024x1024, .i32⟩ : BufTy).Contents (Elt F)),
    StableHlo.ternary main_v12 main_v24 main_call1_v1 main_v25 (select : (⟨S1x1024x1024, .i1⟩ : BufTy).Contents (Elt F) → (⟨S1x1024x1024, .i32⟩ : BufTy).Contents (Elt F) → (⟨S1x1024x1024, .i32⟩ : BufTy).Contents (Elt F) → (⟨S1x1024x1024, .i32⟩ : BufTy).Contents (Elt F)),
    StableHlo.binary main_v12 main_v15 main_v26 (andi : (⟨S1x1024x1024, .i1⟩ : BufTy).Contents (Elt F) → (⟨S1x1024x1024, .i1⟩ : BufTy).Contents (Elt F) → (⟨S1x1024x1024, .i1⟩ : BufTy).Contents (Elt F)),
    StableHlo.unary main_v7 main_v27 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v6 main_v28 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v27 main_v28 main_v29 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_3 (constantI S_ 32 32#32),
    StableHlo.unary main_c_3 main_v30 (broadcastInDim S1x1024x1024 ![] bcast_S_S1x1024x1024 : (⟨S_, .i32⟩ : BufTy).Contents (Elt F) → (⟨S1x1024x1024, .i32⟩ : BufTy).Contents (Elt F)),
    StableHlo.binary main_v29 main_v30 main_v31 (addi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_4 (constantI S_ 32 0#32),
    StableHlo.nullary main_c_5 (constantI S_ 32 64#32),
    StableHlo.unary main_c_4 main_call2_v0 (id : (⟨S_, .i32⟩ : BufTy).Contents (Elt F) → (⟨S_, .i32⟩ : BufTy).Contents (Elt F)),
    StableHlo.unary main_call2_v0 main_call2_v1 (broadcastInDim S1x1024x1024 ![] bcast_S_S1x1024x1024 : (⟨S_, .i32⟩ : BufTy).Contents (Elt F) → (⟨S1x1024x1024, .i32⟩ : BufTy).Contents (Elt F)),
    StableHlo.binary main_call2_v1 main_v31 main_call2_v2 (maxsi : (⟨S1x1024x1024, .i32⟩ : BufTy).Contents (Elt F) → (⟨S1x1024x1024, .i32⟩ : BufTy).Contents (Elt F) → (⟨S1x1024x1024, .i32⟩ : BufTy).Contents (Elt F)),
    StableHlo.unary main_c_5 main_call2_v3 (id : (⟨S_, .i32⟩ : BufTy).Contents (Elt F) → (⟨S_, .i32⟩ : BufTy).Contents (Elt F)),
    StableHlo.unary main_call2_v3 main_call2_v4 (broadcastInDim S1x1024x1024 ![] bcast_S_S1x1024x1024 : (⟨S_, .i32⟩ : BufTy).Contents (Elt F) → (⟨S1x1024x1024, .i32⟩ : BufTy).Contents (Elt F)),
    StableHlo.binary main_call2_v4 main_call2_v2 main_v32 (minsi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_6 (constantI S_ 32 65#32),
    StableHlo.unary main_c_6 main_call3_v0 (id : (⟨S_, .i32⟩ : BufTy).Contents (Elt F) → (⟨S_, .i32⟩ : BufTy).Contents (Elt F)),
    StableHlo.unary main_call3_v0 main_call3_v1 (broadcastInDim S1x1024x1024 ![] bcast_S_S1x1024x1024 : (⟨S_, .i32⟩ : BufTy).Contents (Elt F) → (⟨S1x1024x1024, .i32⟩ : BufTy).Contents (Elt F)),
    StableHlo.ternary main_v26 main_v32 main_call3_v1 main_v33 (select : (⟨S1x1024x1024, .i1⟩ : BufTy).Contents (Elt F) → (⟨S1x1024x1024, .i32⟩ : BufTy).Contents (Elt F) → (⟨S1x1024x1024, .i32⟩ : BufTy).Contents (Elt F) → (⟨S1x1024x1024, .i32⟩ : BufTy).Contents (Elt F)),
    StableHlo.unary main_v12 main_v34 (noti : (⟨S1x1024x1024, .i1⟩ : BufTy).Contents (Elt F) → (⟨S1x1024x1024, .i1⟩ : BufTy).Contents (Elt F)),
    StableHlo.unary main_v9 main_v35 (broadcastInDim S1x1024x1024 ![0, 1, 2] bcast_S1x1x1024_S1x1024x1024_0_1_2 : (⟨S1x1x1024, .i32⟩ : BufTy).Contents (Elt F) → (⟨S1x1024x1024, .i32⟩ : BufTy).Contents (Elt F)),
    StableHlo.unary main_v8 main_v36 (broadcastInDim S1x1024x1024 ![0, 1, 2] bcast_S1x1024x1_S1x1024x1024_0_1_2 : (⟨S1x1024x1, .i32⟩ : BufTy).Contents (Elt F) → (⟨S1x1024x1024, .i32⟩ : BufTy).Contents (Elt F)),
    StableHlo.binary main_v35 main_v36 main_v37 (subi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_7 (constantI S_ 32 2#32),
    StableHlo.unary main_c_7 main_v38 (broadcastInDim S1x1024x1024 ![] bcast_S_S1x1024x1024 : (⟨S_, .i32⟩ : BufTy).Contents (Elt F) → (⟨S1x1024x1024, .i32⟩ : BufTy).Contents (Elt F)),
    StableHlo.binary main_v37 main_v38 main_v39 (addi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_8 (constantI S_ 32 0#32),
    StableHlo.nullary main_c_9 (constantI S_ 32 4#32),
    StableHlo.unary main_c_8 main_call4_v0 (id : (⟨S_, .i32⟩ : BufTy).Contents (Elt F) → (⟨S_, .i32⟩ : BufTy).Contents (Elt F)),
    StableHlo.unary main_call4_v0 main_call4_v1 (broadcastInDim S1x1024x1024 ![] bcast_S_S1x1024x1024 : (⟨S_, .i32⟩ : BufTy).Contents (Elt F) → (⟨S1x1024x1024, .i32⟩ : BufTy).Contents (Elt F)),
    StableHlo.binary main_call4_v1 main_v39 main_call4_v2 (maxsi : (⟨S1x1024x1024, .i32⟩ : BufTy).Contents (Elt F) → (⟨S1x1024x1024, .i32⟩ : BufTy).Contents (Elt F) → (⟨S1x1024x1024, .i32⟩ : BufTy).Contents (Elt F)),
    StableHlo.unary main_c_9 main_call4_v3 (id : (⟨S_, .i32⟩ : BufTy).Contents (Elt F) → (⟨S_, .i32⟩ : BufTy).Contents (Elt F)),
    StableHlo.unary main_call4_v3 main_call4_v4 (broadcastInDim S1x1024x1024 ![] bcast_S_S1x1024x1024 : (⟨S_, .i32⟩ : BufTy).Contents (Elt F) → (⟨S1x1024x1024, .i32⟩ : BufTy).Contents (Elt F)),
    StableHlo.binary main_call4_v4 main_call4_v2 main_v40 (minsi : (⟨S1x1024x1024, .i32⟩ : BufTy).Contents (Elt F) → (⟨S1x1024x1024, .i32⟩ : BufTy).Contents (Elt F) → (⟨S1x1024x1024, .i32⟩ : BufTy).Contents (Elt F)),
    StableHlo.nullary main_c_10 (constantI S_ 32 5#32),
    StableHlo.unary main_c_10 main_call5_v0 (id : (⟨S_, .i32⟩ : BufTy).Contents (Elt F) → (⟨S_, .i32⟩ : BufTy).Contents (Elt F)),
    StableHlo.unary main_call5_v0 main_call5_v1 (broadcastInDim S1x1024x1024 ![] bcast_S_S1x1024x1024 : (⟨S_, .i32⟩ : BufTy).Contents (Elt F) → (⟨S1x1024x1024, .i32⟩ : BufTy).Contents (Elt F)),
    StableHlo.ternary main_v34 main_v40 main_call5_v1 main_v41 (select : (⟨S1x1024x1024, .i1⟩ : BufTy).Contents (Elt F) → (⟨S1x1024x1024, .i32⟩ : BufTy).Contents (Elt F) → (⟨S1x1024x1024, .i32⟩ : BufTy).Contents (Elt F) → (⟨S1x1024x1024, .i32⟩ : BufTy).Contents (Elt F)),
    StableHlo.nullary main_call6_c (constantI S_ 32 0#32),
    StableHlo.unary main_call6_c main_call6_v0 (broadcastInDim S1x1024x1024 ![] bcast_S_S1x1024x1024 : (⟨S_, .i32⟩ : BufTy).Contents (Elt F) → (⟨S1x1024x1024, .i32⟩ : BufTy).Contents (Elt F)),
    StableHlo.binary main_v25 main_call6_v0 main_call6_v1 (cmpi .slt : (⟨S1x1024x1024, .i32⟩ : BufTy).Contents (Elt F) → (⟨S1x1024x1024, .i32⟩ : BufTy).Contents (Elt F) → (⟨S1x1024x1024, .i1⟩ : BufTy).Contents (Elt F)),
    StableHlo.nullary main_call6_c_0 (constantI S_ 32 139#32),
    StableHlo.unary main_call6_c_0 main_call6_v2 (broadcastInDim S1x1024x1024 ![] bcast_S_S1x1024x1024 : (⟨S_, .i32⟩ : BufTy).Contents (Elt F) → (⟨S1x1024x1024, .i32⟩ : BufTy).Contents (Elt F)),
    StableHlo.binary main_v25 main_call6_v2 main_call6_v3 (addi : (⟨S1x1024x1024, .i32⟩ : BufTy).Contents (Elt F) → (⟨S1x1024x1024, .i32⟩ : BufTy).Contents (Elt F) → (⟨S1x1024x1024, .i32⟩ : BufTy).Contents (Elt F)),
    StableHlo.ternary main_call6_v1 main_call6_v3 main_v25 main_call6_v4 (select : (⟨S1x1024x1024, .i1⟩ : BufTy).Contents (Elt F) → (⟨S1x1024x1024, .i32⟩ : BufTy).Contents (Elt F) → (⟨S1x1024x1024, .i32⟩ : BufTy).Contents (Elt F) → (⟨S1x1024x1024, .i32⟩ : BufTy).Contents (Elt F)),
    StableHlo.unary main_call6_v4 main_call6_v5 (broadcastInDim S1x1024x1024x1 ![0, 1, 2] bcast_S1x1024x1024_S1x1024x1024x1_0_1_2 : (⟨S1x1024x1024, .i32⟩ : BufTy).Contents (Elt F) → (⟨S1x1024x1024x1, .i32⟩ : BufTy).Contents (Elt F)),
    StableHlo.nullary main_call6_c_1 (constantI S1 32 138#32),
    StableHlo.nullary main_call6_c_2 (constantI S_ 32 0#32),
    StableHlo.unary main_call6_c_2 main_call6_v6 (broadcastInDim S1x1024x1024x1 ![] bcast_S_S1x1024x1024x1 : (⟨S_, .i32⟩ : BufTy).Contents (Elt F) → (⟨S1x1024x1024x1, .i32⟩ : BufTy).Contents (Elt F)),
    StableHlo.binary main_call6_v5 main_call6_v6 main_call6_v7 (cmpi .sge : (⟨S1x1024x1024x1, .i32⟩ : BufTy).Contents (Elt F) → (⟨S1x1024x1024x1, .i32⟩ : BufTy).Contents (Elt F) → (⟨S1x1024x1024x1, .i1⟩ : BufTy).Contents (Elt F)),
    StableHlo.unary main_call6_c_1 main_call6_v8 (broadcastInDim S1x1x1x1 ![3] bcast_S1_S1x1x1x1_3 : (⟨S1, .i32⟩ : BufTy).Contents (Elt F) → (⟨S1x1x1x1, .i32⟩ : BufTy).Contents (Elt F)),
    StableHlo.unary main_call6_v8 main_call6_v9 (broadcastInDim S1x1024x1024x1 ![0, 1, 2, 3] bcast_S1x1x1x1_S1x1024x1024x1_0_1_2_3 : (⟨S1x1x1x1, .i32⟩ : BufTy).Contents (Elt F) → (⟨S1x1024x1024x1, .i32⟩ : BufTy).Contents (Elt F)),
    StableHlo.binary main_call6_v5 main_call6_v9 main_call6_v10 (cmpi .sle : (⟨S1x1024x1024x1, .i32⟩ : BufTy).Contents (Elt F) → (⟨S1x1024x1024x1, .i32⟩ : BufTy).Contents (Elt F) → (⟨S1x1024x1024x1, .i1⟩ : BufTy).Contents (Elt F)),
    StableHlo.binary main_call6_v7 main_call6_v10 main_call6_v11 (andi : (⟨S1x1024x1024x1, .i1⟩ : BufTy).Contents (Elt F) → (⟨S1x1024x1024x1, .i1⟩ : BufTy).Contents (Elt F) → (⟨S1x1024x1024x1, .i1⟩ : BufTy).Contents (Elt F)),
    StableHlo.nullary main_call6_c_3 (constantI S_ 1 1#1),
    StableHlo.binary main_call6_v11 main_call6_c_3 main_call6_v12 (fun x v => Host.reduce IntOp.andi x v reducesTo_S1x1024x1024x1_S1x1024x1024_d3 h_S_ : (⟨S1x1024x1024x1, .i1⟩ : BufTy).Contents (Elt F) → (⟨S_, .i1⟩ : BufTy).Contents (Elt F) → (⟨S1x1024x1024, .i1⟩ : BufTy).Contents (Elt F)),
    StableHlo.binary main_arg5 main_call6_v5 main_call6_v13 (fun x i => Host.gather gather_S139x128_S1x1024x1024x1_S1x1024x1024x128_3_0_n_n_0_3_1128 x i : (⟨S139x128, .f32⟩ : BufTy).Contents (Elt F) → (⟨S1x1024x1024x1, .i32⟩ : BufTy).Contents (Elt F) → (⟨S1x1024x1024x128, .f32⟩ : BufTy).Contents (Elt F)),
    StableHlo.unary main_call6_v12 main_call6_v14 (broadcastInDim S1x1024x1024x128 ![0, 1, 2] bcast_S1x1024x1024_S1x1024x1024x128_0_1_2 : (⟨S1x1024x1024, .i1⟩ : BufTy).Contents (Elt F) → (⟨S1x1024x1024x128, .i1⟩ : BufTy).Contents (Elt F)),
    StableHlo.nullary main_call6_cst (constant S_ .f32 0x7FC00000#32),
    StableHlo.unary main_call6_cst main_call6_v15 (broadcastInDim S1x1024x1024x128 ![] bcast_S_S1x1024x1024x128 : (⟨S_, .f32⟩ : BufTy).Contents (Elt F) → (⟨S1x1024x1024x128, .f32⟩ : BufTy).Contents (Elt F)),
    StableHlo.ternary main_call6_v14 main_call6_v13 main_call6_v15 main_v42 (select : (⟨S1x1024x1024x128, .i1⟩ : BufTy).Contents (Elt F) → (⟨S1x1024x1024x128, .f32⟩ : BufTy).Contents (Elt F) → (⟨S1x1024x1024x128, .f32⟩ : BufTy).Contents (Elt F) → (⟨S1x1024x1024x128, .f32⟩ : BufTy).Contents (Elt F)),
    StableHlo.nullary main_c_11 (constantI S_ 32 66#32),
    StableHlo.unary main_c_11 main_v43 (broadcastInDim S1x1024x1024 ![] bcast_S_S1x1024x1024 : (⟨S_, .i32⟩ : BufTy).Contents (Elt F) → (⟨S1x1024x1024, .i32⟩ : BufTy).Contents (Elt F)),
    StableHlo.binary main_v43 main_v33 main_v44 (addi : (⟨S1x1024x1024, .i32⟩ : BufTy).Contents (Elt F) → (⟨S1x1024x1024, .i32⟩ : BufTy).Contents (Elt F) → (⟨S1x1024x1024, .i32⟩ : BufTy).Contents (Elt F)),
    StableHlo.nullary main_call7_c (constantI S_ 32 0#32),
    StableHlo.unary main_call7_c main_call7_v0 (broadcastInDim S1x1024x1024 ![] bcast_S_S1x1024x1024 : (⟨S_, .i32⟩ : BufTy).Contents (Elt F) → (⟨S1x1024x1024, .i32⟩ : BufTy).Contents (Elt F)),
    StableHlo.binary main_v44 main_call7_v0 main_call7_v1 (cmpi .slt : (⟨S1x1024x1024, .i32⟩ : BufTy).Contents (Elt F) → (⟨S1x1024x1024, .i32⟩ : BufTy).Contents (Elt F) → (⟨S1x1024x1024, .i1⟩ : BufTy).Contents (Elt F)),
    StableHlo.nullary main_call7_c_0 (constantI S_ 32 139#32),
    StableHlo.unary main_call7_c_0 main_call7_v2 (broadcastInDim S1x1024x1024 ![] bcast_S_S1x1024x1024 : (⟨S_, .i32⟩ : BufTy).Contents (Elt F) → (⟨S1x1024x1024, .i32⟩ : BufTy).Contents (Elt F)),
    StableHlo.binary main_v44 main_call7_v2 main_call7_v3 (addi : (⟨S1x1024x1024, .i32⟩ : BufTy).Contents (Elt F) → (⟨S1x1024x1024, .i32⟩ : BufTy).Contents (Elt F) → (⟨S1x1024x1024, .i32⟩ : BufTy).Contents (Elt F)),
    StableHlo.ternary main_call7_v1 main_call7_v3 main_v44 main_call7_v4 (select : (⟨S1x1024x1024, .i1⟩ : BufTy).Contents (Elt F) → (⟨S1x1024x1024, .i32⟩ : BufTy).Contents (Elt F) → (⟨S1x1024x1024, .i32⟩ : BufTy).Contents (Elt F) → (⟨S1x1024x1024, .i32⟩ : BufTy).Contents (Elt F)),
    StableHlo.unary main_call7_v4 main_call7_v5 (broadcastInDim S1x1024x1024x1 ![0, 1, 2] bcast_S1x1024x1024_S1x1024x1024x1_0_1_2 : (⟨S1x1024x1024, .i32⟩ : BufTy).Contents (Elt F) → (⟨S1x1024x1024x1, .i32⟩ : BufTy).Contents (Elt F)),
    StableHlo.nullary main_call7_c_1 (constantI S1 32 138#32),
    StableHlo.nullary main_call7_c_2 (constantI S_ 32 0#32),
    StableHlo.unary main_call7_c_2 main_call7_v6 (broadcastInDim S1x1024x1024x1 ![] bcast_S_S1x1024x1024x1 : (⟨S_, .i32⟩ : BufTy).Contents (Elt F) → (⟨S1x1024x1024x1, .i32⟩ : BufTy).Contents (Elt F)),
    StableHlo.binary main_call7_v5 main_call7_v6 main_call7_v7 (cmpi .sge : (⟨S1x1024x1024x1, .i32⟩ : BufTy).Contents (Elt F) → (⟨S1x1024x1024x1, .i32⟩ : BufTy).Contents (Elt F) → (⟨S1x1024x1024x1, .i1⟩ : BufTy).Contents (Elt F)),
    StableHlo.unary main_call7_c_1 main_call7_v8 (broadcastInDim S1x1x1x1 ![3] bcast_S1_S1x1x1x1_3 : (⟨S1, .i32⟩ : BufTy).Contents (Elt F) → (⟨S1x1x1x1, .i32⟩ : BufTy).Contents (Elt F)),
    StableHlo.unary main_call7_v8 main_call7_v9 (broadcastInDim S1x1024x1024x1 ![0, 1, 2, 3] bcast_S1x1x1x1_S1x1024x1024x1_0_1_2_3 : (⟨S1x1x1x1, .i32⟩ : BufTy).Contents (Elt F) → (⟨S1x1024x1024x1, .i32⟩ : BufTy).Contents (Elt F)),
    StableHlo.binary main_call7_v5 main_call7_v9 main_call7_v10 (cmpi .sle : (⟨S1x1024x1024x1, .i32⟩ : BufTy).Contents (Elt F) → (⟨S1x1024x1024x1, .i32⟩ : BufTy).Contents (Elt F) → (⟨S1x1024x1024x1, .i1⟩ : BufTy).Contents (Elt F)),
    StableHlo.binary main_call7_v7 main_call7_v10 main_call7_v11 (andi : (⟨S1x1024x1024x1, .i1⟩ : BufTy).Contents (Elt F) → (⟨S1x1024x1024x1, .i1⟩ : BufTy).Contents (Elt F) → (⟨S1x1024x1024x1, .i1⟩ : BufTy).Contents (Elt F)),
    StableHlo.nullary main_call7_c_3 (constantI S_ 1 1#1),
    StableHlo.binary main_call7_v11 main_call7_c_3 main_call7_v12 (fun x v => Host.reduce IntOp.andi x v reducesTo_S1x1024x1024x1_S1x1024x1024_d3 h_S_ : (⟨S1x1024x1024x1, .i1⟩ : BufTy).Contents (Elt F) → (⟨S_, .i1⟩ : BufTy).Contents (Elt F) → (⟨S1x1024x1024, .i1⟩ : BufTy).Contents (Elt F)),
    StableHlo.binary main_arg5 main_call7_v5 main_call7_v13 (fun x i => Host.gather gather_S139x128_S1x1024x1024x1_S1x1024x1024x128_3_0_n_n_0_3_1128 x i : (⟨S139x128, .f32⟩ : BufTy).Contents (Elt F) → (⟨S1x1024x1024x1, .i32⟩ : BufTy).Contents (Elt F) → (⟨S1x1024x1024x128, .f32⟩ : BufTy).Contents (Elt F)),
    StableHlo.unary main_call7_v12 main_call7_v14 (broadcastInDim S1x1024x1024x128 ![0, 1, 2] bcast_S1x1024x1024_S1x1024x1024x128_0_1_2 : (⟨S1x1024x1024, .i1⟩ : BufTy).Contents (Elt F) → (⟨S1x1024x1024x128, .i1⟩ : BufTy).Contents (Elt F)),
    StableHlo.nullary main_call7_cst (constant S_ .f32 0x7FC00000#32),
    StableHlo.unary main_call7_cst main_call7_v15 (broadcastInDim S1x1024x1024x128 ![] bcast_S_S1x1024x1024x128 : (⟨S_, .f32⟩ : BufTy).Contents (Elt F) → (⟨S1x1024x1024x128, .f32⟩ : BufTy).Contents (Elt F)),
    StableHlo.ternary main_call7_v14 main_call7_v13 main_call7_v15 main_v45 (select : (⟨S1x1024x1024x128, .i1⟩ : BufTy).Contents (Elt F) → (⟨S1x1024x1024x128, .f32⟩ : BufTy).Contents (Elt F) → (⟨S1x1024x1024x128, .f32⟩ : BufTy).Contents (Elt F) → (⟨S1x1024x1024x128, .f32⟩ : BufTy).Contents (Elt F)),
    StableHlo.binary main_v42 main_v45 main_v46 (addf : (⟨S1x1024x1024x128, .f32⟩ : BufTy).Contents (Elt F) → (⟨S1x1024x1024x128, .f32⟩ : BufTy).Contents (Elt F) → (⟨S1x1024x1024x128, .f32⟩ : BufTy).Contents (Elt F)) ]

set_option maxRecDepth 100000 in
theorem main_part0_eq (c : Dev nD) : main_part0 (F := F) c = seq ops0 := rfl

theorem ops0_sub : (ops0 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

/-- The entity-equality mask the second window reads: the program's operations up to it, in program order. -/
def part18 (a r e t s : IVec S1x1024 32) (W : FVec F S139x128 .f32) : IVec S1x1024x1024 1 :=
  have v0 : IVec S1x1024x1 32 := broadcastInDim S1x1024x1 ![0, 1] bcast_S1x1024_S1x1024x1_0_1 a
  have v1 : IVec S1x1x1024 32 := broadcastInDim S1x1x1024 ![0, 2] bcast_S1x1024_S1x1x1024_0_2 a
  have v2 : IVec S1x1024x1 32 := broadcastInDim S1x1024x1 ![0, 1] bcast_S1x1024_S1x1024x1_0_1 r
  have v3 : IVec S1x1x1024 32 := broadcastInDim S1x1x1024 ![0, 2] bcast_S1x1024_S1x1x1024_0_2 r
  have v4 : IVec S1x1024x1 32 := broadcastInDim S1x1024x1 ![0, 1] bcast_S1x1024_S1x1024x1_0_1 e
  have v5 : IVec S1x1x1024 32 := broadcastInDim S1x1x1024 ![0, 2] bcast_S1x1024_S1x1x1024_0_2 e
  have v6 : IVec S1x1024x1 32 := broadcastInDim S1x1024x1 ![0, 1] bcast_S1x1024_S1x1024x1_0_1 t
  have v7 : IVec S1x1x1024 32 := broadcastInDim S1x1x1024 ![0, 2] bcast_S1x1024_S1x1x1024_0_2 t
  have v8 : IVec S1x1024x1 32 := broadcastInDim S1x1024x1 ![0, 1] bcast_S1x1024_S1x1024x1_0_1 s
  have v9 : IVec S1x1x1024 32 := broadcastInDim S1x1x1024 ![0, 2] bcast_S1x1024_S1x1x1024_0_2 s
  have v10 : IVec S1x1024x1024 32 := broadcastInDim S1x1024x1024 ![0, 1, 2] bcast_S1x1x1024_S1x1024x1024_0_1_2 v1
  have v11 : IVec S1x1024x1024 32 := broadcastInDim S1x1024x1024 ![0, 1, 2] bcast_S1x1024x1_S1x1024x1024_0_1_2 v0
  have v12 : IVec S1x1024x1024 1 := cmpi .eq v10 v11
  have v13 : IVec S1x1024x1024 32 := broadcastInDim S1x1024x1024 ![0, 1, 2] bcast_S1x1x1024_S1x1024x1024_0_1_2 v3
  have v14 : IVec S1x1024x1024 32 := broadcastInDim S1x1024x1024 ![0, 1, 2] bcast_S1x1024x1_S1x1024x1024_0_1_2 v2
  have v15 : IVec S1x1024x1024 1 := cmpi .eq v13 v14
  have v16 : IVec S1x1024x1024 32 := broadcastInDim S1x1024x1024 ![0, 1, 2] bcast_S1x1x1024_S1x1024x1024_0_1_2 v5
  have v17 : IVec S1x1024x1024 32 := broadcastInDim S1x1024x1024 ![0, 1, 2] bcast_S1x1024x1_S1x1024x1024_0_1_2 v4
  have v18 : IVec S1x1024x1024 1 := cmpi .eq v16 v17
  v18

/-- The clamped, masked chain offset the second window reads: the program's operations up to it, in program order. -/
def part41 (a r e t s : IVec S1x1024 32) (W : FVec F S139x128 .f32) : IVec S1x1024x1024 32 :=
  have v0 : IVec S1x1024x1 32 := broadcastInDim S1x1024x1 ![0, 1] bcast_S1x1024_S1x1024x1_0_1 a
  have v1 : IVec S1x1x1024 32 := broadcastInDim S1x1x1024 ![0, 2] bcast_S1x1024_S1x1x1024_0_2 a
  have v2 : IVec S1x1024x1 32 := broadcastInDim S1x1024x1 ![0, 1] bcast_S1x1024_S1x1024x1_0_1 r
  have v3 : IVec S1x1x1024 32 := broadcastInDim S1x1x1024 ![0, 2] bcast_S1x1024_S1x1x1024_0_2 r
  have v4 : IVec S1x1024x1 32 := broadcastInDim S1x1024x1 ![0, 1] bcast_S1x1024_S1x1024x1_0_1 e
  have v5 : IVec S1x1x1024 32 := broadcastInDim S1x1x1024 ![0, 2] bcast_S1x1024_S1x1x1024_0_2 e
  have v6 : IVec S1x1024x1 32 := broadcastInDim S1x1024x1 ![0, 1] bcast_S1x1024_S1x1024x1_0_1 t
  have v7 : IVec S1x1x1024 32 := broadcastInDim S1x1x1024 ![0, 2] bcast_S1x1024_S1x1x1024_0_2 t
  have v8 : IVec S1x1024x1 32 := broadcastInDim S1x1024x1 ![0, 1] bcast_S1x1024_S1x1024x1_0_1 s
  have v9 : IVec S1x1x1024 32 := broadcastInDim S1x1x1024 ![0, 2] bcast_S1x1024_S1x1x1024_0_2 s
  have v10 : IVec S1x1024x1024 32 := broadcastInDim S1x1024x1024 ![0, 1, 2] bcast_S1x1x1024_S1x1024x1024_0_1_2 v1
  have v11 : IVec S1x1024x1024 32 := broadcastInDim S1x1024x1024 ![0, 1, 2] bcast_S1x1024x1_S1x1024x1024_0_1_2 v0
  have v12 : IVec S1x1024x1024 1 := cmpi .eq v10 v11
  have v13 : IVec S1x1024x1024 32 := broadcastInDim S1x1024x1024 ![0, 1, 2] bcast_S1x1x1024_S1x1024x1024_0_1_2 v3
  have v14 : IVec S1x1024x1024 32 := broadcastInDim S1x1024x1024 ![0, 1, 2] bcast_S1x1024x1_S1x1024x1024_0_1_2 v2
  have v15 : IVec S1x1024x1024 1 := cmpi .eq v13 v14
  have v16 : IVec S1x1024x1024 32 := broadcastInDim S1x1024x1024 ![0, 1, 2] bcast_S1x1x1024_S1x1024x1024_0_1_2 v5
  have v17 : IVec S1x1024x1024 32 := broadcastInDim S1x1024x1024 ![0, 1, 2] bcast_S1x1024x1_S1x1024x1024_0_1_2 v4
  have v18 : IVec S1x1024x1024 1 := cmpi .eq v16 v17
  have v19 : IVec S1x1024x1024 32 := broadcastInDim S1x1024x1024 ![0, 1, 2] bcast_S1x1x1024_S1x1024x1024_0_1_2 v3
  have v20 : IVec S1x1024x1024 32 := broadcastInDim S1x1024x1024 ![0, 1, 2] bcast_S1x1024x1_S1x1024x1024_0_1_2 v2
  have v21 : IVec S1x1024x1024 32 := subi v19 v20
  have c : IVec S_ 32 := constantI S_ 32 32#32
  have v22 : IVec S1x1024x1024 32 := broadcastInDim S1x1024x1024 ![] bcast_S_S1x1024x1024 c
  have v23 : IVec S1x1024x1024 32 := addi v21 v22
  have c_0 : IVec S_ 32 := constantI S_ 32 0#32
  have c_1 : IVec S_ 32 := constantI S_ 32 64#32
  have v24 : IVec S1x1024x1024 32 := clipT v23 c_0 c_1
  have c_2 : IVec S_ 32 := constantI S_ 32 65#32
  have v25 : IVec S1x1024x1024 32 := whereT v12 v24 c_2
  have v26 : IVec S1x1024x1024 1 := andi v12 v15
  have v27 : IVec S1x1024x1024 32 := broadcastInDim S1x1024x1024 ![0, 1, 2] bcast_S1x1x1024_S1x1024x1024_0_1_2 v7
  have v28 : IVec S1x1024x1024 32 := broadcastInDim S1x1024x1024 ![0, 1, 2] bcast_S1x1024x1_S1x1024x1024_0_1_2 v6
  have v29 : IVec S1x1024x1024 32 := subi v27 v28
  have c_3 : IVec S_ 32 := constantI S_ 32 32#32
  have v30 : IVec S1x1024x1024 32 := broadcastInDim S1x1024x1024 ![] bcast_S_S1x1024x1024 c_3
  have v31 : IVec S1x1024x1024 32 := addi v29 v30
  have c_4 : IVec S_ 32 := constantI S_ 32 0#32
  have c_5 : IVec S_ 32 := constantI S_ 32 64#32
  have v32 : IVec S1x1024x1024 32 := clipT v31 c_4 c_5
  have c_6 : IVec S_ 32 := constantI S_ 32 65#32
  have v33 : IVec S1x1024x1024 32 := whereT v26 v32 c_6
  have v34 : IVec S1x1024x1024 1 := noti v12
  have v35 : IVec S1x1024x1024 32 := broadcastInDim S1x1024x1024 ![0, 1, 2] bcast_S1x1x1024_S1x1024x1024_0_1_2 v9
  have v36 : IVec S1x1024x1024 32 := broadcastInDim S1x1024x1024 ![0, 1, 2] bcast_S1x1024x1_S1x1024x1024_0_1_2 v8
  have v37 : IVec S1x1024x1024 32 := subi v35 v36
  have c_7 : IVec S_ 32 := constantI S_ 32 2#32
  have v38 : IVec S1x1024x1024 32 := broadcastInDim S1x1024x1024 ![] bcast_S_S1x1024x1024 c_7
  have v39 : IVec S1x1024x1024 32 := addi v37 v38
  have c_8 : IVec S_ 32 := constantI S_ 32 0#32
  have c_9 : IVec S_ 32 := constantI S_ 32 4#32
  have v40 : IVec S1x1024x1024 32 := clipT v39 c_8 c_9
  have c_10 : IVec S_ 32 := constantI S_ 32 5#32
  have v41 : IVec S1x1024x1024 32 := whereT v34 v40 c_10
  v41

/-- The sum of the first two row lookups, which the second window reads: the program's operations up to it, in program order. -/
def part46 (a r e t s : IVec S1x1024 32) (W : FVec F S139x128 .f32) : FVec F S1x1024x1024x128 .f32 :=
  have v0 : IVec S1x1024x1 32 := broadcastInDim S1x1024x1 ![0, 1] bcast_S1x1024_S1x1024x1_0_1 a
  have v1 : IVec S1x1x1024 32 := broadcastInDim S1x1x1024 ![0, 2] bcast_S1x1024_S1x1x1024_0_2 a
  have v2 : IVec S1x1024x1 32 := broadcastInDim S1x1024x1 ![0, 1] bcast_S1x1024_S1x1024x1_0_1 r
  have v3 : IVec S1x1x1024 32 := broadcastInDim S1x1x1024 ![0, 2] bcast_S1x1024_S1x1x1024_0_2 r
  have v4 : IVec S1x1024x1 32 := broadcastInDim S1x1024x1 ![0, 1] bcast_S1x1024_S1x1024x1_0_1 e
  have v5 : IVec S1x1x1024 32 := broadcastInDim S1x1x1024 ![0, 2] bcast_S1x1024_S1x1x1024_0_2 e
  have v6 : IVec S1x1024x1 32 := broadcastInDim S1x1024x1 ![0, 1] bcast_S1x1024_S1x1024x1_0_1 t
  have v7 : IVec S1x1x1024 32 := broadcastInDim S1x1x1024 ![0, 2] bcast_S1x1024_S1x1x1024_0_2 t
  have v8 : IVec S1x1024x1 32 := broadcastInDim S1x1024x1 ![0, 1] bcast_S1x1024_S1x1024x1_0_1 s
  have v9 : IVec S1x1x1024 32 := broadcastInDim S1x1x1024 ![0, 2] bcast_S1x1024_S1x1x1024_0_2 s
  have v10 : IVec S1x1024x1024 32 := broadcastInDim S1x1024x1024 ![0, 1, 2] bcast_S1x1x1024_S1x1024x1024_0_1_2 v1
  have v11 : IVec S1x1024x1024 32 := broadcastInDim S1x1024x1024 ![0, 1, 2] bcast_S1x1024x1_S1x1024x1024_0_1_2 v0
  have v12 : IVec S1x1024x1024 1 := cmpi .eq v10 v11
  have v13 : IVec S1x1024x1024 32 := broadcastInDim S1x1024x1024 ![0, 1, 2] bcast_S1x1x1024_S1x1024x1024_0_1_2 v3
  have v14 : IVec S1x1024x1024 32 := broadcastInDim S1x1024x1024 ![0, 1, 2] bcast_S1x1024x1_S1x1024x1024_0_1_2 v2
  have v15 : IVec S1x1024x1024 1 := cmpi .eq v13 v14
  have v16 : IVec S1x1024x1024 32 := broadcastInDim S1x1024x1024 ![0, 1, 2] bcast_S1x1x1024_S1x1024x1024_0_1_2 v5
  have v17 : IVec S1x1024x1024 32 := broadcastInDim S1x1024x1024 ![0, 1, 2] bcast_S1x1024x1_S1x1024x1024_0_1_2 v4
  have v18 : IVec S1x1024x1024 1 := cmpi .eq v16 v17
  have v19 : IVec S1x1024x1024 32 := broadcastInDim S1x1024x1024 ![0, 1, 2] bcast_S1x1x1024_S1x1024x1024_0_1_2 v3
  have v20 : IVec S1x1024x1024 32 := broadcastInDim S1x1024x1024 ![0, 1, 2] bcast_S1x1024x1_S1x1024x1024_0_1_2 v2
  have v21 : IVec S1x1024x1024 32 := subi v19 v20
  have c : IVec S_ 32 := constantI S_ 32 32#32
  have v22 : IVec S1x1024x1024 32 := broadcastInDim S1x1024x1024 ![] bcast_S_S1x1024x1024 c
  have v23 : IVec S1x1024x1024 32 := addi v21 v22
  have c_0 : IVec S_ 32 := constantI S_ 32 0#32
  have c_1 : IVec S_ 32 := constantI S_ 32 64#32
  have v24 : IVec S1x1024x1024 32 := clipT v23 c_0 c_1
  have c_2 : IVec S_ 32 := constantI S_ 32 65#32
  have v25 : IVec S1x1024x1024 32 := whereT v12 v24 c_2
  have v26 : IVec S1x1024x1024 1 := andi v12 v15
  have v27 : IVec S1x1024x1024 32 := broadcastInDim S1x1024x1024 ![0, 1, 2] bcast_S1x1x1024_S1x1024x1024_0_1_2 v7
  have v28 : IVec S1x1024x1024 32 := broadcastInDim S1x1024x1024 ![0, 1, 2] bcast_S1x1024x1_S1x1024x1024_0_1_2 v6
  have v29 : IVec S1x1024x1024 32 := subi v27 v28
  have c_3 : IVec S_ 32 := constantI S_ 32 32#32
  have v30 : IVec S1x1024x1024 32 := broadcastInDim S1x1024x1024 ![] bcast_S_S1x1024x1024 c_3
  have v31 : IVec S1x1024x1024 32 := addi v29 v30
  have c_4 : IVec S_ 32 := constantI S_ 32 0#32
  have c_5 : IVec S_ 32 := constantI S_ 32 64#32
  have v32 : IVec S1x1024x1024 32 := clipT v31 c_4 c_5
  have c_6 : IVec S_ 32 := constantI S_ 32 65#32
  have v33 : IVec S1x1024x1024 32 := whereT v26 v32 c_6
  have v34 : IVec S1x1024x1024 1 := noti v12
  have v35 : IVec S1x1024x1024 32 := broadcastInDim S1x1024x1024 ![0, 1, 2] bcast_S1x1x1024_S1x1024x1024_0_1_2 v9
  have v36 : IVec S1x1024x1024 32 := broadcastInDim S1x1024x1024 ![0, 1, 2] bcast_S1x1024x1_S1x1024x1024_0_1_2 v8
  have v37 : IVec S1x1024x1024 32 := subi v35 v36
  have c_7 : IVec S_ 32 := constantI S_ 32 2#32
  have v38 : IVec S1x1024x1024 32 := broadcastInDim S1x1024x1024 ![] bcast_S_S1x1024x1024 c_7
  have v39 : IVec S1x1024x1024 32 := addi v37 v38
  have c_8 : IVec S_ 32 := constantI S_ 32 0#32
  have c_9 : IVec S_ 32 := constantI S_ 32 4#32
  have v40 : IVec S1x1024x1024 32 := clipT v39 c_8 c_9
  have c_10 : IVec S_ 32 := constantI S_ 32 5#32
  have v41 : IVec S1x1024x1024 32 := whereT v34 v40 c_10
  have v42 : FVec F S1x1024x1024x128 .f32 := takeT W v25
  have c_11 : IVec S_ 32 := constantI S_ 32 66#32
  have v43 : IVec S1x1024x1024 32 := broadcastInDim S1x1024x1024 ![] bcast_S_S1x1024x1024 c_11
  have v44 : IVec S1x1024x1024 32 := addi v43 v33
  have v45 : FVec F S1x1024x1024x128 .f32 := takeT W v44
  have v46 : FVec F S1x1024x1024x128 .f32 := addf v42 v45
  v46

def val1 (V0 : Valuation τ sig (Elt F)) : Valuation τ sig (Elt F) := after ops0 V0

set_option maxHeartbeats 4000000 in
theorem val1_main_v18 (V0 : Valuation τ sig (Elt F)) : val1 V0 (no_index (Proc.devRef .tc main_v18)) = part18 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val1
  simp only [ops0]
  after_results_simp
  rfl

set_option maxHeartbeats 4000000 in
theorem val1_main_v41 (V0 : Valuation τ sig (Elt F)) : val1 V0 (no_index (Proc.devRef .tc main_v41)) = part41 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val1
  simp only [ops0]
  after_results_simp
  rfl

set_option maxHeartbeats 8000000 in
theorem val1_main_v46 (V0 : Valuation τ sig (Elt F)) : val1 V0 (no_index (Proc.devRef .tc main_v46)) = part46 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val1
  simp only [ops0]
  after_results_simp
  rfl

set_option maxHeartbeats 4000000 in
theorem val1_main_arg0 (V0 : Valuation τ sig (Elt F)) : val1 V0 (no_index (Proc.devRef .tc main_arg0)) = V0 (Proc.devRef .tc main_arg0) := by
  unfold val1
  simp only [ops0]
  after_results_simp

set_option maxHeartbeats 4000000 in
theorem val1_main_arg1 (V0 : Valuation τ sig (Elt F)) : val1 V0 (no_index (Proc.devRef .tc main_arg1)) = V0 (Proc.devRef .tc main_arg1) := by
  unfold val1
  simp only [ops0]
  after_results_simp

set_option maxHeartbeats 4000000 in
theorem val1_main_arg2 (V0 : Valuation τ sig (Elt F)) : val1 V0 (no_index (Proc.devRef .tc main_arg2)) = V0 (Proc.devRef .tc main_arg2) := by
  unfold val1
  simp only [ops0]
  after_results_simp

set_option maxHeartbeats 4000000 in
theorem val1_main_arg3 (V0 : Valuation τ sig (Elt F)) : val1 V0 (no_index (Proc.devRef .tc main_arg3)) = V0 (Proc.devRef .tc main_arg3) := by
  unfold val1
  simp only [ops0]
  after_results_simp

set_option maxHeartbeats 4000000 in
theorem val1_main_arg4 (V0 : Valuation τ sig (Elt F)) : val1 V0 (no_index (Proc.devRef .tc main_arg4)) = V0 (Proc.devRef .tc main_arg4) := by
  unfold val1
  simp only [ops0]
  after_results_simp

set_option maxHeartbeats 4000000 in
theorem val1_main_arg5 (V0 : Valuation τ sig (Elt F)) : val1 V0 (no_index (Proc.devRef .tc main_arg5)) = V0 (Proc.devRef .tc main_arg5) := by
  unfold val1
  simp only [ops0]
  after_results_simp

/-- The remaining fifteen statements as their 36 operations, in order, the last row lookup's body (and the select
    nested in it) unfolded over that call's own buffers. -/
abbrev ops1 : List (HloOp τ sig (Elt F)) :=
  [ StableHlo.unary main_v18 main_v47 (uitofp .f32 : (⟨S1x1024x1024, .i1⟩ : BufTy).Contents (Elt F) → (⟨S1x1024x1024, .f32⟩ : BufTy).Contents (Elt F)),
    StableHlo.unary main_v47 main_v48 (broadcastInDim S1x1024x1024x1 ![0, 1, 2] bcast_S1x1024x1024_S1x1024x1024x1_0_1_2 : (⟨S1x1024x1024, .f32⟩ : BufTy).Contents (Elt F) → (⟨S1x1024x1024x1, .f32⟩ : BufTy).Contents (Elt F)),
    StableHlo.unary main_arg5 main_v49 ((extractStridedSlice S1x128 ![132, 0] · slices_S139x128_S1x128_132_0) : (⟨S139x128, .f32⟩ : BufTy).Contents (Elt F) → (⟨S1x128, .f32⟩ : BufTy).Contents (Elt F)),
    StableHlo.reshape main_v49 main_v50 rfl shapeCasts_S1x128_S128,
    StableHlo.unary main_v50 main_v51 (broadcastInDim S1x1x1x128 ![3] bcast_S128_S1x1x1x128_3 : (⟨S128, .f32⟩ : BufTy).Contents (Elt F) → (⟨S1x1x1x128, .f32⟩ : BufTy).Contents (Elt F)),
    StableHlo.unary main_v48 main_v52 (broadcastInDim S1x1024x1024x128 ![0, 1, 2, 3] bcast_S1x1024x1024x1_S1x1024x1024x128_0_1_2_3 : (⟨S1x1024x1024x1, .f32⟩ : BufTy).Contents (Elt F) → (⟨S1x1024x1024x128, .f32⟩ : BufTy).Contents (Elt F)),
    StableHlo.unary main_v51 main_v53 (broadcastInDim S1x1024x1024x128 ![0, 1, 2, 3] bcast_S1x1x1x128_S1x1024x1024x128_0_1_2_3 : (⟨S1x1x1x128, .f32⟩ : BufTy).Contents (Elt F) → (⟨S1x1024x1024x128, .f32⟩ : BufTy).Contents (Elt F)),
    StableHlo.binary main_v52 main_v53 main_v54 (mulf : (⟨S1x1024x1024x128, .f32⟩ : BufTy).Contents (Elt F) → (⟨S1x1024x1024x128, .f32⟩ : BufTy).Contents (Elt F) → (⟨S1x1024x1024x128, .f32⟩ : BufTy).Contents (Elt F)),
    StableHlo.binary main_v46 main_v54 main_v55 (addf : (⟨S1x1024x1024x128, .f32⟩ : BufTy).Contents (Elt F) → (⟨S1x1024x1024x128, .f32⟩ : BufTy).Contents (Elt F) → (⟨S1x1024x1024x128, .f32⟩ : BufTy).Contents (Elt F)),
    StableHlo.nullary main_c_12 (constantI S_ 32 133#32),
    StableHlo.unary main_c_12 main_v56 (broadcastInDim S1x1024x1024 ![] bcast_S_S1x1024x1024 : (⟨S_, .i32⟩ : BufTy).Contents (Elt F) → (⟨S1x1024x1024, .i32⟩ : BufTy).Contents (Elt F)),
    StableHlo.binary main_v56 main_v41 main_v57 (addi : (⟨S1x1024x1024, .i32⟩ : BufTy).Contents (Elt F) → (⟨S1x1024x1024, .i32⟩ : BufTy).Contents (Elt F) → (⟨S1x1024x1024, .i32⟩ : BufTy).Contents (Elt F)),
    StableHlo.nullary main_call8_c (constantI S_ 32 0#32),
    StableHlo.unary main_call8_c main_call8_v0 (broadcastInDim S1x1024x1024 ![] bcast_S_S1x1024x1024 : (⟨S_, .i32⟩ : BufTy).Contents (Elt F) → (⟨S1x1024x1024, .i32⟩ : BufTy).Contents (Elt F)),
    StableHlo.binary main_v57 main_call8_v0 main_call8_v1 (cmpi .slt : (⟨S1x1024x1024, .i32⟩ : BufTy).Contents (Elt F) → (⟨S1x1024x1024, .i32⟩ : BufTy).Contents (Elt F) → (⟨S1x1024x1024, .i1⟩ : BufTy).Contents (Elt F)),
    StableHlo.nullary main_call8_c_0 (constantI S_ 32 139#32),
    StableHlo.unary main_call8_c_0 main_call8_v2 (broadcastInDim S1x1024x1024 ![] bcast_S_S1x1024x1024 : (⟨S_, .i32⟩ : BufTy).Contents (Elt F) → (⟨S1x1024x1024, .i32⟩ : BufTy).Contents (Elt F)),
    StableHlo.binary main_v57 main_call8_v2 main_call8_v3 (addi : (⟨S1x1024x1024, .i32⟩ : BufTy).Contents (Elt F) → (⟨S1x1024x1024, .i32⟩ : BufTy).Contents (Elt F) → (⟨S1x1024x1024, .i32⟩ : BufTy).Contents (Elt F)),
    StableHlo.ternary main_call8_v1 main_call8_v3 main_v57 main_call8_v4 (select : (⟨S1x1024x1024, .i1⟩ : BufTy).Contents (Elt F) → (⟨S1x1024x1024, .i32⟩ : BufTy).Contents (Elt F) → (⟨S1x1024x1024, .i32⟩ : BufTy).Contents (Elt F) → (⟨S1x1024x1024, .i32⟩ : BufTy).Contents (Elt F)),
    StableHlo.unary main_call8_v4 main_call8_v5 (broadcastInDim S1x1024x1024x1 ![0, 1, 2] bcast_S1x1024x1024_S1x1024x1024x1_0_1_2 : (⟨S1x1024x1024, .i32⟩ : BufTy).Contents (Elt F) → (⟨S1x1024x1024x1, .i32⟩ : BufTy).Contents (Elt F)),
    StableHlo.nullary main_call8_c_1 (constantI S1 32 138#32),
    StableHlo.nullary main_call8_c_2 (constantI S_ 32 0#32),
    StableHlo.unary main_call8_c_2 main_call8_v6 (broadcastInDim S1x1024x1024x1 ![] bcast_S_S1x1024x1024x1 : (⟨S_, .i32⟩ : BufTy).Contents (Elt F) → (⟨S1x1024x1024x1, .i32⟩ : BufTy).Contents (Elt F)),
    StableHlo.binary main_call8_v5 main_call8_v6 main_call8_v7 (cmpi .sge : (⟨S1x1024x1024x1, .i32⟩ : BufTy).Contents (Elt F) → (⟨S1x1024x1024x1, .i32⟩ : BufTy).Contents (Elt F) → (⟨S1x1024x1024x1, .i1⟩ : BufTy).Contents (Elt F)),
    StableHlo.unary main_call8_c_1 main_call8_v8 (broadcastInDim S1x1x1x1 ![3] bcast_S1_S1x1x1x1_3 : (⟨S1, .i32⟩ : BufTy).Contents (Elt F) → (⟨S1x1x1x1, .i32⟩ : BufTy).Contents (Elt F)),
    StableHlo.unary main_call8_v8 main_call8_v9 (broadcastInDim S1x1024x1024x1 ![0, 1, 2, 3] bcast_S1x1x1x1_S1x1024x1024x1_0_1_2_3 : (⟨S1x1x1x1, .i32⟩ : BufTy).Contents (Elt F) → (⟨S1x1024x1024x1, .i32⟩ : BufTy).Contents (Elt F)),
    StableHlo.binary main_call8_v5 main_call8_v9 main_call8_v10 (cmpi .sle : (⟨S1x1024x1024x1, .i32⟩ : BufTy).Contents (Elt F) → (⟨S1x1024x1024x1, .i32⟩ : BufTy).Contents (Elt F) → (⟨S1x1024x1024x1, .i1⟩ : BufTy).Contents (Elt F)),
    StableHlo.binary main_call8_v7 main_call8_v10 main_call8_v11 (andi : (⟨S1x1024x1024x1, .i1⟩ : BufTy).Contents (Elt F) → (⟨S1x1024x1024x1, .i1⟩ : BufTy).Contents (Elt F) → (⟨S1x1024x1024x1, .i1⟩ : BufTy).Contents (Elt F)),
    StableHlo.nullary main_call8_c_3 (constantI S_ 1 1#1),
    StableHlo.binary main_call8_v11 main_call8_c_3 main_call8_v12 (fun x v => Host.reduce IntOp.andi x v reducesTo_S1x1024x1024x1_S1x1024x1024_d3 h_S_ : (⟨S1x1024x1024x1, .i1⟩ : BufTy).Contents (Elt F) → (⟨S_, .i1⟩ : BufTy).Contents (Elt F) → (⟨S1x1024x1024, .i1⟩ : BufTy).Contents (Elt F)),
    StableHlo.binary main_arg5 main_call8_v5 main_call8_v13 (fun x i => Host.gather gather_S139x128_S1x1024x1024x1_S1x1024x1024x128_3_0_n_n_0_3_1128 x i : (⟨S139x128, .f32⟩ : BufTy).Contents (Elt F) → (⟨S1x1024x1024x1, .i32⟩ : BufTy).Contents (Elt F) → (⟨S1x1024x1024x128, .f32⟩ : BufTy).Contents (Elt F)),
    StableHlo.unary main_call8_v12 main_call8_v14 (broadcastInDim S1x1024x1024x128 ![0, 1, 2] bcast_S1x1024x1024_S1x1024x1024x128_0_1_2 : (⟨S1x1024x1024, .i1⟩ : BufTy).Contents (Elt F) → (⟨S1x1024x1024x128, .i1⟩ : BufTy).Contents (Elt F)),
    StableHlo.nullary main_call8_cst (constant S_ .f32 0x7FC00000#32),
    StableHlo.unary main_call8_cst main_call8_v15 (broadcastInDim S1x1024x1024x128 ![] bcast_S_S1x1024x1024x128 : (⟨S_, .f32⟩ : BufTy).Contents (Elt F) → (⟨S1x1024x1024x128, .f32⟩ : BufTy).Contents (Elt F)),
    StableHlo.ternary main_call8_v14 main_call8_v13 main_call8_v15 main_v58 (select : (⟨S1x1024x1024x128, .i1⟩ : BufTy).Contents (Elt F) → (⟨S1x1024x1024x128, .f32⟩ : BufTy).Contents (Elt F) → (⟨S1x1024x1024x128, .f32⟩ : BufTy).Contents (Elt F) → (⟨S1x1024x1024x128, .f32⟩ : BufTy).Contents (Elt F)),
    StableHlo.binary main_v55 main_v58 main_v59 (addf : (⟨S1x1024x1024x128, .f32⟩ : BufTy).Contents (Elt F) → (⟨S1x1024x1024x128, .f32⟩ : BufTy).Contents (Elt F) → (⟨S1x1024x1024x128, .f32⟩ : BufTy).Contents (Elt F)) ]

/-- The second window is that straight line: unfolding the row lookup at its call and re-associating the sequencing
    leaves the same chain of steps (a typed reference's transport of contents is the identity at a literal buffer). -/
theorem main_part1_eq (c : Dev nD) : main_part1 (F := F) c = seq ops1 := rfl

/-- The whole program's 161 operations, in order. -/
abbrev ops : List (HloOp τ sig (Elt F)) := ops0 ++ ops1

theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., unary_bufs_sub .., unary_bufs_sub .., reshape_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

/-- Folding two lines one after the other is folding their concatenation. -/
theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The buffers' contents after both windows. -/
def val2 (V0 : Valuation τ sig (Elt F)) : Valuation τ sig (Elt F) := after ops1 (val1 V0)

theorem after_ops (V0 : Valuation τ sig (Elt F)) : after ops V0 = val2 V0 := by
  simp only [ops, after_append']
  rfl

set_option maxHeartbeats 2000000 in
/-- No operation of the second window writes argument 0's buffer. -/
theorem val2_main_arg0 (V0 : Valuation τ sig (Elt F)) :
    val2 V0 (Proc.devRef .tc main_arg0) = V0 (Proc.devRef .tc main_arg0) := by
  unfold val2
  simp only [ops1]
  after_results_simp
  exact val1_main_arg0 V0

set_option maxHeartbeats 2000000 in
/-- No operation of the second window writes argument 1's buffer. -/
theorem val2_main_arg1 (V0 : Valuation τ sig (Elt F)) :
    val2 V0 (Proc.devRef .tc main_arg1) = V0 (Proc.devRef .tc main_arg1) := by
  unfold val2
  simp only [ops1]
  after_results_simp
  exact val1_main_arg1 V0

set_option maxHeartbeats 2000000 in
/-- No operation of the second window writes argument 2's buffer. -/
theorem val2_main_arg2 (V0 : Valuation τ sig (Elt F)) :
    val2 V0 (Proc.devRef .tc main_arg2) = V0 (Proc.devRef .tc main_arg2) := by
  unfold val2
  simp only [ops1]
  after_results_simp
  exact val1_main_arg2 V0

set_option maxHeartbeats 2000000 in
/-- No operation of the second window writes argument 3's buffer. -/
theorem val2_main_arg3 (V0 : Valuation τ sig (Elt F)) :
    val2 V0 (Proc.devRef .tc main_arg3) = V0 (Proc.devRef .tc main_arg3) := by
  unfold val2
  simp only [ops1]
  after_results_simp
  exact val1_main_arg3 V0

set_option maxHeartbeats 2000000 in
/-- No operation of the second window writes argument 4's buffer. -/
theorem val2_main_arg4 (V0 : Valuation τ sig (Elt F)) :
    val2 V0 (Proc.devRef .tc main_arg4) = V0 (Proc.devRef .tc main_arg4) := by
  unfold val2
  simp only [ops1]
  after_results_simp
  exact val1_main_arg4 V0

set_option maxHeartbeats 2000000 in
/-- No operation of the second window writes argument 5's buffer. -/
theorem val2_main_arg5 (V0 : Valuation τ sig (Elt F)) :
    val2 V0 (Proc.devRef .tc main_arg5) = V0 (Proc.devRef .tc main_arg5) := by
  unfold val2
  simp only [ops1]
  after_results_simp
  exact val1_main_arg5 V0

set_option maxHeartbeats 4000000 in
/-- The result buffer after both windows: the second window's operations read back one by one, down to the three
    values it takes from the first window and the weight matrix; with those at their own terms the whole is the
    program's composed term, operation for operation. -/
theorem val2_main_v59 (V0 : Valuation τ sig (Elt F)) :
    val2 V0 (Proc.devRef .tc main_v59) = refTerm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold val2
  simp only [ops1]
  after_results_simp
  simp only [val1_main_v18, val1_main_v41, val1_main_v46, val1_main_arg5]
  rfl

end RRun

open RRun in
/-- On every device, for any float values, from any memory with zero counters: every weakly fair execution of the
    program terminates, the result buffer ends at the composed term of the six argument buffers' launch contents,
    and the argument buffers end as they were. -/
theorem run (m : (ℓ : Loc nD τ sig) → Buf (Elt F) ℓ) (ρ : Dev nD → PrngReg) : θ_run (defs (F := F)) (onTc (τ := τ) (main (F := F))) ⟨m, fun _ => 0, ρ⟩ (fun r => ∀ c : Dev nD, r.2.mem ((c.tc : Thread nD τ).loc main_v59) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c =>
      ⟨(h c main_v59).trans (by rw [after_ops]; exact val2_main_v59 (launchContents m c)),
       (h c main_arg0).trans (by rw [after_ops]; exact val2_main_arg0 (launchContents m c)),
       (h c main_arg1).trans (by rw [after_ops]; exact val2_main_arg1 (launchContents m c)),
       (h c main_arg2).trans (by rw [after_ops]; exact val2_main_arg2 (launchContents m c)),
       (h c main_arg3).trans (by rw [after_ops]; exact val2_main_arg3 (launchContents m c)),
       (h c main_arg4).trans (by rw [after_ops]; exact val2_main_arg4 (launchContents m c)),
       (h c main_arg5).trans (by rw [after_ops]; exact val2_main_arg5 (launchContents m c))⟩)
    (run_seq scopedRefs_eq scopedSems_eq defs main (fun _ => ops) main_eq (fun _ => ops_sub) m ρ)

end Cert.ReferenceIdeal.Hand

end
-- ==== Proof.RTake.lean ====
/-
  The reference's row lookup read at an index.

  The lookup gathers rows of the weight matrix at an array of row numbers carried with a trailing unit axis: result
  entry (0, p, q, c) is the matrix at row "start index (0, p, q, 0) read signed and clamped into [0, 138]", column c.
  Its range test is reduced by "and" over that unit axis: a fold over one element. With the row number in range the
  negative-index wrap is inactive, the range bit is set, and the lookup is the matrix's row.
-/
import proofs.«412935_j89404039233854_3_alg».proof.Proof.Gen.ReferenceIdeal
import proofs.«412935_j89404039233854_3_alg».proof.Proof.RTerm
import Idealize.ShloMosaic.Lib.ValueIdx
import Idealize.ShloMosaic.PureOps.Reduce

set_option maxRecDepth 16384

noncomputable section

namespace Cert.ReferenceIdeal.Hand

open Idealize.ShloMosaic Idealize.ShloMosaic.ValueIdx Cert.ReferenceIdeal Cert.ReferenceIdeal.Facts₀

/-! ## The gather -/

section Gather
variable [Cert.ReferenceIdeal.Facts₀] {α : Type}

/-- The gather at result index (0, p, q, c): on the matrix's row axis the start index (0, p, q, 0), read signed and
    clamped so that the one-row slice fits; on its column axis the result's last coordinate. -/
theorem gather_take_last (x : S139x128.Idx → α) (idx : IVec S1x1024x1024x1 32) (p q : Fin 1024) (c : Fin 128) :
    Host.gather gather_S139x128_S1x1024x1024x1_S1x1024x1024x128_3_0_n_n_0_3_1128 x idx (ix4 (0 : Fin 1) p q c)
      = x (ix2 (⟨min (idx (ix4 (0 : Fin 1) p q (0 : Fin 1))).toInt.toNat 138, by omega⟩ : Fin 139) c) := by
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S139x128_S1x1024x1024x1_S1x1024x1024x128_3_0_n_n_0_3_1128.startIndexMap from
      List.mem_singleton.mpr rfl)]
    have hsi : GatherDims.siIdx gather_S139x128_S1x1024x1024x1_S1x1024x1024x128_3_0_n_n_0_3_1128 (ix4 (0 : Fin 1) p q c)
        ⟨List.idxOf (0 : Fin 2) gather_S139x128_S1x1024x1024x1_S1x1024x1024x128_3_0_n_n_0_3_1128.startIndexMap,
          List.idxOf_lt_length_iff.2 (List.mem_singleton.mpr rfl)⟩ = ix4 (0 : Fin 1) p q (0 : Fin 1) := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show GatherDims.start _ _ idx 1 + GatherDims.batchCoord _ _ 1 + GatherDims.offCoord _ _ 1 = c.val
    rw [GatherDims.batchCoord_eq_zero _ _ _ List.not_mem_nil]
    have hst : GatherDims.start gather_S139x128_S1x1024x1024x1_S1x1024x1024x128_3_0_n_n_0_3_1128 (ix4 (0 : Fin 1) p q c) idx 1 = 0 := by
      unfold GatherDims.start
      have hne : (1 : Fin 2) ∉ gather_S139x128_S1x1024x1024x1_S1x1024x1024x128_3_0_n_n_0_3_1128.startIndexMap := by
        show (1 : Fin 2) ∉ [(0 : Fin 2)]
        decide
      rw [dif_neg hne]
    rw [hst]
    simp only [Nat.add_zero, Nat.zero_add]
    rfl

/-- With the start index nonnegative and below the row count the clamp is inactive. -/
theorem gather_take_last_of_inb (x : S139x128.Idx → α) (idx : IVec S1x1024x1024x1 32) (p q : Fin 1024) (c : Fin 128)
    (hlo : 0 ≤ (idx (ix4 (0 : Fin 1) p q (0 : Fin 1))).toInt) (hhi : (idx (ix4 (0 : Fin 1) p q (0 : Fin 1))).toNat < 139) :
    Host.gather gather_S139x128_S1x1024x1024x1_S1x1024x1024x128_3_0_n_n_0_3_1128 x idx (ix4 (0 : Fin 1) p q c)
      = x (ix2 (⟨(idx (ix4 (0 : Fin 1) p q (0 : Fin 1))).toNat, hhi⟩ : Fin 139) c) := by
  rw [gather_take_last]
  congr 2
  refine Fin.ext ?_
  show min (idx (ix4 (0 : Fin 1) p q (0 : Fin 1))).toInt.toNat 138 = (idx (ix4 (0 : Fin 1) p q (0 : Fin 1))).toNat
  have hx := (idx (ix4 (0 : Fin 1) p q (0 : Fin 1))).isLt
  have e : (idx (ix4 (0 : Fin 1) p q (0 : Fin 1))).toInt = ((idx (ix4 (0 : Fin 1) p q (0 : Fin 1))).toNat : Int) := by
    rw [BitVec.toInt_eq_toNat_cond]
    split <;> omega
  rw [e, Int.toNat_natCast]
  omega

end Gather

/-! ## The range test's reduction over the unit axis -/

section Reduce
variable [Cert.ReferenceIdeal.Facts₀]

/-- A reduction by "and" over an axis of extent one combines the initial value with the one element. -/
theorem reduce_and_unit (x : IVec S1x1024x1024x1 1) (init : IVec S_ 1) (p q : Fin 1024) :
    Host.reduce IntOp.andi x init reducesTo_S1x1024x1024x1_S1x1024x1024_d3 h_S_ (ix3 (0 : Fin 1) p q)
      = IntOp.andi (init ix0) (x (ix4 (0 : Fin 1) p q (0 : Fin 1))) := by
  have hR : S1x1024x1024x1.Reduces [3] S1x1024x1024 := by decide
  rw [Host.reduce_eq_fold_single IntOp.andi x init reducesTo_S1x1024x1024x1_S1x1024x1024_d3 hR h_S_ (ix3 (0 : Fin 1) p q)]
  show Finset.fold IntOp.andi (init (Shape.Idx.first h_S_)) (fun k : Fin 1 => x (hR.lift (ix3 (0 : Fin 1) p q) k))
    (Finset.univ : Finset (Fin 1)) = _
  rw [Finset.univ_unique, Finset.fold_singleton]
  have hl : hR.lift (ix3 (0 : Fin 1) p q) (0 : Fin 1) = ix4 (0 : Fin 1) p q (0 : Fin 1) := by
    funext b; refine Fin.ext ?_
    match b with
    | ⟨0, _⟩ => rfl
    | ⟨1, _⟩ => rfl
    | ⟨2, _⟩ => rfl
    | ⟨3, _⟩ => rfl
  have hi : Shape.Idx.first h_S_ = (ix0 : S_.Idx) := eq_ix0 _
  show IntOp.andi (x (hR.lift (ix3 (0 : Fin 1) p q) (0 : Fin 1))) (init (Shape.Idx.first h_S_)) = _
  rw [hl, hi]
  exact Std.Commutative.comm _ _

end Reduce

/-! ## The whole lookup at an in-range row number -/

section Words

/-- A word whose signed reading is nonnegative is not below zero, -/
theorem cmpi_slt_zero (x : BitVec 32) (h : 0 ≤ x.toInt) : IntOp.cmpi .slt x 0#32 = 0#1 := by
  have hs : x.slt 0#32 = false := by
    rw [BitVec.slt]
    have h0 : (0#32).toInt = 0 := by decide
    rw [h0]
    exact decide_eq_false (by omega)
  show BitVec.ofBool (x.slt 0#32) = 0#1
  rw [hs]; rfl

/-- is at least zero, -/
theorem cmpi_sge_zero (x : BitVec 32) (h : 0 ≤ x.toInt) : IntOp.cmpi .sge x 0#32 = 1#1 := by
  have hs : (0#32).sle x = true := by
    rw [BitVec.sle]
    have h0 : (0#32).toInt = 0 := by decide
    rw [h0]
    exact decide_eq_true h
  show BitVec.ofBool ((0#32).sle x) = 1#1
  rw [hs]; rfl

/-- and, when below 139 as an unsigned number, at most 138 as a signed one. -/
theorem cmpi_sle_138 (x : BitVec 32) (h : x.toNat < 139) : IntOp.cmpi .sle x 138#32 = 1#1 := by
  have hs : x.sle 138#32 = true := by
    rw [BitVec.sle]
    have h0 : (138#32).toInt = 138 := by decide
    have e : x.toInt = (x.toNat : Int) := by
      rw [BitVec.toInt_eq_toNat_cond]
      split <;> omega
    rw [h0, e]
    exact decide_eq_true (by omega)
  show BitVec.ofBool (x.sle 138#32) = 1#1
  rw [hs]; rfl

end Words

section Take
variable {F : FTy → Type} [FloatOps F] [Cert.ReferenceIdeal.Facts]

/-- An array over the pair plane carried to a trailing unit axis reads the array at the pair. -/
theorem bcast_unit_apply {α : Type} (y : S1x1024x1024.Idx → α) (p q : Fin 1024) :
    broadcastInDim S1x1024x1024x1 ![0, 1, 2] bcast_S1x1024x1024_S1x1024x1024x1_0_1_2 y (ix4 (0 : Fin 1) p q (0 : Fin 1))
      = y (ix3 (0 : Fin 1) p q) := by
  unfold broadcastInDim
  congr 1
  funext a
  refine Fin.ext ?_
  match a with
  | ⟨0, _⟩ => rfl
  | ⟨1, _⟩ => rfl
  | ⟨2, _⟩ => rfl

/-- An array over the pair plane carried along the channel axis reads the array at the pair. -/
theorem bcast_chan_apply {α : Type} (y : S1x1024x1024.Idx → α) (p q : Fin 1024) (c : Fin 128) :
    broadcastInDim S1x1024x1024x128 ![0, 1, 2] bcast_S1x1024x1024_S1x1024x1024x128_0_1_2 y (ix4 (0 : Fin 1) p q c)
      = y (ix3 (0 : Fin 1) p q) := by
  unfold broadcastInDim
  congr 1
  funext a
  refine Fin.ext ?_
  match a with
  | ⟨0, _⟩ => rfl
  | ⟨1, _⟩ => rfl
  | ⟨2, _⟩ => rfl

/-- The lookup from the wrapped row numbers on: with the row number at (0, p, q, 0) in range, the range bit is set and
    the gathered row is kept. -/
theorem take_core (W : FVec F S139x128 .f32) (v5 : IVec S1x1024x1024x1 32) (p q : Fin 1024) (c : Fin 128)
    (h0 : 0 ≤ (v5 (ix4 (0 : Fin 1) p q (0 : Fin 1))).toInt) (h1 : (v5 (ix4 (0 : Fin 1) p q (0 : Fin 1))).toNat < 139) :
    select (broadcastInDim S1x1024x1024x128 ![0, 1, 2] bcast_S1x1024x1024_S1x1024x1024x128_0_1_2
        (Host.reduce IntOp.andi
          (andi (cmpi .sge v5 (broadcastInDim S1x1024x1024x1 ![] bcast_S_S1x1024x1024x1 (constantI S_ 32 0#32)))
            (cmpi .sle v5 (broadcastInDim S1x1024x1024x1 ![0, 1, 2, 3] bcast_S1x1x1x1_S1x1024x1024x1_0_1_2_3
              (broadcastInDim S1x1x1x1 ![3] bcast_S1_S1x1x1x1_3 (constantI S1 32 138#32)))))
          (constantI S_ 1 1#1) reducesTo_S1x1024x1024x1_S1x1024x1024_d3 h_S_))
      (Host.gather gather_S139x128_S1x1024x1024x1_S1x1024x1024x128_3_0_n_n_0_3_1128 W v5)
      (broadcastInDim S1x1024x1024x128 ![] bcast_S_S1x1024x1024x128 (constant S_ .f32 0x7FC00000#32))
      (ix4 (0 : Fin 1) p q c)
    = W (ix2 (⟨(v5 (ix4 (0 : Fin 1) p q (0 : Fin 1))).toNat, h1⟩ : Fin 139) c) := by
  unfold select
  show Scalar.select _ _ _ = _
  rw [bcast_chan_apply, reduce_and_unit]
  have hbit : IntOp.andi (constantI S_ 1 1#1 ix0)
      (andi (cmpi .sge v5 (broadcastInDim S1x1024x1024x1 ![] bcast_S_S1x1024x1024x1 (constantI S_ 32 0#32)))
        (cmpi .sle v5 (broadcastInDim S1x1024x1024x1 ![0, 1, 2, 3] bcast_S1x1x1x1_S1x1024x1024x1_0_1_2_3
          (broadcastInDim S1x1x1x1 ![3] bcast_S1_S1x1x1x1_3 (constantI S1 32 138#32)))) (ix4 (0 : Fin 1) p q (0 : Fin 1))) = 1#1 := by
    show IntOp.andi 1#1 (IntOp.andi (IntOp.cmpi .sge (v5 (ix4 (0 : Fin 1) p q (0 : Fin 1))) 0#32)
      (IntOp.cmpi .sle (v5 (ix4 (0 : Fin 1) p q (0 : Fin 1))) 138#32)) = 1#1
    rw [cmpi_sge_zero _ h0, cmpi_sle_138 _ h1]
    decide
  rw [hbit]
  exact (if_pos (show (1#1 : BitVec 1) = 1 from rfl)).trans (gather_take_last_of_inb W v5 p q c h0 h1)

/-- THE LOOKUP AT AN IN-RANGE ROW NUMBER: the matrix's row. The wrap of negative row numbers is inactive (the row
    number is nonnegative), so the start index is the row number itself; the fill value is never read. -/
theorem takeT_apply (W : FVec F S139x128 .f32) (idx : IVec S1x1024x1024 32) (p q : Fin 1024) (c : Fin 128)
    (h0 : 0 ≤ (idx (ix3 (0 : Fin 1) p q)).toInt) (h1 : (idx (ix3 (0 : Fin 1) p q)).toNat < 139) :
    takeT W idx (ix4 (0 : Fin 1) p q c) = W (ix2 (⟨(idx (ix3 (0 : Fin 1) p q)).toNat, h1⟩ : Fin 139) c) := by
  have hw : broadcastInDim S1x1024x1024x1 ![0, 1, 2] bcast_S1x1024x1024_S1x1024x1024x1_0_1_2
      (select (cmpi .slt idx (broadcastInDim S1x1024x1024 ![] bcast_S_S1x1024x1024 (constantI S_ 32 0#32)))
        (addi idx (broadcastInDim S1x1024x1024 ![] bcast_S_S1x1024x1024 (constantI S_ 32 139#32))) idx)
      (ix4 (0 : Fin 1) p q (0 : Fin 1)) = idx (ix3 (0 : Fin 1) p q) := by
    rw [bcast_unit_apply]
    show Scalar.select (IntOp.cmpi .slt (idx (ix3 (0 : Fin 1) p q)) 0#32) _ _ = _
    rw [cmpi_slt_zero _ h0]
    show (if (0#1 : BitVec 1) = 1 then _ else _) = _
    rw [if_neg (by decide)]
  have h0' := h0
  have h1' := h1
  rw [← hw] at h0' h1'
  have key := take_core W _ p q c h0' h1'
  unfold takeT
  refine key.trans ?_
  have e : ∀ (n m : Nat) (hn : n < 139) (hm : m < 139), n = m →
      W (ix2 (⟨n, hn⟩ : Fin 139) c) = W (ix2 (⟨m, hm⟩ : Fin 139) c) := by
    intro n m hn hm h; subst h; rfl
  exact e _ _ _ _ (congrArg BitVec.toNat hw)

end Take

end Cert.ReferenceIdeal.Hand

end
-- ==== Proof.RValue.lean ====
/-
  The reference program computes the specification: its result, read at an entry `(p, q, c)` of the pair plane and
  channel axis, is the sum of three rows of the weight matrix selected by the three bins of the pair, plus the
  same-entity bit times row 132.

  The reference lays each id vector once along the columns and once along the rows of the pair plane, so that at
  entry `(p, q)` it compares and subtracts the column token's id and the row token's id: exactly the specification's
  scalar features. Every row number it then looks up is one of the specification's bins, inside the matrix, so each
  lookup is the plain row. The reference adds the same-entity term before the chain row and the specification after
  it: one exchange of two summands.
-/
import proofs.«412935_j89404039233854_3_alg».proof.Proof.RTerm
import proofs.«412935_j89404039233854_3_alg».proof.Proof.Spec
import proofs.«412935_j89404039233854_3_alg».proof.Proof.SpecBounds
import proofs.«412935_j89404039233854_3_alg».proof.Proof.RTake
import Idealize.ShloMosaic.Lib.ValueIdx
import Idealize.ShloMosaic.Lib.ValueLayout
import Idealize.ShloMosaic.PureOps.Ideal.Laws

set_option maxRecDepth 16384

noncomputable section

namespace Cert.ReferenceIdeal.Hand

open Idealize.ShloMosaic Idealize.ShloMosaic.ValueIdx Cert.ReferenceIdeal Cert.ReferenceIdeal.Facts₀ Cert.ReferenceIdeal.Facts

variable [Cert.ReferenceIdeal.Facts]

/-! ## The reference's stages

The reference's chain regrouped by what each part computes: an id vector laid along the columns and along the
rows of the pair plane, the equality bit of the two, the clamped offset of the two, the three bins, and the
same-entity term. The regrouped chain is the reference's term again, by unfolding. -/

section Stages
variable {F : FTy → Type} [FloatOps F]

/-- An id vector over the pair plane, entry `(p, q)` the id of the column token `q`. -/
def colT (x : IVec S1x1024 32) : IVec S1x1024x1024 32 :=
  broadcastInDim S1x1024x1024 ![0, 1, 2] bcast_S1x1x1024_S1x1024x1024_0_1_2
    (broadcastInDim S1x1x1024 ![0, 2] bcast_S1x1024_S1x1x1024_0_2 x)

/-- An id vector over the pair plane, entry `(p, q)` the id of the row token `p`. -/
def rowT (x : IVec S1x1024 32) : IVec S1x1024x1024 32 :=
  broadcastInDim S1x1024x1024 ![0, 1, 2] bcast_S1x1024x1_S1x1024x1024_0_1_2
    (broadcastInDim S1x1024x1 ![0, 1] bcast_S1x1024_S1x1024x1_0_1 x)

/-- The bit "the two tokens of the pair have the same id". -/
def sameT (x : IVec S1x1024 32) : IVec S1x1024x1024 1 := cmpi .eq (colT x) (rowT x)

/-- The offset of the column token's id from the row token's, shifted by `off` and clamped into `[0, hi]`. -/
def offT (hi off : BitVec 32) (x : IVec S1x1024 32) : IVec S1x1024x1024 32 :=
  clipT (addi (subi (colT x) (rowT x)) (broadcastInDim S1x1024x1024 ![] bcast_S_S1x1024x1024 (constantI S_ 32 off)))
    (constantI S_ 32 0#32) (constantI S_ 32 hi)

/-- The residue-offset bin over the pair plane. -/
def dResT (a r : IVec S1x1024 32) : IVec S1x1024x1024 32 :=
  whereT (sameT a) (offT 64#32 32#32 r) (constantI S_ 32 65#32)

/-- The token-offset bin over the pair plane. -/
def dTokT (a r t : IVec S1x1024 32) : IVec S1x1024x1024 32 :=
  whereT (andi (sameT a) (sameT r)) (offT 64#32 32#32 t) (constantI S_ 32 65#32)

/-- The chain-offset bin over the pair plane. -/
def dChnT (a s : IVec S1x1024 32) : IVec S1x1024x1024 32 :=
  whereT (noti (sameT a)) (offT 4#32 2#32 s) (constantI S_ 32 5#32)

/-- A scalar row offset over the pair plane. -/
def bandT (k : BitVec 32) : IVec S1x1024x1024 32 :=
  broadcastInDim S1x1024x1024 ![] bcast_S_S1x1024x1024 (constantI S_ 32 k)

/-- The same-entity term: the same-entity bit as a number, along the channels, times row 132 of the weights,
    over the pair plane. -/
def entT (e : IVec S1x1024 32) (W : FVec F S139x128 .f32) : FVec F S1x1024x1024x128 .f32 :=
  mulf
    (broadcastInDim S1x1024x1024x128 ![0, 1, 2, 3] bcast_S1x1024x1024x1_S1x1024x1024x128_0_1_2_3
      (broadcastInDim S1x1024x1024x1 ![0, 1, 2] bcast_S1x1024x1024_S1x1024x1024x1_0_1_2 (uitofp .f32 (sameT e))))
    (broadcastInDim S1x1024x1024x128 ![0, 1, 2, 3] bcast_S1x1x1x128_S1x1024x1024x128_0_1_2_3
      (broadcastInDim S1x1x1x128 ![3] bcast_S128_S1x1x1x128_3
        (shapeCast S128 (extractStridedSlice S1x128 ![132, 0] W slices_S139x128_S1x128_132_0) shapeCasts_S1x128_S128)))

/-- The reference's term, regrouped. -/
theorem refTerm_stages (a r e t s : IVec S1x1024 32) (W : FVec F S139x128 .f32) :
    refTerm a r e t s W
      = addf (addf (addf (takeT W (dResT a r)) (takeT W (addi (bandT 66#32) (dTokT a r t)))) (entT e W))
          (takeT W (addi (bandT 133#32) (dChnT a s))) := rfl

end Stages

/-! ## The stages at an entry -/

section Read
variable {α : Type}

theorem colB_apply (h1 : S1x1024.BroadcastsInDim S1x1x1024 ![0, 2]) (h2 : S1x1x1024.BroadcastsInDim S1x1024x1024 ![0, 1, 2])
    (x : S1x1024.Idx → α) (p q : Fin 1024) :
    broadcastInDim S1x1024x1024 ![0, 1, 2] h2 (broadcastInDim S1x1x1024 ![0, 2] h1 x) (ix3 (0 : Fin 1) p q)
      = x (ix2 (0 : Fin 1) q) := by
  unfold broadcastInDim
  congr 1
  funext d
  match d with
  | ⟨0, _⟩ => rfl
  | ⟨1, _⟩ => rfl

theorem rowB_apply (h1 : S1x1024.BroadcastsInDim S1x1024x1 ![0, 1]) (h2 : S1x1024x1.BroadcastsInDim S1x1024x1024 ![0, 1, 2])
    (x : S1x1024.Idx → α) (p q : Fin 1024) :
    broadcastInDim S1x1024x1024 ![0, 1, 2] h2 (broadcastInDim S1x1024x1 ![0, 1] h1 x) (ix3 (0 : Fin 1) p q)
      = x (ix2 (0 : Fin 1) p) := by
  unfold broadcastInDim
  congr 1
  funext d
  match d with
  | ⟨0, _⟩ => rfl
  | ⟨1, _⟩ => rfl

/-- An array over the pair plane, laid along the channels. -/
theorem chanB_apply (h1 : S1x1024x1024.BroadcastsInDim S1x1024x1024x1 ![0, 1, 2])
    (h2 : S1x1024x1024x1.BroadcastsInDim S1x1024x1024x128 ![0, 1, 2, 3])
    (x : S1x1024x1024.Idx → α) (p q : Fin 1024) (c : Fin 128) :
    broadcastInDim S1x1024x1024x128 ![0, 1, 2, 3] h2 (broadcastInDim S1x1024x1024x1 ![0, 1, 2] h1 x) (ix4 (0 : Fin 1) p q c)
      = x (ix3 (0 : Fin 1) p q) := by
  unfold broadcastInDim
  congr 1
  funext d
  match d with
  | ⟨0, _⟩ => rfl
  | ⟨1, _⟩ => rfl
  | ⟨2, _⟩ => rfl

/-- Row 132 of the weight matrix, laid over the pair plane. -/
theorem w132_apply (hs : S139x128.Slices ![132, 0] S1x128) (hc : S1x128.ShapeCasts S128)
    (h1 : S128.BroadcastsInDim S1x1x1x128 ![3]) (h2 : S1x1x1x128.BroadcastsInDim S1x1024x1024x128 ![0, 1, 2, 3])
    (W : S139x128.Idx → α) (p q : Fin 1024) (c : Fin 128) :
    broadcastInDim S1x1024x1024x128 ![0, 1, 2, 3] h2
        (broadcastInDim S1x1x1x128 ![3] h1 (shapeCast S128 (extractStridedSlice S1x128 ![132, 0] W hs) hc)) (ix4 (0 : Fin 1) p q c)
      = W (ix2 (⟨132, by decide⟩ : Fin 139) c) := by
  have hb : broadcastInDim S1x1024x1024x128 ![0, 1, 2, 3] h2
        (broadcastInDim S1x1x1x128 ![3] h1 (shapeCast S128 (extractStridedSlice S1x128 ![132, 0] W hs) hc)) (ix4 (0 : Fin 1) p q c)
      = shapeCast S128 (extractStridedSlice S1x128 ![132, 0] W hs) hc (ix1 c) := by
    unfold broadcastInDim
    congr 1
    funext d
    match d with
    | ⟨0, _⟩ => rfl
  rw [hb, shapeCast_1a_a_apply]
  unfold extractStridedSlice
  congr 1
  funext d
  match d with
  | ⟨0, _⟩ => rfl
  | ⟨1, _⟩ => exact Fin.ext (Nat.zero_add _)

end Read

theorem colT_apply (x : IVec S1x1024 32) (p q : Fin 1024) : colT x (ix3 (0 : Fin 1) p q) = x (ix2 (0 : Fin 1) q) :=
  colB_apply _ _ x p q

theorem rowT_apply (x : IVec S1x1024 32) (p q : Fin 1024) : rowT x (ix3 (0 : Fin 1) p q) = x (ix2 (0 : Fin 1) p) :=
  rowB_apply _ _ x p q

theorem sameT_apply (x : IVec S1x1024 32) (p q : Fin 1024) :
    sameT x (ix3 (0 : Fin 1) p q) = IntOp.cmpi .eq (x (ix2 (0 : Fin 1) q)) (x (ix2 (0 : Fin 1) p)) := by
  show IntOp.cmpi .eq (colT x (ix3 (0 : Fin 1) p q)) (rowT x (ix3 (0 : Fin 1) p q)) = _
  rw [colT_apply, rowT_apply]

theorem offT_apply (hi off : BitVec 32) (x : IVec S1x1024 32) (p q : Fin 1024) :
    offT hi off x (ix3 (0 : Fin 1) p q) = Cert.Spec.relPos hi off (x (ix2 (0 : Fin 1) q)) (x (ix2 (0 : Fin 1) p)) := by
  show IntOp.minsi hi (IntOp.maxsi 0#32
    (IntOp.addi (IntOp.subi (colT x (ix3 (0 : Fin 1) p q)) (rowT x (ix3 (0 : Fin 1) p q))) off)) = _
  rw [colT_apply, rowT_apply]
  rfl

theorem dResT_apply (a r : IVec S1x1024 32) (p q : Fin 1024) :
    dResT a r (ix3 (0 : Fin 1) p q)
      = Cert.Spec.dResS (a (ix2 (0 : Fin 1) p)) (a (ix2 (0 : Fin 1) q)) (r (ix2 (0 : Fin 1) p)) (r (ix2 (0 : Fin 1) q)) := by
  show Scalar.select (sameT a (ix3 (0 : Fin 1) p q)) (offT 64#32 32#32 r (ix3 (0 : Fin 1) p q)) 65#32 = _
  rw [sameT_apply, offT_apply]
  rfl

theorem dTokT_apply (a r t : IVec S1x1024 32) (p q : Fin 1024) :
    dTokT a r t (ix3 (0 : Fin 1) p q)
      = Cert.Spec.dTokS (a (ix2 (0 : Fin 1) p)) (a (ix2 (0 : Fin 1) q)) (r (ix2 (0 : Fin 1) p)) (r (ix2 (0 : Fin 1) q))
          (t (ix2 (0 : Fin 1) p)) (t (ix2 (0 : Fin 1) q)) := by
  show Scalar.select (IntOp.andi (sameT a (ix3 (0 : Fin 1) p q)) (sameT r (ix3 (0 : Fin 1) p q)))
    (offT 64#32 32#32 t (ix3 (0 : Fin 1) p q)) 65#32 = _
  rw [sameT_apply, sameT_apply, offT_apply]
  rfl

/-- The complement of a bit is the bit flipped by exclusive or with one. -/
theorem not_bit (b : BitVec 1) : ~~~b = IntOp.xori b 1#1 := by
  rcases BitVec.eq_zero_or_eq_one b with rfl | rfl <;> rfl

theorem dChnT_apply (a s : IVec S1x1024 32) (p q : Fin 1024) :
    dChnT a s (ix3 (0 : Fin 1) p q)
      = Cert.Spec.dChnS (a (ix2 (0 : Fin 1) p)) (a (ix2 (0 : Fin 1) q)) (s (ix2 (0 : Fin 1) p)) (s (ix2 (0 : Fin 1) q)) := by
  show Scalar.select (~~~(sameT a (ix3 (0 : Fin 1) p q))) (offT 4#32 2#32 s (ix3 (0 : Fin 1) p q)) 5#32 = _
  rw [sameT_apply, offT_apply, not_bit]
  rfl

/-- A bit read as an unsigned number is its indicator. -/
theorem bit_toReal (b : BitVec 1) : ((b.toNat : ℝ) : EReal) = Cert.Spec.ind b := by
  rcases BitVec.eq_zero_or_eq_one b with rfl | rfl
  · show (((0 : ℕ) : ℝ) : EReal) = if (0#1 : BitVec 1) = 1#1 then 1 else 0
    rw [if_neg (by decide)]; simp
  · show (((1 : ℕ) : ℝ) : EReal) = if (1#1 : BitVec 1) = 1#1 then 1 else 0
    rw [if_pos rfl]; simp

theorem entT_apply (e : IVec S1x1024 32) (W : FVec Ideal S139x128 .f32) (p q : Fin 1024) (c : Fin 128) :
    entT e W (ix4 (0 : Fin 1) p q c)
      = Cert.Spec.ind (Cert.Spec.sameEntS (e (ix2 (0 : Fin 1) p)) (e (ix2 (0 : Fin 1) q))) * Cert.Spec.rowAt W 132 c := by
  unfold entT
  rw [mulf_apply, chanB_apply, w132_apply, Cert.Spec.rowAt_of_lt W 132 (by decide) c]
  show (((sameT e (ix3 (0 : Fin 1) p q)).toNat : ℝ) : EReal) * _ = _
  rw [bit_toReal, sameT_apply]
  rfl

/-! ## A row lookup at an entry whose row number is known -/

theorem takeT_row (W : FVec Ideal S139x128 .f32) (idx : IVec S1x1024x1024 32) (p q : Fin 1024) (c : Fin 128)
    (d : BitVec 32) (hd : idx (ix3 (0 : Fin 1) p q) = d) (h0 : 0 ≤ d.toInt) (h1 : d.toNat < 139) :
    takeT W idx (ix4 (0 : Fin 1) p q c) = Cert.Spec.rowAt W d.toNat c := by
  subst hd
  rw [takeT_apply W idx p q c h0 h1, Cert.Spec.rowAt_of_lt W _ h1 c]

/-! ## The reference computes the specification -/

section Final
variable (a r e t s : IVec S1x1024 32) (W : FVec Ideal S139x128 .f32) (p q : Fin 1024) (c : Fin 128)

/-- The residue lookup reads the row the specification's residue bin names. -/
theorem take_res :
    takeT W (dResT a r) (ix4 (0 : Fin 1) p q c)
      = Cert.Spec.rowAt W (Cert.Spec.dResS (a (ix2 (0 : Fin 1) p)) (a (ix2 (0 : Fin 1) q)) (r (ix2 (0 : Fin 1) p))
          (r (ix2 (0 : Fin 1) q))).toNat c :=
  takeT_row W (dResT a r) p q c _ (dResT_apply a r p q) (Cert.Spec.dResS_toInt_nonneg _ _ _ _)
    (Cert.Spec.dResS_row_lt _ _ _ _)

/-- The token lookup reads row 66 plus the specification's token bin. -/
theorem take_tok :
    takeT W (addi (bandT 66#32) (dTokT a r t)) (ix4 (0 : Fin 1) p q c)
      = Cert.Spec.rowAt W (66 + (Cert.Spec.dTokS (a (ix2 (0 : Fin 1) p)) (a (ix2 (0 : Fin 1) q)) (r (ix2 (0 : Fin 1) p))
          (r (ix2 (0 : Fin 1) q)) (t (ix2 (0 : Fin 1) p)) (t (ix2 (0 : Fin 1) q))).toNat) c := by
  have hT : addi (bandT 66#32) (dTokT a r t) (ix3 (0 : Fin 1) p q)
      = IntOp.addi 66#32 (Cert.Spec.dTokS (a (ix2 (0 : Fin 1) p)) (a (ix2 (0 : Fin 1) q)) (r (ix2 (0 : Fin 1) p))
          (r (ix2 (0 : Fin 1) q)) (t (ix2 (0 : Fin 1) p)) (t (ix2 (0 : Fin 1) q))) := by
    show IntOp.addi 66#32 (dTokT a r t (ix3 (0 : Fin 1) p q)) = _
    rw [dTokT_apply]
  have hlt := Cert.Spec.dTokS_lt (a (ix2 (0 : Fin 1) p)) (a (ix2 (0 : Fin 1) q)) (r (ix2 (0 : Fin 1) p))
    (r (ix2 (0 : Fin 1) q)) (t (ix2 (0 : Fin 1) p)) (t (ix2 (0 : Fin 1) q))
  rw [takeT_row W (addi (bandT 66#32) (dTokT a r t)) p q c _ hT (Cert.Spec.addi66_toInt_nonneg _ hlt)
    (Cert.Spec.addi66_lt _ hlt), Cert.Spec.addi66 _ hlt]

/-- The chain lookup reads row 133 plus the specification's chain bin. -/
theorem take_chn :
    takeT W (addi (bandT 133#32) (dChnT a s)) (ix4 (0 : Fin 1) p q c)
      = Cert.Spec.rowAt W (133 + (Cert.Spec.dChnS (a (ix2 (0 : Fin 1) p)) (a (ix2 (0 : Fin 1) q)) (s (ix2 (0 : Fin 1) p))
          (s (ix2 (0 : Fin 1) q))).toNat) c := by
  have hC : addi (bandT 133#32) (dChnT a s) (ix3 (0 : Fin 1) p q)
      = IntOp.addi 133#32 (Cert.Spec.dChnS (a (ix2 (0 : Fin 1) p)) (a (ix2 (0 : Fin 1) q)) (s (ix2 (0 : Fin 1) p))
          (s (ix2 (0 : Fin 1) q))) := by
    show IntOp.addi 133#32 (dChnT a s (ix3 (0 : Fin 1) p q)) = _
    rw [dChnT_apply]
  have hlt := Cert.Spec.dChnS_lt (a (ix2 (0 : Fin 1) p)) (a (ix2 (0 : Fin 1) q)) (s (ix2 (0 : Fin 1) p))
    (s (ix2 (0 : Fin 1) q))
  rw [takeT_row W (addi (bandT 133#32) (dChnT a s)) p q c _ hC (Cert.Spec.addi133_toInt_nonneg _ hlt)
    (Cert.Spec.addi133_lt _ hlt), Cert.Spec.addi133 _ hlt]

end Final

/-- The reference's result at an entry, as the specification's sum with its last two summands exchanged. -/
theorem refTerm_apply (a r e t s : IVec S1x1024 32) (W : FVec Ideal S139x128 .f32) (p q : Fin 1024) (c : Fin 128) :
    refTerm (F := Ideal) a r e t s W (ix4 (0 : Fin 1) p q c)
      = ((takeT W (dResT a r) (ix4 (0 : Fin 1) p q c) + takeT W (addi (bandT 66#32) (dTokT a r t)) (ix4 (0 : Fin 1) p q c))
          + entT e W (ix4 (0 : Fin 1) p q c)) + takeT W (addi (bandT 133#32) (dChnT a s)) (ix4 (0 : Fin 1) p q c) := by
  rw [refTerm_stages, addf_apply, addf_apply, addf_apply]

theorem refTerm_eq (a r e t s : IVec S1x1024 32) (W : FVec Ideal S139x128 .f32) :
    refTerm (F := Ideal) a r e t s W = Cert.Spec.G a r e t s W := by
  apply Cert.Spec.ext_ix4
  intro p q c
  rw [refTerm_apply, Cert.Spec.G_apply, take_res, take_tok, take_chn, entT_apply]
  exact add_right_comm _ _ _

end Cert.ReferenceIdeal.Hand

end
-- ==== Proof.lean ====
/-
  The relative-position encoding kernel against its reference: the certificate's five claims.

  The result at the pair (p, q) and channel c is the sum of three rows of the weight matrix W, selected by three
  clamped integer features of the two tokens' ids (residue offset, token offset, chain offset; each with a sentinel
  bin when its gate is off), plus the same-entity bit times row 132 (Proof/Spec.lean, the function G).
  The kernel selects the rows by one-hot matrix products over 128 x 128 tiles of the pair plane, the reference by
  gathers: a product of a one-hot row with a band of W is the selected row (0 · x = 0 and 1 · x = x on the extended
  reals, whatever x), and on row numbers that are in range the gather's wrap, range test and clamp do nothing. Both
  programs are shown to end with the result array at G of the argument arrays; neither proof uses the precondition.

  The three frames: the kernel's (word level and idealized) from the pipeline's frame run for windows that share
  arrays (each id vector is handed to the kernel twice, as a row-side and a column-side window, its share split in
  halves), the reference's from its run.
-/
import proofs.«412935_j89404039233854_3_alg».proof.Defs
import proofs.«412935_j89404039233854_3_alg».proof.Proof.Gen.Kernel
import proofs.«412935_j89404039233854_3_alg».proof.Proof.Gen.KernelIdeal
import proofs.«412935_j89404039233854_3_alg».proof.Proof.Gen.ReferenceIdeal
import proofs.«412935_j89404039233854_3_alg».proof.Proof.Gen.Pre_finite_inputs
import proofs.«412935_j89404039233854_3_alg».proof.Proof.KLaunchBits
import proofs.«412935_j89404039233854_3_alg».proof.Proof.KValue
import proofs.«412935_j89404039233854_3_alg».proof.Proof.RRun
import proofs.«412935_j89404039233854_3_alg».proof.Proof.RValue

noncomputable section

namespace Cert.Proof

open Idealize.ShloMosaic Idealize.SL.Sem

/-- The word-level kernel runs and leaves its six argument arrays as they were. -/
theorem frame_kernel : Cert.frame_Kernel := fun m ρ _ => Cert.Kernel.Hand.frame (F := Bits) m ρ

/-- The idealized kernel runs and leaves its six argument arrays as they were. -/
theorem frame_kernelIdeal : Cert.frame_KernelIdeal := fun m ρ _ => Cert.KernelIdeal.Hand.frame (F := Ideal) m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- At the ideal instance both programs end with the result array at `G` of the argument arrays, which agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Hand.run m ρ, ?_⟩
  refine (θ_run Cert.ReferenceIdeal.defs _ _).mono (fun _ h c => ⟨?_, (h c).2⟩) (Cert.ReferenceIdeal.Hand.run (F := Ideal) m' ρ')
  rw [(h c).1, Cert.ReferenceIdeal.Hand.refTerm_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
